-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S4096x8 : Shape := ⟨2, ![4096, 8]⟩
abbrev S8 : Shape := ⟨1, ![8]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  main_v38

def fn_part1 {F : FTy → Type} [FloatOps F] (main_arg4 : FVec F S4096x8 .f32) (main_arg5 : FVec F S8 .f32) (main_arg6 : FVec F S8 .f32) (main_arg7 : FVec F S8 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S4096x1024 .f32) (main_arg2 : FVec F S4096x4096 .f32) (main_arg3 : FVec F S4096x4096 .f32) (main_arg4 : FVec F S4096x8 .f32) (main_arg5 : FVec F S8 .f32) (main_arg6 : FVec F S8 .f32) (main_arg7 : FVec F S8 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_v13 main_v16
-- ==== Kernel.lean ====
abbrev S4096x1024 : Shape := ⟨2, ![4096, 1024]⟩
abbrev S4096x4096 : Shape := ⟨2, ![4096, 4096]⟩
abbrev S4096x8 : Shape := ⟨2, ![4096, 8]⟩
abbrev S8 : Shape := ⟨1, ![8]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S8x1 : Shape := ⟨2, ![8, 1]⟩
abbrev S8x3 : Shape := ⟨2, ![8, 3]⟩
abbrev S4096x3 : Shape := ⟨2, ![4096, 3]⟩
abbrev S4096x1 : Shape := ⟨2, ![4096, 1]⟩

abbrev nBuf : Space → Nat
  | .hbm => 19
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x4096, .f32⟩
  | .hbm, ⟨4, _⟩ => ⟨S4096x8, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S4096x1024, .bf16⟩
  | .hbm, ⟨9, _⟩ => ⟨S4096x1024, .bf16⟩
  | .hbm, ⟨10, _⟩ => ⟨S8x1, .f32⟩
  | .hbm, ⟨11, _⟩ => ⟨S8x1, .f32⟩
  | .hbm, ⟨12, _⟩ => ⟨S8x1, .f32⟩
  | .hbm, ⟨13, _⟩ => ⟨S8x3, .f32⟩
  | .hbm, ⟨14, _⟩ => ⟨S4096x3, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x512, .f32⟩
  | .local _ .vmem, ⟨32, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg8_1 : Ref sig .tc := ⟨.vmem, 30, rfl⟩
abbrev cc2_stg9_0 : Ref sig .tc := ⟨.vmem, 31, rfl⟩
abbrev cc2_stg9_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem8_1 : DmaSem sig := 29
abbrev cc2_sem9_0 : DmaSem sig := 30
abbrev cc2_sem9_1 : DmaSem sig := 31

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S512x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S512x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S512x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S512x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S512x1024_S512x1024_0_0 : (Rect.unit (s := S512x1024) ![0, 0] S512x1024.size inb_S512x1024_S512x1024_0_0).PackedRows (EltTy.packing .bf16)
  reduces_S512x1024_S512 : S512x1024.Reduces [1] S512
  shapeCasts_S512_S512x1 : S512.ShapeCasts S512x1
  broadcasts_S512x1_S512x1024 : S512x1.Broadcasts S512x1024
  bcast_S8_S8x1_0 : S8.BroadcastsInDim S8x1 (![0] : Fin 1 → Fin S8x1.rank)
  concatenates_S8x1_S8x1_S8x1_S8x3_d1 : Shape.Concatenates [S8x1, S8x1, S8x1] S8x3 1
  slices_S4096x3_S4096x1_0_0 : S4096x3.Slices ![0, 0] S4096x1
  slices_S4096x3_S4096x1_0_1 : S4096x3.Slices ![0, 1] S4096x1
  slices_S4096x3_S4096x1_0_2 : S4096x3.Slices ![0, 2] S4096x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  dot_S512x512_S512x1024_S512x1024_1_0_0_1_n_n_wf : DotDims.WF S512x512 S512x1024 S512x1024 [1] [0] [0] [1] [] []
  dot_S4096x8_S8x3_S4096x3_1_0_0_1_n_n_wf : DotDims.WF S4096x8 S8x3 S4096x3 [1] [0] [0] [1] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .bf16 = 32 ∨ (Rect.block (s := S4096x1024) S512x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x4096.size a
  hwx2_0 : ∀ i : grid2.Coords, EltTy.bits .f32 = 32 ∨ (Rect.block (s := S4096x4096) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S4096x4096.size a
  hwx2_1 : ∀ i : grid2.Coords, EltTy.bits .f32 = 32 ∨ (Rect.block (s := S4096x4096) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .bf16 = 32 ∨ (Rect.block (s := S4096x1024) S512x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1024.size a ≤ S4096x1024.size a
  hwx2_4 : ∀ i : grid2.Coords, EltTy.bits .bf16 = 32 ∨ (Rect.block (s := S4096x1024) S512x1024.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S4096x1024.size a
  hwx2_5 : ∀ i : grid2.Coords, EltTy.bits .bf16 = 32 ∨ (Rect.block (s := S4096x1024) S512x1024.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1.size a ≤ S4096x1.size a
  hwx2_6 : ∀ i : grid2.Coords, EltTy.bits .f32 = 32 ∨ (Rect.block (s := S4096x1) S512x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x1.size a ≤ S4096x1.size a
  hwx2_7 : ∀ i : grid2.Coords, EltTy.bits .f32 = 32 ∨ (Rect.block (s := S4096x1) S512x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S512x1.size a ≤ S4096x1.size a
  hwx2_8 : ∀ i : grid2.Coords, EltTy.bits .f32 = 32 ∨ (Rect.block (s := S4096x1) S512x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S512x512.size a ≤ S4096x4096.size a
  hwx2_9 : ∀ i : grid2.Coords, EltTy.bits .f32 = 32 ∨ (Rect.block (s := S4096x4096) S512x512.size (cc2_transform_9 i) (hinb2_9 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S4096x8_S8x3_S4096x3_1_0_0_1_n_n : DotDims S4096x8 S8x3 S4096x3 where
  lhsContracting := [1]
  rhsContracting := [0]
  lhsNonContracting := [0]
  rhsNonContracting := [1]
  lhsBatch := []
  rhsBatch := []
  wf := dot_S4096x8_S8x3_S4096x3_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg2) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v0) S512x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v0) S512x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v7) S512x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v8) S512x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v9) S512x1.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v10) S512x512.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S4096x8 : Shape := ⟨2, ![4096, 8]⟩
abbrev S8 : Shape := ⟨1, ![8]⟩
abbrev S1024x4096 : Shape := ⟨2, ![1024, 4096]⟩
abbrev S_ : Shape := ⟨0, ![]⟩
abbrev S8x1 : Shape := ⟨2, ![8, 1]⟩
abbrev S4096x1 : Shape := ⟨2, ![4096, 1]⟩
abbrev S4096 : Shape := ⟨1, ![4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x4096, .f32⟩
  | .hbm, ⟨4, _⟩ => ⟨S4096x8, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S4096x1024, .f32⟩
  | .hbm, ⟨9, _⟩ => ⟨S4096x1024, .f32⟩
  | .hbm, ⟨10, _⟩ => ⟨S1024x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S8x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .i1⟩
  | .hbm, ⟨27, _⟩ => ⟨S_, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .i1⟩
  | .hbm, ⟨41, _⟩ => ⟨S_, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S1024x4096, .f32⟩
  | .hbm, ⟨48, _⟩ => ⟨S4096x4096, .f32⟩
  | .hbm, ⟨49, _⟩ => ⟨S4096x4096, .f32⟩
  | .hbm, ⟨50, _⟩ => ⟨S8x1, .f32⟩
  | .hbm, ⟨51, _⟩ => ⟨S4096x1, .f32⟩
  | .hbm, ⟨52, _⟩ => ⟨S4096x4096, .f32⟩
  | .hbm, ⟨53, _⟩ => ⟨S4096x4096, .f32⟩
  | .hbm, ⟨54, _⟩ => ⟨S8x1, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  bcast_S8_S8x1_0 : S8.BroadcastsInDim S8x1 (![0] : Fin 1 → Fin S8x1.rank)
  bcast_S4096x1_S4096x4096_0_1 : S4096x1.BroadcastsInDim S4096x4096 (![0, 1] : Fin 2 → Fin S4096x4096.rank)
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  dot_S4096x4096_S4096x1024_S4096x1024_1_0_0_1_n_n_wf : DotDims.WF S4096x4096 S4096x1024 S4096x1024 [1] [0] [0] [1] [] []
  dot_S4096x1024_S1024x4096_S4096x4096_1_0_0_1_n_n_wf : DotDims.WF S4096x1024 S1024x4096 S4096x4096 [1] [0] [0] [1] [] []
  dot_S4096x8_S8x1_S4096x1_1_0_0_1_n_n_wf : DotDims.WF S4096x8 S8x1 S4096x1 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x8_S8x1_S4096x1_1_0_0_1_n_n : DotDims S4096x8 S8x1 S4096x1 where
  lhsContracting := [1]
  rhsContracting := [0]
  lhsNonContracting := [0]
  rhsNonContracting := [1]
  lhsBatch := []
  rhsBatch := []
  wf := dot_S4096x8_S8x1_S4096x1_1_0_0_1_n_n_wf

class Facts : Prop extends Facts₀ where

variable [Facts]
-- ==== Proof.Bits.NeighData.lean ====
/-
  The neighbour sums (the first pallas_call): what the pipeline is told about it.
  A grid of 8 x 8 points, the second coordinate k innermost.  Point (m, k) reads the 512 x 512 tile of next_action at
  block row m, block column k, and rows 512 k .. 512 k + 511 of feature and of next_feature, and adds to a running
  512 x 1024 sum kept in scratch the product of that tile with the difference of those rows; the running sum starts
  from zero at k = 0 and is written to block row m of the result at k = 7 only.
-/
import proofs.«100355_j43800076484745_1_alg».proof.Proof.Gen.Kernel.Launch
import proofs.«100355_j43800076484745_1_alg».proof.Proof.Gen.Kernel.Skeleton
import proofs.«100355_j43800076484745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum in scratch after the body at position n of the grid: the tile's product with the row difference
    added to zero when n starts a block row (n a multiple of 8), and to what position n - 1 left otherwise. -/
def accAt0 (c : Dev nD) : (n : ℕ) → n < cfg0.N → Vec F S512x1024 .f32
  | 0, h => k0_pay2 (iblk0 V c 1 ⟨0, h⟩) (iblk0 V c 2 ⟨0, h⟩) (iblk0 V c 0 ⟨0, h⟩) (k0_pay1 (F := F))
  | n + 1, h => k0_pay2 (iblk0 V c 1 ⟨n + 1, h⟩) (iblk0 V c 2 ⟨n + 1, h⟩) (iblk0 V c 0 ⟨n + 1, h⟩)
      (if (n + 1) % 8 = 0 then k0_pay1 (F := F) else accAt0 c n (Nat.lt_of_succ_lt h))

/-- The scratch buffer that carries the running sum. -/
abbrev accRef : Memref sig .tc .vmem S512x1024 .f32 := Memref.whole cc0_scratch0

/-- The region's invariant before position n: at the start whatever the scoped buffers hold; afterwards the scratch at
    the running sum position n - 1 left, the other scoped buffers at anything, the generator register at some state. -/
def PhiAcc (c : Dev nD) : (n : ℕ) → n ≤ cfg0.N → sProp 𝕄
  | 0, _ => Pipeline.ΦA spec0 c
  | n + 1, hn => iprop(owns (c : Thread nD τ) accRef fullShare (accAt0 V c n hn)
      ∗ Pipeline.scopedRestBut (Ix := Unit) (Name := ℕ) (U := UR sig nD τ) (Lvl := ℕ) (Val := Elt F) spec0 c [cc0_scratch0]
      ∗ (∃ r, prngReg c r))

/-- The proof data of the neighbour-sum region on core c: the inputs' buffers keep their blocks; the output's buffer,
    where it is stored (k = 7), holds the running sum narrowed to the result's format. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt)
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (accAt0 V c t.val t.isLt) := by dsimp only [dat0]

theorem PhiAcc_zero (c : Dev nD) (n : ℕ) (h : n ≤ cfg0.N) (hz : n = 0) : PhiAcc V c n h = Pipeline.ΦA spec0 c := by
  subst hz; rfl
theorem PhiAcc_succ (c : Dev nD) (n : ℕ) (hn : n < cfg0.N) :
    PhiAcc V c (n + 1) hn = iprop(owns (c : Thread nD τ) accRef fullShare (accAt0 V c n hn)
      ∗ Pipeline.scopedRestBut (Ix := Unit) (Name := ℕ) (U := UR sig nD τ) (Lvl := ℕ) (Val := Elt F) spec0 c [cc0_scratch0]
      ∗ (∃ r, prngReg c r)) := rfl

end Cert.Kernel.Hand

end
-- ==== Proof.Bits.NormData.lean ====
/-
  Row normalisation, applied twice (the second pallas_call): what the pipeline is told about it.
  A grid of 8 points; point t reads rows 512 t .. 512 t + 511 of next_feature whole (a 512 x 1024 block) and
  writes the same rows of the result: each row divided by its Euclidean norm (by 1 where the norm is not
  positive), and the quotient normalised once more in the same way.  Nothing is carried between points.
-/
import proofs.«100355_j43800076484745_1_alg».proof.Proof.Gen.Kernel.Launch
import proofs.«100355_j43800076484745_1_alg».proof.Proof.Gen.Kernel.Skeleton
import proofs.«100355_j43800076484745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 512 x 1024 block as a rectangle of itself. -/
abbrev rRows : Rect S512x1024 := Rect.unit (s := S512x1024) ![0, 0] S512x1024.size inb_S512x1024_S512x1024_0_0

/-- What the body leaves in the output block: the twice-normalised rows of the input block. -/
def normOut (x0 : Vec F S512x1024 .f32) : Vec F S512x1024 .bf16 :=
  View.canon [⟨rRows, k1_pay1 (View.ld x0 rRows)⟩]

/-- The proof data of the normalisation region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => normOut (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = normOut (iblk1 V c 0 t) := by dsimp only [dat1]

end Cert.Kernel.Hand

end
-- ==== Proof.Bits.FuseData.lean ====
/-
  The fused output (the third pallas_call): what the pipeline is told about it.
  A grid of 8 x 8 points; point (i, j) produces the 512 x 512 tile of the result at block row i, block column j from
  the same tile of next_action and of edges, the row blocks i and j of the twice-normalised features and of the
  neighbour sums (each of these two arrays is read through two windows, one at block row i and one at block row j),
  and rows 512 i .. 512 i + 511 of the three persona columns.  Nothing is carried between points.
-/
import proofs.«100355_j43800076484745_1_alg».proof.Proof.Gen.Kernel.Launch
import proofs.«100355_j43800076484745_1_alg».proof.Proof.Gen.Kernel.Skeleton
import proofs.«100355_j43800076484745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A 512 x 1024 row block, a 512 x 512 tile and a 512 x 1 column, each as a rectangle of itself. -/
abbrev rRows2 : Rect S512x1024 := Rect.unit (s := S512x1024) ![0, 0] S512x1024.size inb_S512x1024_S512x1024_0_0
abbrev rTile2 : Rect S512x512 := Rect.unit (s := S512x512) ![0, 0] S512x512.size inb_S512x512_S512x512_0_0
abbrev rCol2 : Rect S512x1 := Rect.unit (s := S512x1) ![0, 0] S512x1.size inb_S512x1_S512x1_0_0

/-- What the body leaves in the output tile, from the nine input blocks (in window order: the next_action tile, the
    edges tile, the normalised rows at i and at j, the neighbour sums at i and at j, the three persona columns). -/
def fuseOut (x0 x1 : Vec F S512x512 .f32) (x2 x3 x4 x5 : Vec F S512x1024 .bf16) (x6 x7 x8 : Vec F S512x1 .f32) : Vec F S512x512 .f32 :=
  View.canon [⟨rTile2, k2_pay1 (View.ld x2 rRows2) (View.ld x3 rRows2) (View.ld x4 rRows2) (View.ld x5 rRows2)
    (View.ld x0 rTile2) (View.ld x1 rTile2) (View.ld x6 rCol2) (View.ld x7 rCol2) (View.ld x8 rCol2)⟩]

/-- The proof data of the fused region on core c.  The two arrays read through two windows each are held half and
    half by their windows. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => fuseOut (iblk2 V c 0 t) (iblk2 V c 1 t) (iblk2 V c 2 t) (iblk2 V c 3 t) (iblk2 V c 4 t) (iblk2 V c 5 t)
        (iblk2 V c 6 t) (iblk2 V c 7 t) (iblk2 V c 8 t)
  Φ _ := Pipeline.ΦA spec2 c
  q w := match w with
    | ⟨2, _⟩ => fullShare.left
    | ⟨3, _⟩ => fullShare.right
    | ⟨4, _⟩ => fullShare.left
    | ⟨5, _⟩ => fullShare.right
    | _ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = fuseOut (iblk2 V c 0 t) (iblk2 V c 1 t) (iblk2 V c 2 t) (iblk2 V c 3 t) (iblk2 V c 4 t) (iblk2 V c 5 t)
    (iblk2 V c 6 t) (iblk2 V c 7 t) (iblk2 V c 8 t) := by dsimp only [dat2]

end Cert.Kernel.Hand

end
-- ==== Proof.Bits.NormBody.lean ====
/-
  Row normalisation, applied twice (the second pallas_call): what one run of the body does to its two buffers,
  and from that the obligation the pipeline asks of the body at each of its 8 points.

  The body reads the whole 512 x 1024 input buffer, x0 say, reads the output buffer (its old contents are not
  used: the store that follows replaces all of them), and stores into the whole output buffer the rows of x0
  divided by their Euclidean norm twice over and rounded to bf16.  So it leaves the input buffer at x0 and the
  output buffer at normOut x0, whatever the output buffer held before.  At a point t the input buffer holds block t
  of next_feature (the window is fetched at every point and its blocks lie inside the array), which gives the
  obligation with the proof data of NormData.
-/
import proofs.«100355_j43800076484745_1_alg».proof.Proof.Gen.Kernel.Launch
import proofs.«100355_j43800076484745_1_alg».proof.Proof.Gen.Kernel.Skeleton
import proofs.«100355_j43800076484745_1_alg».proof.Proof.Gen.Kernel.Points
import proofs.«100355_j43800076484745_1_alg».proof.Proof.Bits.NormData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## What the body finds in the input buffer -/

/-- At every point the input buffer holds that point's block of the array: the window is fetched at every point,
    and a fetch of a block that lies inside the array fills the whole buffer with it. -/
theorem before1_0 (c : Dev nD) (t : Fin cfg1.N) (d) : (dat1 V c).before 0 t d = iblk1 V c 0 t := by
  rw [(dat1 V c).before_fetched 0 t (fetch1_0 t) d]
  unfold Dat.fetched Dat.blockOf iblk1
  rw [A_eq1]
  try rfl

/-! ## The one store covers the output buffer -/

/-- The body's store is to the whole 512 x 1024 rectangle, so every index of the output buffer lies in it. -/
theorem cover_rRows (p : Vec F S512x1024 .bf16) (y : S512x1024.Idx) :
    ∃ pc ∈ ([⟨rRows, p⟩] : List (View.Piece (Elt F) S512x1024 .bf16)), y ∈ pc.1.set :=
  View.cover_of_tiled [⟨rRows, p⟩] S512x1024.size (by rfl) y

/-! ## The body's triple -/

set_option maxHeartbeats 1000000 in
/-- The body on whole buffers, the input's at x0 and the output's at anything, runs to a state with the input's
    still at x0 and the output's at normOut x0: a load of the input, a load of the output (unused), and one store
    of the payload to the whole output rectangle, which covers the buffer, so that what it leaves does not depend on
    what was there. -/
theorem sound_normalize (c : Dev nD) (E : Set ℕ) (i : grid1.Coords)
    (arg1 : Memref sig .tc .vmem S512x1024 .f32) (harg1 : arg1.IsWhole)
    (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normOut x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · -- the input buffer was only read
    iexists f0; isplitr; · ipureintro; rfl
    iexact H0
  · -- the output buffer: what the store to the covering rectangle leaves is the store's own value
    iexists _; isplitr
    swap; · iexact H1
    ipureintro
    exact View.read_writes_eq_canon _ _ _ (cover_rRows _)

/-! ## The body obligation -/

/-- What the body is handed at point t: the invariant, what the core owes, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point t: its input buffer holds block t (before1_0), the output buffer holds anything, so the
    triple above applies at x0 := block t; the invariant and what the core owes are the same at t and t + 1 and
    are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, Hin⟩, ⟨%d1, Hout⟩⟩
  iapply (sound_normalize c Set.univ _ _ _ _ _ (iblk1 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

/-- The pipeline's obligation on the body, at every point: the two windows written out, then sound_body1. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.FuseBody.lean ====
/-
  The fused output (the third kernel region of the program): its body at a point of the 8 x 8 grid.
  The body reads nine blocks — the 512 x 512 tiles of next_action and of edges, the 512 x 1024 row blocks i and j of
  the twice-normalised features and of the neighbour sums, and the three 512 x 1 persona columns — and stores one
  512 x 512 tile: the similarity of the feature rows scaled entrywise by next_action and by the first column, minus
  edges scaled by the second column, plus the neighbour term (the product of the neighbour rows times 2^-10) scaled
  by the third column.  It keeps nothing between points and reads the output tile only to overwrite all of it.
  Three facts make the body obligation:
  * every input window's staging buffer holds that window's block at the point, whether or not the block was
    fetched there (five of the nine windows are fetched only when their block index moves, once per grid row);
  * the single store covers the output tile, so what the tile holds afterwards is the payload laid over it,
    whatever it held before;
  * the invariant and the core's dues pass through unread.
-/
import proofs.«100355_j43800076484745_1_alg».proof.Proof.Gen.Kernel.Launch
import proofs.«100355_j43800076484745_1_alg».proof.Proof.Gen.Kernel.Skeleton
import proofs.«100355_j43800076484745_1_alg».proof.Proof.Gen.Kernel.Points
import proofs.«100355_j43800076484745_1_alg».proof.Proof.Bits.FuseData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## What the body finds in each input window's buffer

An input window that the body leaves as found holds its block at every point: where it was fetched, the fetch put
the block there; where it was not, its block index is the previous point's, and so is its block.  No window here is
cut at its array's end and none is idle at any point. -/

/-- Window 0 (the next_action tile): its current buffer holds its block. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- Window 1 (the edges tile): its current buffer holds its block. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- Window 2 (the normalised rows at block row i): its current buffer holds its block. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-- Window 3 (the normalised rows at block row j): its current buffer holds its block. -/
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-- Window 4 (the neighbour sums at block row i): its current buffer holds its block. -/
theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

/-- Window 5 (the neighbour sums at block row j): its current buffer holds its block. -/
theorem before2_5 (c : Dev nD) (t : Fin cfg2.N) (d) : (dat2 V c).before 5 t d = iblk2 V c 5 t :=
  ((dat2 V c).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)

/-- Window 6 (the first persona column): its current buffer holds its block. -/
theorem before2_6 (c : Dev nD) (t : Fin cfg2.N) (d) : (dat2 V c).before 6 t d = iblk2 V c 6 t :=
  ((dat2 V c).before_in_eq_fetched 6 rfl (fun _ => rfl) (fun _ _ _ => rfl)
      (fun t => by rw [after2_6]; unfold Dat.blockOf iblk2; rw [A_eq2]; try rfl) t d).trans
    (by unfold Dat.fetched Dat.blockOf iblk2; rw [A_eq2]; try rfl)

/-- Window 7 (the second persona column): its current buffer holds its block. -/
theorem before2_7 (c : Dev nD) (t : Fin cfg2.N) (d) : (dat2 V c).before 7 t d = iblk2 V c 7 t :=
  ((dat2 V c).before_in_eq_fetched 7 rfl (fun _ => rfl) (fun _ _ _ => rfl)
      (fun t => by rw [after2_7]; unfold Dat.blockOf iblk2; rw [A_eq2]; try rfl) t d).trans
    (by unfold Dat.fetched Dat.blockOf iblk2; rw [A_eq2]; try rfl)

/-- Window 8 (the third persona column): its current buffer holds its block. -/
theorem before2_8 (c : Dev nD) (t : Fin cfg2.N) (d) : (dat2 V c).before 8 t d = iblk2 V c 8 t :=
  ((dat2 V c).before_in_eq_fetched 8 rfl (fun _ => rfl) (fun _ _ _ => rfl)
      (fun t => by rw [after2_8]; unfold Dat.blockOf iblk2; rw [A_eq2]; try rfl) t d).trans
    (by unfold Dat.fetched Dat.blockOf iblk2; rw [A_eq2]; try rfl)

/-! ## The store covers the output tile -/

/-- The one store is through the whole 512 x 512 tile, so every index of the tile lies in it. -/
theorem cover2_9 (p0 : Vec F S512x512 .f32) (y : S512x512.Idx) :
    ∃ pc ∈ ([⟨rTile2, p0⟩] : List (View.Piece (Elt F) S512x512 .f32)), y ∈ pc.1.set :=
  View.cover_of_tiled [⟨rTile2, p0⟩] S512x512.size (by rfl) y

/-! ## The body's triple -/

set_option maxHeartbeats 1000000 in
/-- The body on whole staging memrefs, the nine inputs' reading x0 .. x8 (in window order) and the output's holding
    anything, runs to the continuation with the inputs' as they were and the output's reading fuseOut of the nine:
    nine whole-buffer loads, a load of the output tile whose value is not used, and one store through the whole
    tile, whose payload is k2_pay1 of the nine values loaded; what a covering store leaves is its payload, whatever
    was there. -/
theorem sound_kernel2 (c : Dev nD) (E : Set ℕ) (i : grid2.Coords) (arg2 : Memref sig .tc .vmem S512x512 .f32) (harg2 : arg2.IsWhole) (arg3 : Memref sig .tc .vmem S512x512 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole)
    (x0 x1 : Vec F S512x512 .f32) (x2 x3 x4 x5 : Vec F S512x1024 .bf16) (x6 x7 x8 : Vec F S512x1 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ (∃ d, owns (c : Thread nD τ) arg11 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare (fuseOut x0 x1 x2 x3 x4 x5 x6 x7 x8)) -∗ K ⟨⟩))
      ⊢ wp frame (wpE (defs₀ (F := F)) Variants.none c none) E (cc2__main_kernel i arg2 harg2 arg3 harg3 arg4 harg4 arg5 harg5 arg6 harg6 arg7 harg7 arg8 harg8 arg9 harg9 arg10 harg10 arg11 harg11) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The body obligation, at a generic point -/

/-- What the body is called with at point t: the invariant, the core's dues, and every window's current buffer at
    what it then holds, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns: the same at the next point, every buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so the body's triple applies at the nine blocks; the
    invariant and the core's dues are the same at the next point (nothing is carried, nothing is owed) and pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the fused region, at every point: the windows' conjunction written out one by one is the
    body's precondition and postcondition above. -/
theorem body_obligation2 (c : Dev nD) :
    BodyObligation (dat2 (F := F) V c) (defs₀ (F := F)) Variants.none () Set.univ := fun t => by
  rw [bigSep_W2, bigSep_W2]
  exact sound_body2 V c t

end Cert.Kernel.Hand

end
-- ==== Proof.Bits.FuseShares.lean ====
/-
  The fused output (the third kernel call): how its arrays are cut out of, and put back into, the core's unscoped
  buffers.  Two of its arrays are each read through two windows: the twice-normalised features through windows 2
  and 3, the neighbour sums through windows 4 and 5.  The pipeline holds such an array half and half — the left
  half of the full share for the first window, the right half for the second — so at the region's entry the whole
  buffer is split along the share, and at its exit the two halves are joined again.  The other six arrays are held
  whole, one window each.
-/
import proofs.«100355_j43800076484745_1_alg».proof.Proof.Bits.FuseData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- One window's array as the pipeline holds it — the elements its memref places, at the window's share — is the
    whole buffer at that share: every array of this region is a whole buffer. -/
theorem win_pointsTo2 (c : Dev nD) (w : Fin cfg2.W) (q : PosShare TreeShare) (hq : (dat2 V c).share w = q)
    (f : Buf (Elt F) ((cfg2.win w).arr.view.loc (c : Thread nD τ))) :
    ((cfg2.win w).arr.view.loc (c : Thread nD τ) ↦[(cfg2.win w).arr.view.set]{(dat2 V c).share w} f : sProp 𝕄)
      = ((cfg2.win w).arr.view.loc (c : Thread nD τ) ↦{q} f) := by
  rw [(Gen.arr_whole2 w).set_eq_univ, hq]

/-- The region's arrays at contents G, window by window. -/
theorem arrays2_eq (c : Dev nD) (G : (w : Fin cfg2.W) → Buf (Elt F) ((cfg2.win w).arr.view.loc (c : Thread nD τ))) :
    ((dat2 V c).arrays G : sProp 𝕄) = iprop(
      (((c : Thread nD τ).loc main_arg2) ↦{fullShare} G 0) ∗ (((c : Thread nD τ).loc main_arg3) ↦{fullShare} G 1)
      ∗ (((c : Thread nD τ).loc main_v1) ↦{fullShare.left} G 2) ∗ (((c : Thread nD τ).loc main_v1) ↦{fullShare.right} G 3)
      ∗ (((c : Thread nD τ).loc main_v0) ↦{fullShare.left} G 4) ∗ (((c : Thread nD τ).loc main_v0) ↦{fullShare.right} G 5)
      ∗ (((c : Thread nD τ).loc main_v7) ↦{fullShare} G 6) ∗ (((c : Thread nD τ).loc main_v8) ↦{fullShare} G 7)
      ∗ (((c : Thread nD τ).loc main_v9) ↦{fullShare} G 8) ∗ (((c : Thread nD τ).loc main_v10) ↦{fullShare} G 9)) := by
  unfold Dat.arrays
  rw [Gen.bigSep_W2]
  refine congrArg₂ _ (win_pointsTo2 V c 0 fullShare rfl _) (congrArg₂ _ (win_pointsTo2 V c 1 fullShare rfl _)
    (congrArg₂ _ (win_pointsTo2 V c 2 fullShare.left rfl _) (congrArg₂ _ (win_pointsTo2 V c 3 fullShare.right rfl _)
    (congrArg₂ _ (win_pointsTo2 V c 4 fullShare.left rfl _) (congrArg₂ _ (win_pointsTo2 V c 5 fullShare.right rfl _)
    (congrArg₂ _ (win_pointsTo2 V c 6 fullShare rfl _) (congrArg₂ _ (win_pointsTo2 V c 7 fullShare rfl _)
    (congrArg₂ _ (win_pointsTo2 V c 8 fullShare rfl _) (win_pointsTo2 V c 9 fullShare rfl _)))))))))

/-- The eight distinct buffers behind the region's ten windows, each whole at the full share. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄) = iprop(
      (((c : Thread nD τ).loc main_arg2) ↦{fullShare} V' main_arg2) ∗ (((c : Thread nD τ).loc main_arg3) ↦{fullShare} V' main_arg3)
      ∗ (((c : Thread nD τ).loc main_v1) ↦{fullShare} V' main_v1) ∗ (((c : Thread nD τ).loc main_v0) ↦{fullShare} V' main_v0)
      ∗ (((c : Thread nD τ).loc main_v7) ↦{fullShare} V' main_v7) ∗ (((c : Thread nD τ).loc main_v8) ↦{fullShare} V' main_v8)
      ∗ (((c : Thread nD τ).loc main_v9) ↦{fullShare} V' main_v9) ∗ (((c : Thread nD τ).loc main_v10) ↦{fullShare} V' main_v10)) := by
  unfold Pipeline.arrBufs
  exact bigSep_eq_bigSepL_of_eq [main_arg2, main_arg3, main_v1, main_v0, main_v7, main_v8, main_v9, main_v10] (by decide) (by decide) _

/-- The core's unscoped buffers are the eight buffers behind the region's windows and the rest. -/
theorem unscopedBufs_split2 (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec2 c V' ∗ Pipeline.unscopedRest spec2 c V') :=
  Pipeline.unscopedBufs_split₀ cfgs 2 Gen.winFacts₀2.arr_unscoped c V'

/-- ENTRY, the arrays' part: the eight buffers whole at the full share at contents V are the region's arrays at their
    entry contents, the two buffers read through two windows each split along the share. -/
theorem arrays_of_arrBufs2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrBufs2_eq, arrays2_eq]
  iintro ⟨H0, H1, Hv1, Hv0, H6, H7, H8, H9⟩
  ihave Hs1 := (pointsTo_share (PosShare.mem_left_op_right fullShare)).1 $$ Hv1
  icases Hs1 with ⟨H2, H3⟩
  ihave Hs0 := (pointsTo_share (PosShare.mem_left_op_right fullShare)).1 $$ Hv0
  icases Hs0 with ⟨H4, H5⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- ENTRY: the core's unscoped buffers, held at the valuation W, are the region's arrays at their entry contents and
    the unscoped rest. -/
theorem fuse_entry (W : Dev nD → Valuation τ sig (Elt F)) (c : Dev nD) :
    StableHlo.held (c : Thread nD τ) (Pipeline.ucRefs τ sig) (W c)
      ⊢ (iprop((dat2 (F := F) (fun c b => W c b) c).arrays ((dat2 (F := F) (fun c b => W c b) c).arrAt · 0)
          ∗ Pipeline.unscopedRest (Ix := Unit) (Name := ℕ) (U := UR sig nD τ) (Lvl := ℕ) spec2 c (fun b => W c b)) : sProp 𝕄) := by
  rw [← Pipeline.unscopedBufs_held (Ix := Unit) (Name := ℕ) (U := UR sig nD τ) (Lvl := ℕ) c (W c), unscopedBufs_split2]
  exact sep_mono (arrays_of_arrBufs2 (fun c b => W c b) c) .rfl

/-- EXIT, the arrays' part: the region's arrays at contents G are the eight buffers whole at the full share at any
    contents V' that each window's array agrees with — the two halves of a buffer read through two windows joined
    along the share. -/
theorem arrBufs_of_arrays2 (c : Dev nD) (G : (w : Fin cfg2.W) → Buf (Elt F) ((cfg2.win w).arr.view.loc (c : Thread nD τ)))
    (V' : (b : Ref sig .tc) → Buf (Elt F) ((c : Thread nD τ).loc b))
    (h0 : G 0 = V' main_arg2) (h1 : G 1 = V' main_arg3) (h2 : G 2 = V' main_v1) (h3 : G 3 = V' main_v1)
    (h4 : G 4 = V' main_v0) (h5 : G 5 = V' main_v0) (h6 : G 6 = V' main_v7) (h7 : G 7 = V' main_v8)
    (h8 : G 8 = V' main_v9) (h9 : G 9 = V' main_v10) :
    (dat2 V c).arrays G
      ⊢ (Pipeline.arrBufs (Ix := Unit) (Name := ℕ) (U := UR sig nD τ) (Lvl := ℕ) spec2 c V' : sProp 𝕄) := by
  rw [arrBufs2_eq, arrays2_eq, h0, h1, h2, h3, h4, h5, h6, h7, h8, h9]
  iintro ⟨H0, H1, H2, H3, H4, H5, H6, H7, H8, H9⟩
  isplitl [H0]; · iexact H0
  isplitl [H1]; · iexact H1
  isplitl [H2 H3]
  · iapply (pointsTo_share (PosShare.mem_left_op_right fullShare)).2
    isplitl [H2]; · iexact H2
    iexact H3
  isplitl [H4 H5]
  · iapply (pointsTo_share (PosShare.mem_left_op_right fullShare)).2
    isplitl [H4]; · iexact H4
    iexact H5
  isplitl [H6]; · iexact H6
  isplitl [H7]; · iexact H7
  isplitl [H8]; · iexact H8
  iexact H9

/-- EXIT: the region's arrays at their exit contents and the unscoped rest are the core's unscoped buffers held at the
    valuation W updated at the output's buffer to what the points left there: an input's array is never written, and
    no other buffer is touched. -/
theorem fuse_exit (W : Dev nD → Valuation τ sig (Elt F)) (c : Dev nD) :
    (iprop((dat2 (F := F) (fun c b => W c b) c).arrays ((dat2 (F := F) (fun c b => W c b) c).arrAt · cfg2.N)
          ∗ Pipeline.unscopedRest (Ix := Unit) (Name := ℕ) (U := UR sig nD τ) (Lvl := ℕ) spec2 c (fun b => W c b)) : sProp 𝕄)
      ⊢ StableHlo.held (c : Thread nD τ) (Pipeline.ucRefs τ sig)
          (Function.update (W c) (Proc.devRef .tc main_v10) ((dat2 (F := F) (fun c b => W c b) c).arrAt 9 cfg2.N)) := by
  rw [← Pipeline.unscopedBufs_held (Ix := Unit) (Name := ℕ) (U := UR sig nD τ) (Lvl := ℕ) c
    (Function.update (W c) (Proc.devRef .tc main_v10) ((dat2 (F := F) (fun c b => W c b) c).arrAt 9 cfg2.N)), unscopedBufs_split2]
  have hne : ∀ b : Ref sig .tc, b ≠ main_v10 →
      Function.update (W c) (Proc.devRef .tc main_v10) ((dat2 (F := F) (fun c b => W c b) c).arrAt 9 cfg2.N) (Proc.devRef .tc b)
        = W c (Proc.devRef .tc b) := fun b hb => Function.update_of_ne (StableHlo.devRef_ne_of_ne hb) _ _
  refine sep_mono (arrBufs_of_arrays2 (fun c b => W c b) c _ _ ?_ ?_ ?_ ?_ ?_ ?_ ?_ ?_ ?_ ?_) (Entails.of_eq ?_)
  · exact ((dat2 (F := F) (fun c b => W c b) c).arrAt_in 0 rfl _).trans (hne main_arg2 (by decide)).symm
  · exact ((dat2 (F := F) (fun c b => W c b) c).arrAt_in 1 rfl _).trans (hne main_arg3 (by decide)).symm
  · exact ((dat2 (F := F) (fun c b => W c b) c).arrAt_in 2 rfl _).trans (hne main_v1 (by decide)).symm
  · exact ((dat2 (F := F) (fun c b => W c b) c).arrAt_in 3 rfl _).trans (hne main_v1 (by decide)).symm
  · exact ((dat2 (F := F) (fun c b => W c b) c).arrAt_in 4 rfl _).trans (hne main_v0 (by decide)).symm
  · exact ((dat2 (F := F) (fun c b => W c b) c).arrAt_in 5 rfl _).trans (hne main_v0 (by decide)).symm
  · exact ((dat2 (F := F) (fun c b => W c b) c).arrAt_in 6 rfl _).trans (hne main_v7 (by decide)).symm
  · exact ((dat2 (F := F) (fun c b => W c b) c).arrAt_in 7 rfl _).trans (hne main_v8 (by decide)).symm
  · exact ((dat2 (F := F) (fun c b => W c b) c).arrAt_in 8 rfl _).trans (hne main_v9 (by decide)).symm
  · beta_reduce; rw [Function.update_self]
  · unfold Pipeline.unscopedRest
    exact bigSep_congr fun (b : Ref sig .tc) hb => by
      have hb' : b ≠ main_v10 := fun e => (Finset.mem_sdiff.mp hb).2 (e ▸ Finset.mem_image.mpr ⟨9, Finset.mem_univ _, rfl⟩)
      beta_reduce
      rw [hne b hb']

end Cert.Kernel.Hand

end
-- ==== Proof.Bits.NeighBody.lean ====
/-
  The neighbour sums (the first pallas_call): the body at every point of its grid.
  The body runs in one of three ways, by the second grid coordinate k (the point's number modulo 8).
  At k = 0 it sets the running sum in scratch to zero, then adds to it the product of the point's tile of next_action
  with the difference of the point's rows of feature and next_feature.  At 0 < k < 7 it adds that product to the sum
  the point before left.  At k = 7 it does the same and stores the sum, narrowed to the result's format, over the
  output block.  Every store and load covers its whole buffer, so a store leaves exactly its payload and a load reads
  exactly the contents.  From this: the body obligation of the region's proof data, and the two entailments between
  the region's invariant and what the launch hands over and takes back.
-/
import proofs.«100355_j43800076484745_1_alg».proof.Proof.Bits.NeighData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests of the body, over the grid

The body asks twice about the second grid coordinate k: whether it is 0 (then the running sum is reset) and whether
it is 7 (then the sum is written to the output block).  Over the 64 points, in row-major order with k innermost,
k is the point's number modulo 8. -/

/-- The first test: k = 0, as the body computes it from the second coordinate. -/
abbrev neighFirst (i : grid0.Coords) : Prop :=
  (Scalar.cmpi .ne (Scalar.extui (Scalar.cmpi .eq (BitVec.ofNat 32 (i 1).val) 0#32)) 0#32) = 1#1
/-- It holds at the points whose number is a multiple of 8. -/
theorem neighFirst_iff : ∀ t : Fin cfg0.N, neighFirst (grid0.coords t) ↔ t.val % 8 = 0 :=
  (by decide +kernel : ∀ t : Fin grid0.N, neighFirst (grid0.coords t) ↔ t.val % 8 = 0)
/-- The second test: k = 7. -/
abbrev neighLast (i : grid0.Coords) : Prop := k0_cond2 i = 1#1
/-- It holds at the points whose number is 7 modulo 8. -/
theorem neighLast_iff : ∀ t : Fin cfg0.N, neighLast (grid0.coords t) ↔ t.val % 8 = 7 :=
  (by decide +kernel : ∀ t : Fin grid0.N, neighLast (grid0.coords t) ↔ t.val % 8 = 7)

/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- The output window is idle where k ≠ 7, and its block is not written back there; -/
theorem idle0_3 : ∀ t : Fin cfg0.N, ¬neighLast (grid0.coords t) → cfg0.idle 3 (grid0.coords t) = true := by decide +kernel
theorem noFlush0_3 : ∀ t : Fin cfg0.N, ¬neighLast (grid0.coords t) → (cfg0.win 3).flush t = false := by decide +kernel
/-- it is live where k = 7. -/
theorem live0_3 : ∀ t : Fin cfg0.N, neighLast (grid0.coords t) → cfg0.idle 3 (grid0.coords t) = false := by decide +kernel

/-! ## Whole-buffer stores and loads

Every store and load of the body goes through the rectangle that is the buffer's whole shape. -/

/-- The whole-buffer rectangle starts at the origin. -/
theorem neigh_hz : (![0, 0] : Fin 2 → Nat) = fun _ => 0 := funext fun a => by fin_cases a <;> rfl

/-- After a last store through its whole shape a buffer reads that store's payload, whatever it held and whatever
    was stored before. -/
theorem neigh_read_writes_whole_last {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole shape of a whole buffer reads the buffer's contents. -/
theorem neigh_readAt_whole {sig' : RefSig} {κ : Kind} {sp : Space} {S : Shape} {e : EltTy} {Val : EltTy → Type}
    {m : Memref sig' κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h]

/-! ## The body on any staging buffers, case by case

Below x0 is the tile of next_action, x1 the rows of feature, x2 the rows of next_feature, xs the running sum the
point before left in scratch. -/

/-- k = 0: the running sum is set to zero, read back as zero, and replaced by the tile's product with the row
    difference added to zero.  The output block is not touched. -/
theorem neigh_run_first (c : Dev nD) (i : grid0.Coords)
    (arg2 : Memref sig .tc .vmem S512x512 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S512x1024 .bf16) (harg5 : arg5.IsWhole)
    (arg6 : Memref sig .tc .vmem S512x1024 .f32) (harg6 : arg6.IsWhole)
    (hc0 : neighFirst i) (hc1 : ¬neighLast i)
    (x0 : Vec F S512x512 .f32) (x1 x2 : Vec F S512x1024 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg6 fullShare (k0_pay2 x1 x2 x0 (k0_pay1 (F := F)))) -∗ K ⟨⟩))
      ⊢ wp frame (wpE (defs₀ (F := F)) Variants.none c none) E
          (cc0__neigh_matmul_kernel i arg2 harg2 arg3 harg3 arg4 harg4 arg5 harg5 arg6 harg6) K := by
  simp only [cc0__neigh_matmul_kernel_eq_skeleton]; unfold cc0__neigh_matmul_kernel_skel
  unfold owns
  iintro ⟨⟨%f0, %hf0, H0⟩, ⟨%f1, %hf1, H1⟩, ⟨%f2, %hf2, H2⟩, ⟨%d6, %f6, -, H6⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H6
  ipureintro
  sl_unfold_run_names
  refine (neigh_read_writes_whole_last arg6.view _ neigh_hz _ _ _).trans ?_
  rw [neigh_readAt_whole harg3 neigh_hz, neigh_readAt_whole harg4 neigh_hz, neigh_readAt_whole harg2 neigh_hz, View.readCov_unit_zero arg6.view neigh_hz]

/-- 0 < k < 7: the running sum xs is read and replaced by the tile's product with the row difference added to it.
    The output block is not touched. -/
theorem neigh_run_mid (c : Dev nD) (i : grid0.Coords)
    (arg2 : Memref sig .tc .vmem S512x512 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S512x1024 .bf16) (harg5 : arg5.IsWhole)
    (arg6 : Memref sig .tc .vmem S512x1024 .f32) (harg6 : arg6.IsWhole)
    (hc0 : ¬neighFirst i) (hc1 : ¬neighLast i)
    (x0 : Vec F S512x512 .f32) (x1 x2 xs : Vec F S512x1024 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg6 fullShare (k0_pay2 x1 x2 x0 xs)) -∗ K ⟨⟩))
      ⊢ wp frame (wpE (defs₀ (F := F)) Variants.none c none) E
          (cc0__neigh_matmul_kernel i arg2 harg2 arg3 harg3 arg4 harg4 arg5 harg5 arg6 harg6) K := by
  simp only [cc0__neigh_matmul_kernel_eq_skeleton]; unfold cc0__neigh_matmul_kernel_skel
  unfold owns
  iintro ⟨⟨%f0, %hf0, H0⟩, ⟨%f1, %hf1, H1⟩, ⟨%f2, %hf2, H2⟩, ⟨%f6, %hf6, H6⟩, Hk⟩
  obtain rfl := harg2.eq_unread hf0; obtain rfl := harg3.eq_unread hf1; obtain rfl := harg4.eq_unread hf2
  obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H6
  ipureintro
  sl_unfold_run_names
  refine (neigh_read_writes_whole_last arg6.view _ neigh_hz _ _ _).trans ?_
  rw [neigh_readAt_whole harg3 neigh_hz, neigh_readAt_whole harg4 neigh_hz, neigh_readAt_whole harg2 neigh_hz, neigh_readAt_whole harg6 neigh_hz]

/-- k = 7: as for 0 < k < 7, and then the new sum is read back and, narrowed to the result's format, stored over the
    whole output block, whatever that held. -/
theorem neigh_run_last (c : Dev nD) (i : grid0.Coords)
    (arg2 : Memref sig .tc .vmem S512x512 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S512x1024 .bf16) (harg5 : arg5.IsWhole)
    (arg6 : Memref sig .tc .vmem S512x1024 .f32) (harg6 : arg6.IsWhole)
    (hc0 : ¬neighFirst i) (hc1 : neighLast i)
    (x0 : Vec F S512x512 .f32) (x1 x2 xs : Vec F S512x1024 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k0_pay3 (k0_pay2 x1 x2 x0 xs))
            ∗ owns (c : Thread nD τ) arg6 fullShare (k0_pay2 x1 x2 x0 xs)) -∗ K ⟨⟩))
      ⊢ wp frame (wpE (defs₀ (F := F)) Variants.none c none) E
          (cc0__neigh_matmul_kernel i arg2 harg2 arg3 harg3 arg4 harg4 arg5 harg5 arg6 harg6) K := by
  simp only [cc0__neigh_matmul_kernel_eq_skeleton]; unfold cc0__neigh_matmul_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  obtain rfl := harg2.eq_unread hf0; obtain rfl := harg3.eq_unread hf1; obtain rfl := harg4.eq_unread hf2
  obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_run_names
    refine (neigh_read_writes_whole_last arg5.view _ neigh_hz _ _ _).trans ?_
    rw [View.readCov_unit_zero arg6.view neigh_hz, neigh_readAt_whole harg3 neigh_hz, neigh_readAt_whole harg4 neigh_hz, neigh_readAt_whole harg2 neigh_hz,
      neigh_readAt_whole harg6 neigh_hz]
  iexists _; isplitr
  swap; · iexact H6
  ipureintro
  sl_unfold_run_names
  refine (neigh_read_writes_whole_last arg6.view _ neigh_hz _ _ _).trans ?_
  rw [neigh_readAt_whole harg3 neigh_hz, neigh_readAt_whole harg4 neigh_hz, neigh_readAt_whole harg2 neigh_hz, neigh_readAt_whole harg6 neigh_hz]

/-! ## The running sum, point by point -/

variable (V : (c : Dev nD) → (b : Ref sig .tc) → Buf (Elt F) ((c : Thread nD τ).loc b))

/-- At a point that starts a block row (k = 0) the running sum is the tile's product with the row difference added
    to zero. -/
theorem accAt0_first (c : Dev nD) (t : Fin cfg0.N) (h : t.val % 8 = 0) :
    accAt0 V c t.val t.isLt
      = k0_pay2 (iblk0 V c 1 t) (iblk0 V c 2 t) (iblk0 V c 0 t) (k0_pay1 (F := F)) := by
  obtain ⟨n, hn⟩ := t
  cases n with
  | zero => rfl
  | succ n =>
    have h' : (n + 1) % 8 = 0 := h
    show k0_pay2 _ _ _ (if (n + 1) % 8 = 0 then _ else _) = _
    rw [if_pos h']

/-- At any other point it is that product added to what the point before left. -/
theorem accAt0_step (c : Dev nD) (t : Fin cfg0.N) (h : ¬t.val % 8 = 0) :
    accAt0 V c t.val t.isLt
      = k0_pay2 (iblk0 V c 1 t) (iblk0 V c 2 t) (iblk0 V c 0 t)
          (accAt0 V c (t.val - 1) (Nat.lt_of_le_of_lt (Nat.sub_le _ _) t.isLt)) := by
  obtain ⟨n, hn⟩ := t
  cases n with
  | zero => exact absurd (Nat.zero_mod _) h
  | succ n =>
    have h' : ¬(n + 1) % 8 = 0 := h
    show k0_pay2 _ _ _ (if (n + 1) % 8 = 0 then _ else _) = _
    rw [if_neg h']
    rfl

/-- Before a point that is not the first the scratch holds what the point before left. -/
theorem PhiAcc_pos (c : Dev nD) (n : ℕ) (h : n ≤ cfg0.N) (hn0 : n ≠ 0) :
    PhiAcc V c n h = iprop(owns (c : Thread nD τ) accRef fullShare (accAt0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hn0
  | succ n => rfl

/-- The invariant at a point's start, restated at the point's number. -/
theorem PhiAcc_castSucc (c : Dev nD) (t : Fin cfg0.N) :
    (dat0 V c).Φ t.castSucc = PhiAcc V c t.val (Nat.le_of_lt t.isLt) := by
  dsimp only [dat0]; simp only [Fin.coe_castSucc]

/-- What the launch hands the region, with the scratch that carries the running sum taken out of the scoped rest:
    at some contents. -/
theorem PhiA0_eq (c : Dev nD) :
    (Pipeline.ΦA spec0 c : sProp 𝕄)
      = iprop(((∃ d, owns (c : Thread nD τ) accRef fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [accRef, owns_whole]; try rfl

/-! ## The input windows hold their blocks

Each input window is fetched at every point and the body leaves its buffer as it found it, so at every point the
buffer holds the array's block. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation -/

/-- Each window's current staging buffer at point t, as the pipeline passes it to the body. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The body at any point.  The inputs' buffers hold their blocks; the point's number modulo 8 says which of the
    three cases runs.  The invariant hands the body the scratch at what the point before left (at anything before
    the first point) and takes it back at this point's running sum; where k ≠ 7 the output's buffer goes back as it
    came, where k = 7 it holds the narrowed sum. -/
theorem sound_body0 (c : Dev nD) (t : Fin cfg0.N) :
    bodyPre0 V c t ⊢ wp frame (wpE (defs₀ (F := F)) Variants.none c none) Set.univ (bodyAt0 t)
      (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiAcc V c (t.val + 1) t.isLt from rfl, PhiAcc_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 64 := lt_of_lt_of_eq t.isLt (show cfg0.N = 64 from N_0)
  by_cases h0 : t.val % 8 = 0
  · have h1 : ¬t.val % 8 = 7 := by omega
    rw [Dat.leavesExact_idle (dat0 V c) 3 t (idle0_3 t (fun h => h1 ((neighLast_iff t).mp h)))
      (noFlush0_3 t (fun h => h1 ((neighLast_iff t).mp h)))]
    rw [accAt0_first V c t h0]
    by_cases ht0 : t.val = 0
    · rw [PhiAcc_castSucc V c t, PhiAcc_zero V c _ _ ht0, PhiA0_eq]
      iintro ⟨⟨⟨HS, HR⟩, Hg⟩, Ho, ⟨%d0, H0⟩, ⟨%d1, H1⟩, ⟨%d2, H2⟩, H3⟩
      iapply (neigh_run_first c (grid0.coords t) (ms0_0 t) (hs0_0 t) (ms0_1 t) (hs0_1 t) (ms0_2 t) (hs0_2 t) (ms0_3 t) (hs0_3 t)
        accRef (Memref.isWhole_whole _) ((neighFirst_iff t).mpr h0) (fun h => h1 ((neighLast_iff t).mp h))
        (iblk0 V c 0 t) (iblk0 V c 1 t) (iblk0 V c 2 t) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [PhiAcc_castSucc V c t, PhiAcc_pos V c _ _ ht0]
      iintro ⟨⟨HS, HR, Hg⟩, Ho, ⟨%d0, H0⟩, ⟨%d1, H1⟩, ⟨%d2, H2⟩, H3⟩
      iapply (neigh_run_first c (grid0.coords t) (ms0_0 t) (hs0_0 t) (ms0_1 t) (hs0_1 t) (ms0_2 t) (hs0_2 t) (ms0_3 t) (hs0_3 t)
        accRef (Memref.isWhole_whole _) ((neighFirst_iff t).mpr h0) (fun h => h1 ((neighLast_iff t).mp h))
        (iblk0 V c 0 t) (iblk0 V c 1 t) (iblk0 V c 2 t) Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
  · have ht0 : t.val ≠ 0 := fun e => h0 (by rw [e])
    rw [PhiAcc_castSucc V c t, PhiAcc_pos V c _ _ ht0]
    by_cases h1 : t.val % 8 = 7
    · rw [show (dat0 V c).leavesExact 3 t = owns (c : Thread nD τ) (ms0_3 t) fullShare ((dat0 V c).after 3 t) from by
        unfold Dat.leavesExact; rw [live0_3 t ((neighLast_iff t).mpr h1)], after0_3]
      rw [accAt0_step V c t h0]
      iintro ⟨⟨HS, HR, Hg⟩, Ho, ⟨%d0, H0⟩, ⟨%d1, H1⟩, ⟨%d2, H2⟩, ⟨%d3, H3⟩⟩
      iapply (neigh_run_last c (grid0.coords t) (ms0_0 t) (hs0_0 t) (ms0_1 t) (hs0_1 t) (ms0_2 t) (hs0_2 t) (ms0_3 t) (hs0_3 t)
        accRef (Memref.isWhole_whole _) (fun h => h0 ((neighFirst_iff t).mp h)) ((neighLast_iff t).mpr h1)
        (iblk0 V c 0 t) (iblk0 V c 1 t) (iblk0 V c 2 t)
        (accAt0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat0 V c) 3 t (idle0_3 t (fun h => h1 ((neighLast_iff t).mp h)))
        (noFlush0_3 t (fun h => h1 ((neighLast_iff t).mp h)))]
      rw [accAt0_step V c t h0]
      iintro ⟨⟨HS, HR, Hg⟩, Ho, ⟨%d0, H0⟩, ⟨%d1, H1⟩, ⟨%d2, H2⟩, H3⟩
      iapply (neigh_run_mid c (grid0.coords t) (ms0_0 t) (hs0_0 t) (ms0_1 t) (hs0_1 t) (ms0_2 t) (hs0_2 t) (ms0_3 t) (hs0_3 t)
        accRef (Memref.isWhole_whole _) (fun h => h0 ((neighFirst_iff t).mp h)) (fun h => h1 ((neighLast_iff t).mp h))
        (iblk0 V c 0 t) (iblk0 V c 1 t) (iblk0 V c 2 t)
        (accAt0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation0 (c : Dev nD) :
    BodyObligation (dat0 (F := F) V c) (defs₀ (F := F)) Variants.none () Set.univ := fun t => by
  rw [bigSep_W0, bigSep_W0]
  exact sound_body0 V c t

/-- What the launch hands the region is the invariant before the first point. -/
theorem neigh_hin (c : Dev nD) : Pipeline.ΦA spec0 c ⊢ (dat0 (F := F) V c).Φ 0 := by
  rw [show (dat0 V c).Φ 0 = PhiAcc V c 0 (Nat.zero_le _) from rfl, PhiAcc_zero V c 0 _ rfl]
  try exact Idealize.SL.BI.Entails.refl _

/-- After the last point the invariant gives back what the launch handed over: the scratch's contents are forgotten
    and the scratch goes back into the scoped rest. -/
theorem neigh_hout (c : Dev nD) : (dat0 (F := F) V c).Φ (Fin.last cfg0.N) ⊢ Pipeline.ΦA spec0 c := by
  rw [show (dat0 V c).Φ (Fin.last cfg0.N) = PhiAcc V c (Fin.last cfg0.N).val (Nat.le_of_lt_succ (Fin.last cfg0.N).isLt) from rfl,
    PhiAcc_pos V c _ _ (by rw [Fin.val_last]; have : cfg0.N = 64 := N_0; omega), PhiA0_eq]
  iintro ⟨HS, HR, Hg⟩
  isplitl [HS HR]
  · isplitl [HS]; · iexists _; iexact HS
    iexact HR
  iexact Hg

end Cert.Kernel.Hand

end
-- ==== Proof.Bits.MainRun.lean ====
/-
  The whole run of @main on a core: three pallas_calls and a stretch of host operations between the second and the
  third.  The first call leaves the neighbour sums in one array, the second the twice-normalised features in another;
  the host stretch computes the three persona columns; the third call reads all of these and leaves the result.  Each call
  is entered from "every unscoped buffer of the core at a named valuation" and left at the valuation with the call's
  result array replaced by what its write-backs leave; between the calls nothing else changes.  So at the end every
  argument array holds what it held at launch and the result array holds what the third call's write-backs leave.
-/
import proofs.«100355_j43800076484745_1_alg».proof.Proof.Gen.Kernel.Launch
import proofs.«100355_j43800076484745_1_alg».proof.Proof.Gen.Kernel.Skeleton
import proofs.«100355_j43800076484745_1_alg».proof.Proof.Gen.Kernel.Points
import proofs.«100355_j43800076484745_1_alg».proof.Proof.Gen.Kernel.Regions
import proofs.«100355_j43800076484745_1_alg».proof.Proof.Bits.NeighData
import proofs.«100355_j43800076484745_1_alg».proof.Proof.Bits.NormData
import proofs.«100355_j43800076484745_1_alg».proof.Proof.Bits.FuseData
import proofs.«100355_j43800076484745_1_alg».proof.Proof.Bits.NormBody
import proofs.«100355_j43800076484745_1_alg».proof.Proof.Bits.FuseBody
import proofs.«100355_j43800076484745_1_alg».proof.Proof.Bits.FuseShares
import proofs.«100355_j43800076484745_1_alg».proof.Proof.Bits.NeighBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Gen.Outs (F := F))

/-! ## What each call is entered with -/

/-- The core's buffers as the first call finds them: the launch memory. -/
abbrev E0 : (c : Dev nD) → (b : Ref sig .tc) → Buf (Elt F) ((c : Thread nD τ).loc b) := fun c b => Gen.V0 m c b
/-- As the second call finds them: the first call's result array replaced. -/
abbrev E1 : (c : Dev nD) → (b : Ref sig .tc) → Buf (Elt F) ((c : Thread nD τ).loc b) := fun c b => Gen.V1 m outs c b
/-- As the third call finds them: both result arrays replaced and the host stretch run. -/
abbrev E2 : (c : Dev nD) → (b : Ref sig .tc) → Buf (Elt F) ((c : Thread nD τ).loc b) := fun c b => Gen.V3 m outs c b

/-- The three unknown contents are what the three calls' write-backs leave in their result arrays. -/
structure Leaves : Prop where
  neigh : ∀ c, outs 1 main_v0 c = (dat0 (E0 m) c).arrAt 3 cfg0.N
  norm : ∀ c, outs 2 main_v1 c = (dat1 (E1 m outs) c).arrAt 1 cfg1.N
  fuse : ∀ c, outs 4 main_v10 c = (dat2 (E2 m outs) c).arrAt 9 cfg2.N

/-- Every call's proof data, each at the contents its call is entered with. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m outs) c
  | ⟨2, _⟩ => fun c => dat2 (E2 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

/-! ## The second call (row normalisation): its result array replaced, nothing else -/

theorem hF1 (hl : Leaves m outs) (c : Dev nD) (w : Fin cfg1.W) :
    (pdats m outs 1 c).arrAt w cfg1.N = Gen.V2 m outs c (Pipeline.arrRef spec1 w) := by
  match w with
  | ⟨0, _⟩ =>
    exact (((dat1 (E1 m outs) c).arrAt_in 0 rfl _).trans (A_eq1 (E1 m outs) c 0)).trans (Gen.V2_of m outs c main_arg1 (by decide)).symm
  | ⟨1, _⟩ =>
    refine (hl.norm c).symm.trans ?_
    simp only [Gen.V2, Function.update_self]

theorem hrest1 (c : Dev nD) : ∀ b, b ∉ Finset.univ.image (Pipeline.arrRef spec1) → Gen.V2 m outs c b = Gen.V1 m outs c b :=
  fun b hb => Gen.V2_of m outs c b (fun h => hb (by
    rw [List.mem_singleton] at h; subst h
    exact Finset.mem_image.mpr ⟨1, Finset.mem_univ _, rfl⟩))

set_option backward.isDefEq.respectTransparency.types false in
def reg1 (hl : Leaves m outs) : RegionSeg (pcfgs (F := F)) Gen.adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m outs) c).loose
  hwaits := Pipeline.hwaits_of_owed_zero _ _ _ _ L lv 1 fun _ _ => rfl
  pre c := iprop(StableHlo.held (c : Thread nD τ) (Pipeline.ucRefs τ sig) (Gen.V1 m outs c) ∗ R c)
  post c := iprop(StableHlo.held (c : Thread nD τ) (Pipeline.ucRefs τ sig) (Gen.V2 m outs c) ∗ R c)
  X c := iprop(∃ r, prngReg c r)
  Y c := iprop(∃ r, prngReg c r)
  Z c := Pipeline.unscopedRest (Ix := Unit) (Name := ℕ) (U := UR sig nD τ) (Lvl := ℕ) spec1 c (E1 m outs c)
  hentry c := by
    rw [Pipeline.ownSems0_none]
    have hsplit := Pipeline.arrays_of_unscopedBufs (p := 1) (pcfgs (F := F)) Gen.adm (pdats m outs) launch1.win launch1.arr_whole c
      ((pdats m outs 1 c).share_full fun _ => rfl) (E1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m outs) ((pdats m outs 1 c).share_full fun _ => rfl)
      (E1 m outs c) (fun b => Gen.V2 m outs c b) ((pdats m outs 1 c).arrAt · cfg1.N) (hF1 m outs hl c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The first call (neighbour sums): its result array replaced; the running sum's scratch is forgotten at the exit -/

theorem hF0 (hl : Leaves m outs) (c : Dev nD) (w : Fin cfg0.W) :
    (pdats m outs 0 c).arrAt w cfg0.N = Gen.V1 m outs c (Pipeline.arrRef spec0 w) := by
  match w with
  | ⟨0, _⟩ =>
    exact (((dat0 (E0 m) c).arrAt_in 0 rfl _).trans (A_eq0 (E0 m) c 0)).trans (Gen.V1_of m outs c main_arg2 (by decide)).symm
  | ⟨1, _⟩ =>
    exact (((dat0 (E0 m) c).arrAt_in 1 rfl _).trans (A_eq0 (E0 m) c 1)).trans (Gen.V1_of m outs c main_arg0 (by decide)).symm
  | ⟨2, _⟩ =>
    exact (((dat0 (E0 m) c).arrAt_in 2 rfl _).trans (A_eq0 (E0 m) c 2)).trans (Gen.V1_of m outs c main_arg1 (by decide)).symm
  | ⟨3, _⟩ =>
    refine (hl.neigh c).symm.trans ?_
    simp only [Gen.V1, Function.update_self]

theorem hrest0 (c : Dev nD) : ∀ b, b ∉ Finset.univ.image (Pipeline.arrRef spec0) → Gen.V1 m outs c b = Gen.V0 m c b :=
  fun b hb => Gen.V1_of m outs c b (fun h => hb (by
    rw [List.mem_singleton] at h; subst h
    exact Finset.mem_image.mpr ⟨3, Finset.mem_univ _, rfl⟩))

set_option backward.isDefEq.respectTransparency.types false in
def reg0 (hl : Leaves m outs) : RegionSeg (pcfgs (F := F)) Gen.adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m outs c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m outs) launch0.win launch0.arr_whole c
      ((pdats m outs 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (neigh_hin (E0 m) c)
    unfold Pipeline.ΦA
    iintro ⟨Hp, -, Hr⟩
    isplitl [Hr]; · iexact Hr
    iexact Hp
  hout c := by
    refine (neigh_hout (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m outs) ((pdats m outs 0 c).share_full fun _ => rfl)
      (E0 m c) (fun b => Gen.V1 m outs c b) ((pdats m outs 0 c).arrAt · cfg0.N) (hF0 m outs hl c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The third call (the fused output): two of its arrays are read through two windows each, half and half -/

/-- The valuation after the third call is the one before it with the result array replaced by what the call leaves. -/
theorem V4_eq (hl : Leaves m outs) (c : Dev nD) :
    Gen.V4 m outs c = Function.update (Gen.V3 m outs c) (Proc.devRef .tc main_v10) ((dat2 (E2 m outs) c).arrAt 9 cfg2.N) := by
  rw [← hl.fuse c]

set_option backward.isDefEq.respectTransparency.types false in
def reg2 (hl : Leaves m outs) : RegionSeg (pcfgs (F := F)) Gen.adm (pdats m outs) () defs₀ 𝒱₀ L lv 2 where
  win := winFacts₀2
  block_pos := block_pos2
  stage_whole := stage_whole2
  K := PEmpty
  osem k := k.elim
  ho := Pipeline.OwnSemFacts.none _
  hbody c := (body_obligation2 (E2 m outs) c).loose
  hwaits := Pipeline.hwaits_of_owed_zero _ _ _ _ L lv 2 fun _ _ => rfl
  pre c := iprop(StableHlo.held (c : Thread nD τ) (Pipeline.ucRefs τ sig) (Gen.V3 m outs c) ∗ R c)
  post c := iprop(StableHlo.held (c : Thread nD τ) (Pipeline.ucRefs τ sig) (Gen.V4 m outs c) ∗ R c)
  X c := iprop(∃ r, prngReg c r)
  Y c := iprop(∃ r, prngReg c r)
  Z c := Pipeline.unscopedRest (Ix := Unit) (Name := ℕ) (U := UR sig nD τ) (Lvl := ℕ) spec2 c (E2 m outs c)
  hentry c := by
    rw [Pipeline.ownSems0_none]
    have hsplit := fuse_entry (F := F) (fun c => Gen.V3 m outs c) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := fuse_exit (F := F) (fun c => Gen.V3 m outs c) c
    rw [← V4_eq m outs hl c] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as its four items, and the run -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's items: the first two calls, the host stretch, the third call. -/
abbrev segs (hl : Leaves m outs) (c : Dev nD) : List (Seg (pcfgs (F := F)) Gen.adm (pdats m outs) () defs₀ 𝒱₀ L lv) :=
  [.region (reg0 m outs hl), .region (reg1 m outs hl), .host (Gen.seg2 m outs 𝒱₀ L lv (fun _ => R)), .region (reg2 m outs hl)]

/-- The last thread state without the core's debt: every unscoped buffer at the last valuation, the generator register. -/
abbrev Tₙ (c : Dev nD) : sProp 𝕄 := iprop(StableHlo.held (c : Thread nD τ) (Pipeline.ucRefs τ sig) (Gen.V4 m outs c) ∗ ∃ r, prngReg c r)

set_option backward.isDefEq.respectTransparency.types false in
/-- THE RUN.  From any memory with zero counters every weakly fair execution of @main terminates, nothing faulting; at the
    end the result array holds what the third call's write-backs leave and every argument array what it held at launch. -/
theorem run_main (hl : Leaves m outs) :
    θ_run defs (onTc (τ := τ) (main (F := F))) ⟨m, fun _ => 0, ρ⟩ (fun r => ∀ c : Dev nD,
      r.2.mem ((c.tc : Thread nD τ).loc main_v10) = outs 4 main_v10 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_dev (pcfgs (F := F)) Gen.adm (pdats m outs) () cellOf_inj emb₁ defs₀ 𝒱₀ L lv m ρ main
    (segs m outs hl)
    (fun c Q => by
      rewrite [main_chain c, Seg.run_eq_chain,
        show (segs m outs hl c).map Seg.prog = [
          Prog.lift (.customCall (Pipeline.entry 0) ()),
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m outs)
    (hch := fun c => ⟨.rfl, .rfl, .rfl, .rfl, show (iprop(StableHlo.held (c : Thread nD τ) (Pipeline.ucRefs τ sig) (Gen.V4 m outs c) ∗ (∃ r, prngReg c r) ∗ ∃ W, owes (c : Thread nD τ) (0 : CellTallies nD τ sig Unit) W) : sProp 𝕄) ⊢ iprop(Tₙ m outs c ∗ ∃ W, owes (c : Thread nD τ) (0 : CellTallies nD τ sig Unit) W) from by
      iintro ⟨Hh, ⟨Hp, Ho⟩⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m outs c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m outs c) s')
      isplitl [Hh] <;> iassumption)
    (hQ := fun s h c =>
      ⟨(h c _ (mem_uc main_v10 (by decide))).trans (by simp only [Gen.V4, Function.update_self]),
       (h c _ (mem_uc main_arg0 (by decide))).trans (Gen.V4_main_arg0 m outs c),
       (h c _ (mem_uc main_arg1 (by decide))).trans (Gen.V4_main_arg1 m outs c),
       (h c _ (mem_uc main_arg2 (by decide))).trans (Gen.V4_main_arg2 m outs c),
       (h c _ (mem_uc main_arg3 (by decide))).trans (Gen.V4_main_arg3 m outs c),
       (h c _ (mem_uc main_arg4 (by decide))).trans (Gen.V4_main_arg4 m outs c),
       (h c _ (mem_uc main_arg5 (by decide))).trans (Gen.V4_main_arg5 m outs c),
       (h c _ (mem_uc main_arg6 (by decide))).trans (Gen.V4_main_arg6 m outs c),
       (h c _ (mem_uc main_arg7 (by decide))).trans (Gen.V4_main_arg7 m outs c)⟩)

end Cert.Kernel.Hand

end
-- ==== Proof.Bits.Results.lean ====
/-
  The contents the three pallas_calls leave, fixed one after the other: the first call's result array from the launch
  memory; the second's from the memory with the first result in place; the third's from the memory with both in place and
  the host stretch run.  With these the run of @main is unconditional: it ends with the third result in the result array
  and every argument array as launched.
-/
import proofs.«100355_j43800076484745_1_alg».proof.Proof.Gen.Kernel.Launch
import proofs.«100355_j43800076484745_1_alg».proof.Proof.Gen.Kernel.Skeleton
import proofs.«100355_j43800076484745_1_alg».proof.Proof.Gen.Kernel.Points
import proofs.«100355_j43800076484745_1_alg».proof.Proof.Bits.MainRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A family of contents with one array's fixed. -/
def place (r₀ : Ref sig .tc) (x : (c : Dev nD) → Buf (Elt F) ((c : Thread nD τ).loc r₀)) (o : Gen.Outs (F := F)) : Gen.Outs (F := F) :=
  fun J r c => if h : r = r₀ then h ▸ x c else o J r c

theorem place_same (r₀ : Ref sig .tc) (x : (c : Dev nD) → Buf (Elt F) ((c : Thread nD τ).loc r₀)) (o : Gen.Outs (F := F)) (J : ℕ) (c : Dev nD) :
    place r₀ x o J r₀ c = x c := by
  unfold place; rw [dif_pos rfl]

theorem place_ne (r₀ : Ref sig .tc) (x : (c : Dev nD) → Buf (Elt F) ((c : Thread nD τ).loc r₀)) (o : Gen.Outs (F := F)) (J : ℕ) {r : Ref sig .tc} (h : r ≠ r₀) (c : Dev nD) :
    place r₀ x o J r c = o J r c := by
  unfold place; rw [dif_neg h]

/-- Before any call: every array at its launch contents. -/
def o0 : Gen.Outs (F := F) := fun _ r c => m ((c : Thread nD τ).loc r)
/-- What the first call leaves: the neighbour sums. -/
def neighArr (c : Dev nD) : Buf (Elt F) ((c : Thread nD τ).loc main_v0) := (dat0 (E0 m) c).arrAt 3 cfg0.N
def o1 : Gen.Outs (F := F) := place main_v0 (neighArr m) (o0 m)
/-- What the second call leaves: the twice-normalised features. -/
def normArr (c : Dev nD) : Buf (Elt F) ((c : Thread nD τ).loc main_v1) := (dat1 (E1 m (o1 m)) c).arrAt 1 cfg1.N
def o2 : Gen.Outs (F := F) := place main_v1 (normArr m) (o1 m)
/-- What the third call leaves: the result. -/
def fuseArr (c : Dev nD) : Buf (Elt F) ((c : Thread nD τ).loc main_v10) := (dat2 (E2 m (o2 m)) c).arrAt 9 cfg2.N
def o3 : Gen.Outs (F := F) := place main_v10 (fuseArr m) (o2 m)

/-- The second call's entry contents depend only on what the first call left. -/
theorem E1_congr (o o' : Gen.Outs (F := F)) (h : ∀ c, o 1 main_v0 c = o' 1 main_v0 c) : E1 m o = E1 m o' := by
  funext c b
  show Gen.V1 m o c b = Gen.V1 m o' c b
  simp only [Gen.V1, h]

/-- The third call's entry contents depend only on what the first two calls left. -/
theorem E2_congr (o o' : Gen.Outs (F := F)) (h1 : ∀ c, o 1 main_v0 c = o' 1 main_v0 c) (h2 : ∀ c, o 2 main_v1 c = o' 2 main_v1 c) :
    E2 m o = E2 m o' := by
  funext c b
  show Gen.V3 m o c b = Gen.V3 m o' c b
  simp only [Gen.V3, Gen.V2, Gen.V1, h1, h2]

theorem o3_v0 (J : ℕ) (c : Dev nD) : o3 m J main_v0 c = neighArr m c := by
  rw [o3, place_ne _ _ _ _ (by decide), o2, place_ne _ _ _ _ (by decide), o1, place_same]
theorem o2_v0 (J : ℕ) (c : Dev nD) : o2 m J main_v0 c = neighArr m c := by
  rw [o2, place_ne _ _ _ _ (by decide), o1, place_same]
theorem o1_v0 (J : ℕ) (c : Dev nD) : o1 m J main_v0 c = neighArr m c := by
  rw [o1, place_same]
theorem o3_v1 (J : ℕ) (c : Dev nD) : o3 m J main_v1 c = normArr m c := by
  rw [o3, place_ne _ _ _ _ (by decide), o2, place_same]
theorem o2_v1 (J : ℕ) (c : Dev nD) : o2 m J main_v1 c = normArr m c := by
  rw [o2, place_same]
theorem o3_v10 (J : ℕ) (c : Dev nD) : o3 m J main_v10 c = fuseArr m c := by
  rw [o3, place_same]

theorem E1_o3 : E1 m (o3 m) = E1 m (o1 m) := E1_congr m _ _ fun c => (o3_v0 m 1 c).trans (o1_v0 m 1 c).symm
theorem E2_o3 : E2 m (o3 m) = E2 m (o2 m) :=
  E2_congr m _ _ (fun c => (o3_v0 m 1 c).trans (o2_v0 m 1 c).symm) (fun c => (o3_v1 m 2 c).trans (o2_v1 m 2 c).symm)

/-- The staged contents are what the calls leave. -/
theorem leaves : Leaves m (o3 m) where
  neigh c := o3_v0 m 1 c
  norm c := by rw [E1_o3]; exact o3_v1 m 2 c
  fuse c := by rw [E2_o3]; exact o3_v10 m 4 c

/-- Every weakly fair execution of @main from a memory with zero counters terminates without a fault, the result array
    at what the third call leaves and every argument array as launched. -/
theorem run_all :
    θ_run defs (onTc (τ := τ) (main (F := F))) ⟨m, fun _ => 0, ρ⟩ (fun r => ∀ c : Dev nD,
      r.2.mem ((c.tc : Thread nD τ).loc main_v10) = o3 m 4 main_v10 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_main m ρ (o3 m) (leaves m)

/-- The frame: the run, its statement about the result array dropped. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_all m ρ)

end Cert.Kernel.Hand

end
-- ==== Proof.Ideal.NeighData.lean ====
/-
  The neighbour sums (the first pallas_call): what the pipeline is told about it.
  A grid of 8 x 8 points, the second coordinate k innermost.  Point (m, k) reads the 512 x 512 tile of next_action at
  block row m, block column k, and rows 512 k .. 512 k + 511 of feature and of next_feature, and adds to a running
  512 x 1024 sum kept in scratch the product of that tile with the difference of those rows; the running sum starts
  from zero at k = 0 and is written to block row m of the result at k = 7 only.
-/
import proofs.«100355_j43800076484745_1_alg».proof.Proof.Gen.KernelIdeal.Launch
import proofs.«100355_j43800076484745_1_alg».proof.Proof.Gen.KernelIdeal.Skeleton
import proofs.«100355_j43800076484745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum in scratch after the body at position n of the grid: the tile's product with the row difference
    added to zero when n starts a block row (n a multiple of 8), and to what position n - 1 left otherwise. -/
def accAt0 (c : Dev nD) : (n : ℕ) → n < cfg0.N → Vec F S512x1024 .f32
  | 0, h => k0_pay2 (iblk0 V c 1 ⟨0, h⟩) (iblk0 V c 2 ⟨0, h⟩) (iblk0 V c 0 ⟨0, h⟩) (k0_pay1 (F := F))
  | n + 1, h => k0_pay2 (iblk0 V c 1 ⟨n + 1, h⟩) (iblk0 V c 2 ⟨n + 1, h⟩) (iblk0 V c 0 ⟨n + 1, h⟩)
      (if (n + 1) % 8 = 0 then k0_pay1 (F := F) else accAt0 c n (Nat.lt_of_succ_lt h))

/-- The scratch buffer that carries the running sum. -/
abbrev accRef : Memref sig .tc .vmem S512x1024 .f32 := Memref.whole cc0_scratch0

/-- The region's invariant before position n: at the start whatever the scoped buffers hold; afterwards the scratch at
    the running sum position n - 1 left, the other scoped buffers at anything, the generator register at some state. -/
def PhiAcc (c : Dev nD) : (n : ℕ) → n ≤ cfg0.N → sProp 𝕄
  | 0, _ => Pipeline.ΦA spec0 c
  | n + 1, hn => iprop(owns (c : Thread nD τ) accRef fullShare (accAt0 V c n hn)
      ∗ Pipeline.scopedRestBut (Ix := Unit) (Name := ℕ) (U := UR sig nD τ) (Lvl := ℕ) (Val := Elt F) spec0 c [cc0_scratch0]
      ∗ (∃ r, prngReg c r))

/-- The proof data of the neighbour-sum region on core c: the inputs' buffers keep their blocks; the output's buffer,
    where it is stored (k = 7), holds the running sum narrowed to the result's format. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt)
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (accAt0 V c t.val t.isLt) := by dsimp only [dat0]

theorem PhiAcc_zero (c : Dev nD) (n : ℕ) (h : n ≤ cfg0.N) (hz : n = 0) : PhiAcc V c n h = Pipeline.ΦA spec0 c := by
  subst hz; rfl
theorem PhiAcc_succ (c : Dev nD) (n : ℕ) (hn : n < cfg0.N) :
    PhiAcc V c (n + 1) hn = iprop(owns (c : Thread nD τ) accRef fullShare (accAt0 V c n hn)
      ∗ Pipeline.scopedRestBut (Ix := Unit) (Name := ℕ) (U := UR sig nD τ) (Lvl := ℕ) (Val := Elt F) spec0 c [cc0_scratch0]
      ∗ (∃ r, prngReg c r)) := rfl

end Cert.KernelIdeal.Hand

end
-- ==== Proof.Ideal.NormData.lean ====
/-
  Row normalisation, applied twice (the second pallas_call): what the pipeline is told about it.
  A grid of 8 points; point t reads rows 512 t .. 512 t + 511 of next_feature whole (a 512 x 1024 block) and
  writes the same rows of the result: each row divided by its Euclidean norm (by 1 where the norm is not
  positive), and the quotient normalised once more in the same way.  Nothing is carried between points.
-/
import proofs.«100355_j43800076484745_1_alg».proof.Proof.Gen.KernelIdeal.Launch
import proofs.«100355_j43800076484745_1_alg».proof.Proof.Gen.KernelIdeal.Skeleton
import proofs.«100355_j43800076484745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 512 x 1024 block as a rectangle of itself. -/
abbrev rRows : Rect S512x1024 := Rect.unit (s := S512x1024) ![0, 0] S512x1024.size inb_S512x1024_S512x1024_0_0

/-- What the body leaves in the output block: the twice-normalised rows of the input block. -/
def normOut (x0 : Vec F S512x1024 .f32) : Vec F S512x1024 .bf16 :=
  View.canon [⟨rRows, k1_pay1 (View.ld x0 rRows)⟩]

/-- The proof data of the normalisation region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => normOut (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = normOut (iblk1 V c 0 t) := by dsimp only [dat1]

end Cert.KernelIdeal.Hand

end
-- ==== Proof.Ideal.FuseData.lean ====
/-
  The fused output (the third pallas_call): what the pipeline is told about it.
  A grid of 8 x 8 points; point (i, j) produces the 512 x 512 tile of the result at block row i, block column j from
  the same tile of next_action and of edges, the row blocks i and j of the twice-normalised features and of the
  neighbour sums (each of these two arrays is read through two windows, one at block row i and one at block row j),
  and rows 512 i .. 512 i + 511 of the three persona columns.  Nothing is carried between points.
-/
import proofs.«100355_j43800076484745_1_alg».proof.Proof.Gen.KernelIdeal.Launch
import proofs.«100355_j43800076484745_1_alg».proof.Proof.Gen.KernelIdeal.Skeleton
import proofs.«100355_j43800076484745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A 512 x 1024 row block, a 512 x 512 tile and a 512 x 1 column, each as a rectangle of itself. -/
abbrev rRows2 : Rect S512x1024 := Rect.unit (s := S512x1024) ![0, 0] S512x1024.size inb_S512x1024_S512x1024_0_0
abbrev rTile2 : Rect S512x512 := Rect.unit (s := S512x512) ![0, 0] S512x512.size inb_S512x512_S512x512_0_0
abbrev rCol2 : Rect S512x1 := Rect.unit (s := S512x1) ![0, 0] S512x1.size inb_S512x1_S512x1_0_0

/-- What the body leaves in the output tile, from the nine input blocks (in window order: the next_action tile, the
    edges tile, the normalised rows at i and at j, the neighbour sums at i and at j, the three persona columns). -/
def fuseOut (x0 x1 : Vec F S512x512 .f32) (x2 x3 x4 x5 : Vec F S512x1024 .bf16) (x6 x7 x8 : Vec F S512x1 .f32) : Vec F S512x512 .f32 :=
  View.canon [⟨rTile2, k2_pay1 (View.ld x2 rRows2) (View.ld x3 rRows2) (View.ld x4 rRows2) (View.ld x5 rRows2)
    (View.ld x0 rTile2) (View.ld x1 rTile2) (View.ld x6 rCol2) (View.ld x7 rCol2) (View.ld x8 rCol2)⟩]

/-- The proof data of the fused region on core c.  The two arrays read through two windows each are held half and
    half by their windows. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => fuseOut (iblk2 V c 0 t) (iblk2 V c 1 t) (iblk2 V c 2 t) (iblk2 V c 3 t) (iblk2 V c 4 t) (iblk2 V c 5 t)
        (iblk2 V c 6 t) (iblk2 V c 7 t) (iblk2 V c 8 t)
  Φ _ := Pipeline.ΦA spec2 c
  q w := match w with
    | ⟨2, _⟩ => fullShare.left
    | ⟨3, _⟩ => fullShare.right
    | ⟨4, _⟩ => fullShare.left
    | ⟨5, _⟩ => fullShare.right
    | _ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = fuseOut (iblk2 V c 0 t) (iblk2 V c 1 t) (iblk2 V c 2 t) (iblk2 V c 3 t) (iblk2 V c 4 t) (iblk2 V c 5 t)
    (iblk2 V c 6 t) (iblk2 V c 7 t) (iblk2 V c 8 t) := by dsimp only [dat2]

end Cert.KernelIdeal.Hand

end
-- ==== Proof.Ideal.NormBody.lean ====
/-
  Row normalisation, applied twice (the second pallas_call): what one run of the body does to its two buffers,
  and from that the obligation the pipeline asks of the body at each of its 8 points.

  The body reads the whole 512 x 1024 input buffer, x0 say, reads the output buffer (its old contents are not
  used: the store that follows replaces all of them), and stores into the whole output buffer the rows of x0
  divided by their Euclidean norm twice over and rounded to bf16.  So it leaves the input buffer at x0 and the
  output buffer at normOut x0, whatever the output buffer held before.  At a point t the input buffer holds block t
  of next_feature (the window is fetched at every point and its blocks lie inside the array), which gives the
  obligation with the proof data of NormData.
-/
import proofs.«100355_j43800076484745_1_alg».proof.Proof.Gen.KernelIdeal.Launch
import proofs.«100355_j43800076484745_1_alg».proof.Proof.Gen.KernelIdeal.Skeleton
import proofs.«100355_j43800076484745_1_alg».proof.Proof.Gen.KernelIdeal.Points
import proofs.«100355_j43800076484745_1_alg».proof.Proof.Ideal.NormData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## What the body finds in the input buffer -/

/-- At every point the input buffer holds that point's block of the array: the window is fetched at every point,
    and a fetch of a block that lies inside the array fills the whole buffer with it. -/
theorem before1_0 (c : Dev nD) (t : Fin cfg1.N) (d) : (dat1 V c).before 0 t d = iblk1 V c 0 t := by
  rw [(dat1 V c).before_fetched 0 t (fetch1_0 t) d]
  unfold Dat.fetched Dat.blockOf iblk1
  rw [A_eq1]
  try rfl

/-! ## The one store covers the output buffer -/

/-- The body's store is to the whole 512 x 1024 rectangle, so every index of the output buffer lies in it. -/
theorem cover_rRows (p : Vec F S512x1024 .bf16) (y : S512x1024.Idx) :
    ∃ pc ∈ ([⟨rRows, p⟩] : List (View.Piece (Elt F) S512x1024 .bf16)), y ∈ pc.1.set :=
  View.cover_of_tiled [⟨rRows, p⟩] S512x1024.size (by rfl) y

/-! ## The body's triple -/

set_option maxHeartbeats 1000000 in
/-- The body on whole buffers, the input's at x0 and the output's at anything, runs to a state with the input's
    still at x0 and the output's at normOut x0: a load of the input, a load of the output (unused), and one store
    of the payload to the whole output rectangle, which covers the buffer, so that what it leaves does not depend on
    what was there. -/
theorem sound_normalize (c : Dev nD) (E : Set ℕ) (i : grid1.Coords)
    (arg1 : Memref sig .tc .vmem S512x1024 .f32) (harg1 : arg1.IsWhole)
    (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normOut x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · -- the input buffer was only read
    iexists f0; isplitr; · ipureintro; rfl
    iexact H0
  · -- the output buffer: what the store to the covering rectangle leaves is the store's own value
    iexists _; isplitr
    swap; · iexact H1
    ipureintro
    exact View.read_writes_eq_canon _ _ _ (cover_rRows _)

/-! ## The body obligation -/

/-- What the body is handed at point t: the invariant, what the core owes, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point t: its input buffer holds block t (before1_0), the output buffer holds anything, so the
    triple above applies at x0 := block t; the invariant and what the core owes are the same at t and t + 1 and
    are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, Hin⟩, ⟨%d1, Hout⟩⟩
  iapply (sound_normalize c Set.univ _ _ _ _ _ (iblk1 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

/-- The pipeline's obligation on the body, at every point: the two windows written out, then sound_body1. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.FuseBody.lean ====
/-
  The fused output (the third kernel region of the program): its body at a point of the 8 x 8 grid.
  The body reads nine blocks — the 512 x 512 tiles of next_action and of edges, the 512 x 1024 row blocks i and j of
  the twice-normalised features and of the neighbour sums, and the three 512 x 1 persona columns — and stores one
  512 x 512 tile: the similarity of the feature rows scaled entrywise by next_action and by the first column, minus
  edges scaled by the second column, plus the neighbour term (the product of the neighbour rows times 2^-10) scaled
  by the third column.  It keeps nothing between points and reads the output tile only to overwrite all of it.
  Three facts make the body obligation:
  * every input window's staging buffer holds that window's block at the point, whether or not the block was
    fetched there (five of the nine windows are fetched only when their block index moves, once per grid row);
  * the single store covers the output tile, so what the tile holds afterwards is the payload laid over it,
    whatever it held before;
  * the invariant and the core's dues pass through unread.
-/
import proofs.«100355_j43800076484745_1_alg».proof.Proof.Gen.KernelIdeal.Launch
import proofs.«100355_j43800076484745_1_alg».proof.Proof.Gen.KernelIdeal.Skeleton
import proofs.«100355_j43800076484745_1_alg».proof.Proof.Gen.KernelIdeal.Points
import proofs.«100355_j43800076484745_1_alg».proof.Proof.Ideal.FuseData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## What the body finds in each input window's buffer

An input window that the body leaves as found holds its block at every point: where it was fetched, the fetch put
the block there; where it was not, its block index is the previous point's, and so is its block.  No window here is
cut at its array's end and none is idle at any point. -/

/-- Window 0 (the next_action tile): its current buffer holds its block. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- Window 1 (the edges tile): its current buffer holds its block. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- Window 2 (the normalised rows at block row i): its current buffer holds its block. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-- Window 3 (the normalised rows at block row j): its current buffer holds its block. -/
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-- Window 4 (the neighbour sums at block row i): its current buffer holds its block. -/
theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

/-- Window 5 (the neighbour sums at block row j): its current buffer holds its block. -/
theorem before2_5 (c : Dev nD) (t : Fin cfg2.N) (d) : (dat2 V c).before 5 t d = iblk2 V c 5 t :=
  ((dat2 V c).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)

/-- Window 6 (the first persona column): its current buffer holds its block. -/
theorem before2_6 (c : Dev nD) (t : Fin cfg2.N) (d) : (dat2 V c).before 6 t d = iblk2 V c 6 t :=
  ((dat2 V c).before_in_eq_fetched 6 rfl (fun _ => rfl) (fun _ _ _ => rfl)
      (fun t => by rw [after2_6]; unfold Dat.blockOf iblk2; rw [A_eq2]; try rfl) t d).trans
    (by unfold Dat.fetched Dat.blockOf iblk2; rw [A_eq2]; try rfl)

/-- Window 7 (the second persona column): its current buffer holds its block. -/
theorem before2_7 (c : Dev nD) (t : Fin cfg2.N) (d) : (dat2 V c).before 7 t d = iblk2 V c 7 t :=
  ((dat2 V c).before_in_eq_fetched 7 rfl (fun _ => rfl) (fun _ _ _ => rfl)
      (fun t => by rw [after2_7]; unfold Dat.blockOf iblk2; rw [A_eq2]; try rfl) t d).trans
    (by unfold Dat.fetched Dat.blockOf iblk2; rw [A_eq2]; try rfl)

/-- Window 8 (the third persona column): its current buffer holds its block. -/
theorem before2_8 (c : Dev nD) (t : Fin cfg2.N) (d) : (dat2 V c).before 8 t d = iblk2 V c 8 t :=
  ((dat2 V c).before_in_eq_fetched 8 rfl (fun _ => rfl) (fun _ _ _ => rfl)
      (fun t => by rw [after2_8]; unfold Dat.blockOf iblk2; rw [A_eq2]; try rfl) t d).trans
    (by unfold Dat.fetched Dat.blockOf iblk2; rw [A_eq2]; try rfl)

/-! ## The store covers the output tile -/

/-- The one store is through the whole 512 x 512 tile, so every index of the tile lies in it. -/
theorem cover2_9 (p0 : Vec F S512x512 .f32) (y : S512x512.Idx) :
    ∃ pc ∈ ([⟨rTile2, p0⟩] : List (View.Piece (Elt F) S512x512 .f32)), y ∈ pc.1.set :=
  View.cover_of_tiled [⟨rTile2, p0⟩] S512x512.size (by rfl) y

/-! ## The body's triple -/

set_option maxHeartbeats 1000000 in
/-- The body on whole staging memrefs, the nine inputs' reading x0 .. x8 (in window order) and the output's holding
    anything, runs to the continuation with the inputs' as they were and the output's reading fuseOut of the nine:
    nine whole-buffer loads, a load of the output tile whose value is not used, and one store through the whole
    tile, whose payload is k2_pay1 of the nine values loaded; what a covering store leaves is its payload, whatever
    was there. -/
theorem sound_kernel2 (c : Dev nD) (E : Set ℕ) (i : grid2.Coords) (arg2 : Memref sig .tc .vmem S512x512 .f32) (harg2 : arg2.IsWhole) (arg3 : Memref sig .tc .vmem S512x512 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole)
    (x0 x1 : Vec F S512x512 .f32) (x2 x3 x4 x5 : Vec F S512x1024 .bf16) (x6 x7 x8 : Vec F S512x1 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ (∃ d, owns (c : Thread nD τ) arg11 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare (fuseOut x0 x1 x2 x3 x4 x5 x6 x7 x8)) -∗ K ⟨⟩))
      ⊢ wp frame (wpE (defs₀ (F := F)) Variants.none c none) E (cc2__main_kernel i arg2 harg2 arg3 harg3 arg4 harg4 arg5 harg5 arg6 harg6 arg7 harg7 arg8 harg8 arg9 harg9 arg10 harg10 arg11 harg11) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The body obligation, at a generic point -/

/-- What the body is called with at point t: the invariant, the core's dues, and every window's current buffer at
    what it then holds, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns: the same at the next point, every buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so the body's triple applies at the nine blocks; the
    invariant and the core's dues are the same at the next point (nothing is carried, nothing is owed) and pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the fused region, at every point: the windows' conjunction written out one by one is the
    body's precondition and postcondition above. -/
theorem body_obligation2 (c : Dev nD) :
    BodyObligation (dat2 (F := F) V c) (defs₀ (F := F)) Variants.none () Set.univ := fun t => by
  rw [bigSep_W2, bigSep_W2]
  exact sound_body2 V c t

end Cert.KernelIdeal.Hand

end
-- ==== Proof.Ideal.FuseShares.lean ====
/-
  The fused output (the third kernel call): how its arrays are cut out of, and put back into, the core's unscoped
  buffers.  Two of its arrays are each read through two windows: the twice-normalised features through windows 2
  and 3, the neighbour sums through windows 4 and 5.  The pipeline holds such an array half and half — the left
  half of the full share for the first window, the right half for the second — so at the region's entry the whole
  buffer is split along the share, and at its exit the two halves are joined again.  The other six arrays are held
  whole, one window each.
-/
import proofs.«100355_j43800076484745_1_alg».proof.Proof.Ideal.FuseData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- One window's array as the pipeline holds it — the elements its memref places, at the window's share — is the
    whole buffer at that share: every array of this region is a whole buffer. -/
theorem win_pointsTo2 (c : Dev nD) (w : Fin cfg2.W) (q : PosShare TreeShare) (hq : (dat2 V c).share w = q)
    (f : Buf (Elt F) ((cfg2.win w).arr.view.loc (c : Thread nD τ))) :
    ((cfg2.win w).arr.view.loc (c : Thread nD τ) ↦[(cfg2.win w).arr.view.set]{(dat2 V c).share w} f : sProp 𝕄)
      = ((cfg2.win w).arr.view.loc (c : Thread nD τ) ↦{q} f) := by
  rw [(Gen.arr_whole2 w).set_eq_univ, hq]

/-- The region's arrays at contents G, window by window. -/
theorem arrays2_eq (c : Dev nD) (G : (w : Fin cfg2.W) → Buf (Elt F) ((cfg2.win w).arr.view.loc (c : Thread nD τ))) :
    ((dat2 V c).arrays G : sProp 𝕄) = iprop(
      (((c : Thread nD τ).loc main_arg2) ↦{fullShare} G 0) ∗ (((c : Thread nD τ).loc main_arg3) ↦{fullShare} G 1)
      ∗ (((c : Thread nD τ).loc main_v1) ↦{fullShare.left} G 2) ∗ (((c : Thread nD τ).loc main_v1) ↦{fullShare.right} G 3)
      ∗ (((c : Thread nD τ).loc main_v0) ↦{fullShare.left} G 4) ∗ (((c : Thread nD τ).loc main_v0) ↦{fullShare.right} G 5)
      ∗ (((c : Thread nD τ).loc main_v7) ↦{fullShare} G 6) ∗ (((c : Thread nD τ).loc main_v8) ↦{fullShare} G 7)
      ∗ (((c : Thread nD τ).loc main_v9) ↦{fullShare} G 8) ∗ (((c : Thread nD τ).loc main_v10) ↦{fullShare} G 9)) := by
  unfold Dat.arrays
  rw [Gen.bigSep_W2]
  refine congrArg₂ _ (win_pointsTo2 V c 0 fullShare rfl _) (congrArg₂ _ (win_pointsTo2 V c 1 fullShare rfl _)
    (congrArg₂ _ (win_pointsTo2 V c 2 fullShare.left rfl _) (congrArg₂ _ (win_pointsTo2 V c 3 fullShare.right rfl _)
    (congrArg₂ _ (win_pointsTo2 V c 4 fullShare.left rfl _) (congrArg₂ _ (win_pointsTo2 V c 5 fullShare.right rfl _)
    (congrArg₂ _ (win_pointsTo2 V c 6 fullShare rfl _) (congrArg₂ _ (win_pointsTo2 V c 7 fullShare rfl _)
    (congrArg₂ _ (win_pointsTo2 V c 8 fullShare rfl _) (win_pointsTo2 V c 9 fullShare rfl _)))))))))

/-- The eight distinct buffers behind the region's ten windows, each whole at the full share. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄) = iprop(
      (((c : Thread nD τ).loc main_arg2) ↦{fullShare} V' main_arg2) ∗ (((c : Thread nD τ).loc main_arg3) ↦{fullShare} V' main_arg3)
      ∗ (((c : Thread nD τ).loc main_v1) ↦{fullShare} V' main_v1) ∗ (((c : Thread nD τ).loc main_v0) ↦{fullShare} V' main_v0)
      ∗ (((c : Thread nD τ).loc main_v7) ↦{fullShare} V' main_v7) ∗ (((c : Thread nD τ).loc main_v8) ↦{fullShare} V' main_v8)
      ∗ (((c : Thread nD τ).loc main_v9) ↦{fullShare} V' main_v9) ∗ (((c : Thread nD τ).loc main_v10) ↦{fullShare} V' main_v10)) := by
  unfold Pipeline.arrBufs
  exact bigSep_eq_bigSepL_of_eq [main_arg2, main_arg3, main_v1, main_v0, main_v7, main_v8, main_v9, main_v10] (by decide) (by decide) _

/-- The core's unscoped buffers are the eight buffers behind the region's windows and the rest. -/
theorem unscopedBufs_split2 (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec2 c V' ∗ Pipeline.unscopedRest spec2 c V') :=
  Pipeline.unscopedBufs_split₀ cfgs 2 Gen.winFacts₀2.arr_unscoped c V'

/-- ENTRY, the arrays' part: the eight buffers whole at the full share at contents V are the region's arrays at their
    entry contents, the two buffers read through two windows each split along the share. -/
theorem arrays_of_arrBufs2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrBufs2_eq, arrays2_eq]
  iintro ⟨H0, H1, Hv1, Hv0, H6, H7, H8, H9⟩
  ihave Hs1 := (pointsTo_share (PosShare.mem_left_op_right fullShare)).1 $$ Hv1
  icases Hs1 with ⟨H2, H3⟩
  ihave Hs0 := (pointsTo_share (PosShare.mem_left_op_right fullShare)).1 $$ Hv0
  icases Hs0 with ⟨H4, H5⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- ENTRY: the core's unscoped buffers, held at the valuation W, are the region's arrays at their entry contents and
    the unscoped rest. -/
theorem fuse_entry (W : Dev nD → Valuation τ sig (Elt F)) (c : Dev nD) :
    StableHlo.held (c : Thread nD τ) (Pipeline.ucRefs τ sig) (W c)
      ⊢ (iprop((dat2 (F := F) (fun c b => W c b) c).arrays ((dat2 (F := F) (fun c b => W c b) c).arrAt · 0)
          ∗ Pipeline.unscopedRest (Ix := Unit) (Name := ℕ) (U := UR sig nD τ) (Lvl := ℕ) spec2 c (fun b => W c b)) : sProp 𝕄) := by
  rw [← Pipeline.unscopedBufs_held (Ix := Unit) (Name := ℕ) (U := UR sig nD τ) (Lvl := ℕ) c (W c), unscopedBufs_split2]
  exact sep_mono (arrays_of_arrBufs2 (fun c b => W c b) c) .rfl

/-- EXIT, the arrays' part: the region's arrays at contents G are the eight buffers whole at the full share at any
    contents V' that each window's array agrees with — the two halves of a buffer read through two windows joined
    along the share. -/
theorem arrBufs_of_arrays2 (c : Dev nD) (G : (w : Fin cfg2.W) → Buf (Elt F) ((cfg2.win w).arr.view.loc (c : Thread nD τ)))
    (V' : (b : Ref sig .tc) → Buf (Elt F) ((c : Thread nD τ).loc b))
    (h0 : G 0 = V' main_arg2) (h1 : G 1 = V' main_arg3) (h2 : G 2 = V' main_v1) (h3 : G 3 = V' main_v1)
    (h4 : G 4 = V' main_v0) (h5 : G 5 = V' main_v0) (h6 : G 6 = V' main_v7) (h7 : G 7 = V' main_v8)
    (h8 : G 8 = V' main_v9) (h9 : G 9 = V' main_v10) :
    (dat2 V c).arrays G
      ⊢ (Pipeline.arrBufs (Ix := Unit) (Name := ℕ) (U := UR sig nD τ) (Lvl := ℕ) spec2 c V' : sProp 𝕄) := by
  rw [arrBufs2_eq, arrays2_eq, h0, h1, h2, h3, h4, h5, h6, h7, h8, h9]
  iintro ⟨H0, H1, H2, H3, H4, H5, H6, H7, H8, H9⟩
  isplitl [H0]; · iexact H0
  isplitl [H1]; · iexact H1
  isplitl [H2 H3]
  · iapply (pointsTo_share (PosShare.mem_left_op_right fullShare)).2
    isplitl [H2]; · iexact H2
    iexact H3
  isplitl [H4 H5]
  · iapply (pointsTo_share (PosShare.mem_left_op_right fullShare)).2
    isplitl [H4]; · iexact H4
    iexact H5
  isplitl [H6]; · iexact H6
  isplitl [H7]; · iexact H7
  isplitl [H8]; · iexact H8
  iexact H9

/-- EXIT: the region's arrays at their exit contents and the unscoped rest are the core's unscoped buffers held at the
    valuation W updated at the output's buffer to what the points left there: an input's array is never written, and
    no other buffer is touched. -/
theorem fuse_exit (W : Dev nD → Valuation τ sig (Elt F)) (c : Dev nD) :
    (iprop((dat2 (F := F) (fun c b => W c b) c).arrays ((dat2 (F := F) (fun c b => W c b) c).arrAt · cfg2.N)
          ∗ Pipeline.unscopedRest (Ix := Unit) (Name := ℕ) (U := UR sig nD τ) (Lvl := ℕ) spec2 c (fun b => W c b)) : sProp 𝕄)
      ⊢ StableHlo.held (c : Thread nD τ) (Pipeline.ucRefs τ sig)
          (Function.update (W c) (Proc.devRef .tc main_v10) ((dat2 (F := F) (fun c b => W c b) c).arrAt 9 cfg2.N)) := by
  rw [← Pipeline.unscopedBufs_held (Ix := Unit) (Name := ℕ) (U := UR sig nD τ) (Lvl := ℕ) c
    (Function.update (W c) (Proc.devRef .tc main_v10) ((dat2 (F := F) (fun c b => W c b) c).arrAt 9 cfg2.N)), unscopedBufs_split2]
  have hne : ∀ b : Ref sig .tc, b ≠ main_v10 →
      Function.update (W c) (Proc.devRef .tc main_v10) ((dat2 (F := F) (fun c b => W c b) c).arrAt 9 cfg2.N) (Proc.devRef .tc b)
        = W c (Proc.devRef .tc b) := fun b hb => Function.update_of_ne (StableHlo.devRef_ne_of_ne hb) _ _
  refine sep_mono (arrBufs_of_arrays2 (fun c b => W c b) c _ _ ?_ ?_ ?_ ?_ ?_ ?_ ?_ ?_ ?_ ?_) (Entails.of_eq ?_)
  · exact ((dat2 (F := F) (fun c b => W c b) c).arrAt_in 0 rfl _).trans (hne main_arg2 (by decide)).symm
  · exact ((dat2 (F := F) (fun c b => W c b) c).arrAt_in 1 rfl _).trans (hne main_arg3 (by decide)).symm
  · exact ((dat2 (F := F) (fun c b => W c b) c).arrAt_in 2 rfl _).trans (hne main_v1 (by decide)).symm
  · exact ((dat2 (F := F) (fun c b => W c b) c).arrAt_in 3 rfl _).trans (hne main_v1 (by decide)).symm
  · exact ((dat2 (F := F) (fun c b => W c b) c).arrAt_in 4 rfl _).trans (hne main_v0 (by decide)).symm
  · exact ((dat2 (F := F) (fun c b => W c b) c).arrAt_in 5 rfl _).trans (hne main_v0 (by decide)).symm
  · exact ((dat2 (F := F) (fun c b => W c b) c).arrAt_in 6 rfl _).trans (hne main_v7 (by decide)).symm
  · exact ((dat2 (F := F) (fun c b => W c b) c).arrAt_in 7 rfl _).trans (hne main_v8 (by decide)).symm
  · exact ((dat2 (F := F) (fun c b => W c b) c).arrAt_in 8 rfl _).trans (hne main_v9 (by decide)).symm
  · beta_reduce; rw [Function.update_self]
  · unfold Pipeline.unscopedRest
    exact bigSep_congr fun (b : Ref sig .tc) hb => by
      have hb' : b ≠ main_v10 := fun e => (Finset.mem_sdiff.mp hb).2 (e ▸ Finset.mem_image.mpr ⟨9, Finset.mem_univ _, rfl⟩)
      beta_reduce
      rw [hne b hb']

end Cert.KernelIdeal.Hand

end
-- ==== Proof.Ideal.NeighBody.lean ====
/-
  The neighbour sums (the first pallas_call): the body at every point of its grid.
  The body runs in one of three ways, by the second grid coordinate k (the point's number modulo 8).
  At k = 0 it sets the running sum in scratch to zero, then adds to it the product of the point's tile of next_action
  with the difference of the point's rows of feature and next_feature.  At 0 < k < 7 it adds that product to the sum
  the point before left.  At k = 7 it does the same and stores the sum, narrowed to the result's format, over the
  output block.  Every store and load covers its whole buffer, so a store leaves exactly its payload and a load reads
  exactly the contents.  From this: the body obligation of the region's proof data, and the two entailments between
  the region's invariant and what the launch hands over and takes back.
-/
import proofs.«100355_j43800076484745_1_alg».proof.Proof.Ideal.NeighData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests of the body, over the grid

The body asks twice about the second grid coordinate k: whether it is 0 (then the running sum is reset) and whether
it is 7 (then the sum is written to the output block).  Over the 64 points, in row-major order with k innermost,
k is the point's number modulo 8. -/

/-- The first test: k = 0, as the body computes it from the second coordinate. -/
abbrev neighFirst (i : grid0.Coords) : Prop :=
  (Scalar.cmpi .ne (Scalar.extui (Scalar.cmpi .eq (BitVec.ofNat 32 (i 1).val) 0#32)) 0#32) = 1#1
/-- It holds at the points whose number is a multiple of 8. -/
theorem neighFirst_iff : ∀ t : Fin cfg0.N, neighFirst (grid0.coords t) ↔ t.val % 8 = 0 :=
  (by decide +kernel : ∀ t : Fin grid0.N, neighFirst (grid0.coords t) ↔ t.val % 8 = 0)
/-- The second test: k = 7. -/
abbrev neighLast (i : grid0.Coords) : Prop := k0_cond2 i = 1#1
/-- It holds at the points whose number is 7 modulo 8. -/
theorem neighLast_iff : ∀ t : Fin cfg0.N, neighLast (grid0.coords t) ↔ t.val % 8 = 7 :=
  (by decide +kernel : ∀ t : Fin grid0.N, neighLast (grid0.coords t) ↔ t.val % 8 = 7)

/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- The output window is idle where k ≠ 7, and its block is not written back there; -/
theorem idle0_3 : ∀ t : Fin cfg0.N, ¬neighLast (grid0.coords t) → cfg0.idle 3 (grid0.coords t) = true := by decide +kernel
theorem noFlush0_3 : ∀ t : Fin cfg0.N, ¬neighLast (grid0.coords t) → (cfg0.win 3).flush t = false := by decide +kernel
/-- it is live where k = 7. -/
theorem live0_3 : ∀ t : Fin cfg0.N, neighLast (grid0.coords t) → cfg0.idle 3 (grid0.coords t) = false := by decide +kernel

/-! ## Whole-buffer stores and loads

Every store and load of the body goes through the rectangle that is the buffer's whole shape. -/

/-- The whole-buffer rectangle starts at the origin. -/
theorem neigh_hz : (![0, 0] : Fin 2 → Nat) = fun _ => 0 := funext fun a => by fin_cases a <;> rfl

/-- After a last store through its whole shape a buffer reads that store's payload, whatever it held and whatever
    was stored before. -/
theorem neigh_read_writes_whole_last {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole shape of a whole buffer reads the buffer's contents. -/
theorem neigh_readAt_whole {sig' : RefSig} {κ : Kind} {sp : Space} {S : Shape} {e : EltTy} {Val : EltTy → Type}
    {m : Memref sig' κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h]

/-! ## The body on any staging buffers, case by case

Below x0 is the tile of next_action, x1 the rows of feature, x2 the rows of next_feature, xs the running sum the
point before left in scratch. -/

/-- k = 0: the running sum is set to zero, read back as zero, and replaced by the tile's product with the row
    difference added to zero.  The output block is not touched. -/
theorem neigh_run_first (c : Dev nD) (i : grid0.Coords)
    (arg2 : Memref sig .tc .vmem S512x512 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S512x1024 .bf16) (harg5 : arg5.IsWhole)
    (arg6 : Memref sig .tc .vmem S512x1024 .f32) (harg6 : arg6.IsWhole)
    (hc0 : neighFirst i) (hc1 : ¬neighLast i)
    (x0 : Vec F S512x512 .f32) (x1 x2 : Vec F S512x1024 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg6 fullShare (k0_pay2 x1 x2 x0 (k0_pay1 (F := F)))) -∗ K ⟨⟩))
      ⊢ wp frame (wpE (defs₀ (F := F)) Variants.none c none) E
          (cc0__neigh_matmul_kernel i arg2 harg2 arg3 harg3 arg4 harg4 arg5 harg5 arg6 harg6) K := by
  simp only [cc0__neigh_matmul_kernel_eq_skeleton]; unfold cc0__neigh_matmul_kernel_skel
  unfold owns
  iintro ⟨⟨%f0, %hf0, H0⟩, ⟨%f1, %hf1, H1⟩, ⟨%f2, %hf2, H2⟩, ⟨%d6, %f6, -, H6⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H6
  ipureintro
  sl_unfold_run_names
  refine (neigh_read_writes_whole_last arg6.view _ neigh_hz _ _ _).trans ?_
  rw [neigh_readAt_whole harg3 neigh_hz, neigh_readAt_whole harg4 neigh_hz, neigh_readAt_whole harg2 neigh_hz, View.readCov_unit_zero arg6.view neigh_hz]

/-- 0 < k < 7: the running sum xs is read and replaced by the tile's product with the row difference added to it.
    The output block is not touched. -/
theorem neigh_run_mid (c : Dev nD) (i : grid0.Coords)
    (arg2 : Memref sig .tc .vmem S512x512 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S512x1024 .bf16) (harg5 : arg5.IsWhole)
    (arg6 : Memref sig .tc .vmem S512x1024 .f32) (harg6 : arg6.IsWhole)
    (hc0 : ¬neighFirst i) (hc1 : ¬neighLast i)
    (x0 : Vec F S512x512 .f32) (x1 x2 xs : Vec F S512x1024 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg6 fullShare (k0_pay2 x1 x2 x0 xs)) -∗ K ⟨⟩))
      ⊢ wp frame (wpE (defs₀ (F := F)) Variants.none c none) E
          (cc0__neigh_matmul_kernel i arg2 harg2 arg3 harg3 arg4 harg4 arg5 harg5 arg6 harg6) K := by
  simp only [cc0__neigh_matmul_kernel_eq_skeleton]; unfold cc0__neigh_matmul_kernel_skel
  unfold owns
  iintro ⟨⟨%f0, %hf0, H0⟩, ⟨%f1, %hf1, H1⟩, ⟨%f2, %hf2, H2⟩, ⟨%f6, %hf6, H6⟩, Hk⟩
  obtain rfl := harg2.eq_unread hf0; obtain rfl := harg3.eq_unread hf1; obtain rfl := harg4.eq_unread hf2
  obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H6
  ipureintro
  sl_unfold_run_names
  refine (neigh_read_writes_whole_last arg6.view _ neigh_hz _ _ _).trans ?_
  rw [neigh_readAt_whole harg3 neigh_hz, neigh_readAt_whole harg4 neigh_hz, neigh_readAt_whole harg2 neigh_hz, neigh_readAt_whole harg6 neigh_hz]

/-- k = 7: as for 0 < k < 7, and then the new sum is read back and, narrowed to the result's format, stored over the
    whole output block, whatever that held. -/
theorem neigh_run_last (c : Dev nD) (i : grid0.Coords)
    (arg2 : Memref sig .tc .vmem S512x512 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S512x1024 .bf16) (harg5 : arg5.IsWhole)
    (arg6 : Memref sig .tc .vmem S512x1024 .f32) (harg6 : arg6.IsWhole)
    (hc0 : ¬neighFirst i) (hc1 : neighLast i)
    (x0 : Vec F S512x512 .f32) (x1 x2 xs : Vec F S512x1024 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k0_pay3 (k0_pay2 x1 x2 x0 xs))
            ∗ owns (c : Thread nD τ) arg6 fullShare (k0_pay2 x1 x2 x0 xs)) -∗ K ⟨⟩))
      ⊢ wp frame (wpE (defs₀ (F := F)) Variants.none c none) E
          (cc0__neigh_matmul_kernel i arg2 harg2 arg3 harg3 arg4 harg4 arg5 harg5 arg6 harg6) K := by
  simp only [cc0__neigh_matmul_kernel_eq_skeleton]; unfold cc0__neigh_matmul_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  obtain rfl := harg2.eq_unread hf0; obtain rfl := harg3.eq_unread hf1; obtain rfl := harg4.eq_unread hf2
  obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_run_names
    refine (neigh_read_writes_whole_last arg5.view _ neigh_hz _ _ _).trans ?_
    rw [View.readCov_unit_zero arg6.view neigh_hz, neigh_readAt_whole harg3 neigh_hz, neigh_readAt_whole harg4 neigh_hz, neigh_readAt_whole harg2 neigh_hz,
      neigh_readAt_whole harg6 neigh_hz]
  iexists _; isplitr
  swap; · iexact H6
  ipureintro
  sl_unfold_run_names
  refine (neigh_read_writes_whole_last arg6.view _ neigh_hz _ _ _).trans ?_
  rw [neigh_readAt_whole harg3 neigh_hz, neigh_readAt_whole harg4 neigh_hz, neigh_readAt_whole harg2 neigh_hz, neigh_readAt_whole harg6 neigh_hz]

/-! ## The running sum, point by point -/

variable (V : (c : Dev nD) → (b : Ref sig .tc) → Buf (Elt F) ((c : Thread nD τ).loc b))

/-- At a point that starts a block row (k = 0) the running sum is the tile's product with the row difference added
    to zero. -/
theorem accAt0_first (c : Dev nD) (t : Fin cfg0.N) (h : t.val % 8 = 0) :
    accAt0 V c t.val t.isLt
      = k0_pay2 (iblk0 V c 1 t) (iblk0 V c 2 t) (iblk0 V c 0 t) (k0_pay1 (F := F)) := by
  obtain ⟨n, hn⟩ := t
  cases n with
  | zero => rfl
  | succ n =>
    have h' : (n + 1) % 8 = 0 := h
    show k0_pay2 _ _ _ (if (n + 1) % 8 = 0 then _ else _) = _
    rw [if_pos h']

/-- At any other point it is that product added to what the point before left. -/
theorem accAt0_step (c : Dev nD) (t : Fin cfg0.N) (h : ¬t.val % 8 = 0) :
    accAt0 V c t.val t.isLt
      = k0_pay2 (iblk0 V c 1 t) (iblk0 V c 2 t) (iblk0 V c 0 t)
          (accAt0 V c (t.val - 1) (Nat.lt_of_le_of_lt (Nat.sub_le _ _) t.isLt)) := by
  obtain ⟨n, hn⟩ := t
  cases n with
  | zero => exact absurd (Nat.zero_mod _) h
  | succ n =>
    have h' : ¬(n + 1) % 8 = 0 := h
    show k0_pay2 _ _ _ (if (n + 1) % 8 = 0 then _ else _) = _
    rw [if_neg h']
    rfl

/-- Before a point that is not the first the scratch holds what the point before left. -/
theorem PhiAcc_pos (c : Dev nD) (n : ℕ) (h : n ≤ cfg0.N) (hn0 : n ≠ 0) :
    PhiAcc V c n h = iprop(owns (c : Thread nD τ) accRef fullShare (accAt0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hn0
  | succ n => rfl

/-- The invariant at a point's start, restated at the point's number. -/
theorem PhiAcc_castSucc (c : Dev nD) (t : Fin cfg0.N) :
    (dat0 V c).Φ t.castSucc = PhiAcc V c t.val (Nat.le_of_lt t.isLt) := by
  dsimp only [dat0]; simp only [Fin.coe_castSucc]

/-- What the launch hands the region, with the scratch that carries the running sum taken out of the scoped rest:
    at some contents. -/
theorem PhiA0_eq (c : Dev nD) :
    (Pipeline.ΦA spec0 c : sProp 𝕄)
      = iprop(((∃ d, owns (c : Thread nD τ) accRef fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [accRef, owns_whole]; try rfl

/-! ## The input windows hold their blocks

Each input window is fetched at every point and the body leaves its buffer as it found it, so at every point the
buffer holds the array's block. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation -/

/-- Each window's current staging buffer at point t, as the pipeline passes it to the body. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The body at any point.  The inputs' buffers hold their blocks; the point's number modulo 8 says which of the
    three cases runs.  The invariant hands the body the scratch at what the point before left (at anything before
    the first point) and takes it back at this point's running sum; where k ≠ 7 the output's buffer goes back as it
    came, where k = 7 it holds the narrowed sum. -/
theorem sound_body0 (c : Dev nD) (t : Fin cfg0.N) :
    bodyPre0 V c t ⊢ wp frame (wpE (defs₀ (F := F)) Variants.none c none) Set.univ (bodyAt0 t)
      (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiAcc V c (t.val + 1) t.isLt from rfl, PhiAcc_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 64 := lt_of_lt_of_eq t.isLt (show cfg0.N = 64 from N_0)
  by_cases h0 : t.val % 8 = 0
  · have h1 : ¬t.val % 8 = 7 := by omega
    rw [Dat.leavesExact_idle (dat0 V c) 3 t (idle0_3 t (fun h => h1 ((neighLast_iff t).mp h)))
      (noFlush0_3 t (fun h => h1 ((neighLast_iff t).mp h)))]
    rw [accAt0_first V c t h0]
    by_cases ht0 : t.val = 0
    · rw [PhiAcc_castSucc V c t, PhiAcc_zero V c _ _ ht0, PhiA0_eq]
      iintro ⟨⟨⟨HS, HR⟩, Hg⟩, Ho, ⟨%d0, H0⟩, ⟨%d1, H1⟩, ⟨%d2, H2⟩, H3⟩
      iapply (neigh_run_first c (grid0.coords t) (ms0_0 t) (hs0_0 t) (ms0_1 t) (hs0_1 t) (ms0_2 t) (hs0_2 t) (ms0_3 t) (hs0_3 t)
        accRef (Memref.isWhole_whole _) ((neighFirst_iff t).mpr h0) (fun h => h1 ((neighLast_iff t).mp h))
        (iblk0 V c 0 t) (iblk0 V c 1 t) (iblk0 V c 2 t) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [PhiAcc_castSucc V c t, PhiAcc_pos V c _ _ ht0]
      iintro ⟨⟨HS, HR, Hg⟩, Ho, ⟨%d0, H0⟩, ⟨%d1, H1⟩, ⟨%d2, H2⟩, H3⟩
      iapply (neigh_run_first c (grid0.coords t) (ms0_0 t) (hs0_0 t) (ms0_1 t) (hs0_1 t) (ms0_2 t) (hs0_2 t) (ms0_3 t) (hs0_3 t)
        accRef (Memref.isWhole_whole _) ((neighFirst_iff t).mpr h0) (fun h => h1 ((neighLast_iff t).mp h))
        (iblk0 V c 0 t) (iblk0 V c 1 t) (iblk0 V c 2 t) Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
  · have ht0 : t.val ≠ 0 := fun e => h0 (by rw [e])
    rw [PhiAcc_castSucc V c t, PhiAcc_pos V c _ _ ht0]
    by_cases h1 : t.val % 8 = 7
    · rw [show (dat0 V c).leavesExact 3 t = owns (c : Thread nD τ) (ms0_3 t) fullShare ((dat0 V c).after 3 t) from by
        unfold Dat.leavesExact; rw [live0_3 t ((neighLast_iff t).mpr h1)], after0_3]
      rw [accAt0_step V c t h0]
      iintro ⟨⟨HS, HR, Hg⟩, Ho, ⟨%d0, H0⟩, ⟨%d1, H1⟩, ⟨%d2, H2⟩, ⟨%d3, H3⟩⟩
      iapply (neigh_run_last c (grid0.coords t) (ms0_0 t) (hs0_0 t) (ms0_1 t) (hs0_1 t) (ms0_2 t) (hs0_2 t) (ms0_3 t) (hs0_3 t)
        accRef (Memref.isWhole_whole _) (fun h => h0 ((neighFirst_iff t).mp h)) ((neighLast_iff t).mpr h1)
        (iblk0 V c 0 t) (iblk0 V c 1 t) (iblk0 V c 2 t)
        (accAt0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat0 V c) 3 t (idle0_3 t (fun h => h1 ((neighLast_iff t).mp h)))
        (noFlush0_3 t (fun h => h1 ((neighLast_iff t).mp h)))]
      rw [accAt0_step V c t h0]
      iintro ⟨⟨HS, HR, Hg⟩, Ho, ⟨%d0, H0⟩, ⟨%d1, H1⟩, ⟨%d2, H2⟩, H3⟩
      iapply (neigh_run_mid c (grid0.coords t) (ms0_0 t) (hs0_0 t) (ms0_1 t) (hs0_1 t) (ms0_2 t) (hs0_2 t) (ms0_3 t) (hs0_3 t)
        accRef (Memref.isWhole_whole _) (fun h => h0 ((neighFirst_iff t).mp h)) (fun h => h1 ((neighLast_iff t).mp h))
        (iblk0 V c 0 t) (iblk0 V c 1 t) (iblk0 V c 2 t)
        (accAt0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation0 (c : Dev nD) :
    BodyObligation (dat0 (F := F) V c) (defs₀ (F := F)) Variants.none () Set.univ := fun t => by
  rw [bigSep_W0, bigSep_W0]
  exact sound_body0 V c t

/-- What the launch hands the region is the invariant before the first point. -/
theorem neigh_hin (c : Dev nD) : Pipeline.ΦA spec0 c ⊢ (dat0 (F := F) V c).Φ 0 := by
  rw [show (dat0 V c).Φ 0 = PhiAcc V c 0 (Nat.zero_le _) from rfl, PhiAcc_zero V c 0 _ rfl]
  try exact Idealize.SL.BI.Entails.refl _

/-- After the last point the invariant gives back what the launch handed over: the scratch's contents are forgotten
    and the scratch goes back into the scoped rest. -/
theorem neigh_hout (c : Dev nD) : (dat0 (F := F) V c).Φ (Fin.last cfg0.N) ⊢ Pipeline.ΦA spec0 c := by
  rw [show (dat0 V c).Φ (Fin.last cfg0.N) = PhiAcc V c (Fin.last cfg0.N).val (Nat.le_of_lt_succ (Fin.last cfg0.N).isLt) from rfl,
    PhiAcc_pos V c _ _ (by rw [Fin.val_last]; have : cfg0.N = 64 := N_0; omega), PhiA0_eq]
  iintro ⟨HS, HR, Hg⟩
  isplitl [HS HR]
  · isplitl [HS]; · iexists _; iexact HS
    iexact HR
  iexact Hg

end Cert.KernelIdeal.Hand

end
-- ==== Proof.Ideal.MainRun.lean ====
/-
  The whole run of @main on a core: three pallas_calls and a stretch of host operations between the second and the
  third.  The first call leaves the neighbour sums in one array, the second the twice-normalised features in another;
  the host stretch computes the three persona columns; the third call reads all of these and leaves the result.  Each call
  is entered from "every unscoped buffer of the core at a named valuation" and left at the valuation with the call's
  result array replaced by what its write-backs leave; between the calls nothing else changes.  So at the end every
  argument array holds what it held at launch and the result array holds what the third call's write-backs leave.
-/
import proofs.«100355_j43800076484745_1_alg».proof.Proof.Gen.KernelIdeal.Launch
import proofs.«100355_j43800076484745_1_alg».proof.Proof.Gen.KernelIdeal.Skeleton
import proofs.«100355_j43800076484745_1_alg».proof.Proof.Gen.KernelIdeal.Points
import proofs.«100355_j43800076484745_1_alg».proof.Proof.Gen.KernelIdeal.Regions
import proofs.«100355_j43800076484745_1_alg».proof.Proof.Ideal.NeighData
import proofs.«100355_j43800076484745_1_alg».proof.Proof.Ideal.NormData
import proofs.«100355_j43800076484745_1_alg».proof.Proof.Ideal.FuseData
import proofs.«100355_j43800076484745_1_alg».proof.Proof.Ideal.NormBody
import proofs.«100355_j43800076484745_1_alg».proof.Proof.Ideal.FuseBody
import proofs.«100355_j43800076484745_1_alg».proof.Proof.Ideal.FuseShares
import proofs.«100355_j43800076484745_1_alg».proof.Proof.Ideal.NeighBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Gen.Outs (F := F))

/-! ## What each call is entered with -/

/-- The core's buffers as the first call finds them: the launch memory. -/
abbrev E0 : (c : Dev nD) → (b : Ref sig .tc) → Buf (Elt F) ((c : Thread nD τ).loc b) := fun c b => Gen.V0 m c b
/-- As the second call finds them: the first call's result array replaced. -/
abbrev E1 : (c : Dev nD) → (b : Ref sig .tc) → Buf (Elt F) ((c : Thread nD τ).loc b) := fun c b => Gen.V1 m outs c b
/-- As the third call finds them: both result arrays replaced and the host stretch run. -/
abbrev E2 : (c : Dev nD) → (b : Ref sig .tc) → Buf (Elt F) ((c : Thread nD τ).loc b) := fun c b => Gen.V3 m outs c b

/-- The three unknown contents are what the three calls' write-backs leave in their result arrays. -/
structure Leaves : Prop where
  neigh : ∀ c, outs 1 main_v0 c = (dat0 (E0 m) c).arrAt 3 cfg0.N
  norm : ∀ c, outs 2 main_v1 c = (dat1 (E1 m outs) c).arrAt 1 cfg1.N
  fuse : ∀ c, outs 4 main_v10 c = (dat2 (E2 m outs) c).arrAt 9 cfg2.N

/-- Every call's proof data, each at the contents its call is entered with. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m outs) c
  | ⟨2, _⟩ => fun c => dat2 (E2 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

/-! ## The second call (row normalisation): its result array replaced, nothing else -/

theorem hF1 (hl : Leaves m outs) (c : Dev nD) (w : Fin cfg1.W) :
    (pdats m outs 1 c).arrAt w cfg1.N = Gen.V2 m outs c (Pipeline.arrRef spec1 w) := by
  match w with
  | ⟨0, _⟩ =>
    exact (((dat1 (E1 m outs) c).arrAt_in 0 rfl _).trans (A_eq1 (E1 m outs) c 0)).trans (Gen.V2_of m outs c main_arg1 (by decide)).symm
  | ⟨1, _⟩ =>
    refine (hl.norm c).symm.trans ?_
    simp only [Gen.V2, Function.update_self]

theorem hrest1 (c : Dev nD) : ∀ b, b ∉ Finset.univ.image (Pipeline.arrRef spec1) → Gen.V2 m outs c b = Gen.V1 m outs c b :=
  fun b hb => Gen.V2_of m outs c b (fun h => hb (by
    rw [List.mem_singleton] at h; subst h
    exact Finset.mem_image.mpr ⟨1, Finset.mem_univ _, rfl⟩))

set_option backward.isDefEq.respectTransparency.types false in
def reg1 (hl : Leaves m outs) : RegionSeg (pcfgs (F := F)) Gen.adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m outs) c).loose
  hwaits := Pipeline.hwaits_of_owed_zero _ _ _ _ L lv 1 fun _ _ => rfl
  pre c := iprop(StableHlo.held (c : Thread nD τ) (Pipeline.ucRefs τ sig) (Gen.V1 m outs c) ∗ R c)
  post c := iprop(StableHlo.held (c : Thread nD τ) (Pipeline.ucRefs τ sig) (Gen.V2 m outs c) ∗ R c)
  X c := iprop(∃ r, prngReg c r)
  Y c := iprop(∃ r, prngReg c r)
  Z c := Pipeline.unscopedRest (Ix := Unit) (Name := ℕ) (U := UR sig nD τ) (Lvl := ℕ) spec1 c (E1 m outs c)
  hentry c := by
    rw [Pipeline.ownSems0_none]
    have hsplit := Pipeline.arrays_of_unscopedBufs (p := 1) (pcfgs (F := F)) Gen.adm (pdats m outs) launch1.win launch1.arr_whole c
      ((pdats m outs 1 c).share_full fun _ => rfl) (E1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m outs) ((pdats m outs 1 c).share_full fun _ => rfl)
      (E1 m outs c) (fun b => Gen.V2 m outs c b) ((pdats m outs 1 c).arrAt · cfg1.N) (hF1 m outs hl c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The first call (neighbour sums): its result array replaced; the running sum's scratch is forgotten at the exit -/

theorem hF0 (hl : Leaves m outs) (c : Dev nD) (w : Fin cfg0.W) :
    (pdats m outs 0 c).arrAt w cfg0.N = Gen.V1 m outs c (Pipeline.arrRef spec0 w) := by
  match w with
  | ⟨0, _⟩ =>
    exact (((dat0 (E0 m) c).arrAt_in 0 rfl _).trans (A_eq0 (E0 m) c 0)).trans (Gen.V1_of m outs c main_arg2 (by decide)).symm
  | ⟨1, _⟩ =>
    exact (((dat0 (E0 m) c).arrAt_in 1 rfl _).trans (A_eq0 (E0 m) c 1)).trans (Gen.V1_of m outs c main_arg0 (by decide)).symm
  | ⟨2, _⟩ =>
    exact (((dat0 (E0 m) c).arrAt_in 2 rfl _).trans (A_eq0 (E0 m) c 2)).trans (Gen.V1_of m outs c main_arg1 (by decide)).symm
  | ⟨3, _⟩ =>
    refine (hl.neigh c).symm.trans ?_
    simp only [Gen.V1, Function.update_self]

theorem hrest0 (c : Dev nD) : ∀ b, b ∉ Finset.univ.image (Pipeline.arrRef spec0) → Gen.V1 m outs c b = Gen.V0 m c b :=
  fun b hb => Gen.V1_of m outs c b (fun h => hb (by
    rw [List.mem_singleton] at h; subst h
    exact Finset.mem_image.mpr ⟨3, Finset.mem_univ _, rfl⟩))

set_option backward.isDefEq.respectTransparency.types false in
def reg0 (hl : Leaves m outs) : RegionSeg (pcfgs (F := F)) Gen.adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m outs c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m outs) launch0.win launch0.arr_whole c
      ((pdats m outs 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (neigh_hin (E0 m) c)
    unfold Pipeline.ΦA
    iintro ⟨Hp, -, Hr⟩
    isplitl [Hr]; · iexact Hr
    iexact Hp
  hout c := by
    refine (neigh_hout (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m outs) ((pdats m outs 0 c).share_full fun _ => rfl)
      (E0 m c) (fun b => Gen.V1 m outs c b) ((pdats m outs 0 c).arrAt · cfg0.N) (hF0 m outs hl c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The third call (the fused output): two of its arrays are read through two windows each, half and half -/

/-- The valuation after the third call is the one before it with the result array replaced by what the call leaves. -/
theorem V4_eq (hl : Leaves m outs) (c : Dev nD) :
    Gen.V4 m outs c = Function.update (Gen.V3 m outs c) (Proc.devRef .tc main_v10) ((dat2 (E2 m outs) c).arrAt 9 cfg2.N) := by
  rw [← hl.fuse c]

set_option backward.isDefEq.respectTransparency.types false in
def reg2 (hl : Leaves m outs) : RegionSeg (pcfgs (F := F)) Gen.adm (pdats m outs) () defs₀ 𝒱₀ L lv 2 where
  win := winFacts₀2
  block_pos := block_pos2
  stage_whole := stage_whole2
  K := PEmpty
  osem k := k.elim
  ho := Pipeline.OwnSemFacts.none _
  hbody c := (body_obligation2 (E2 m outs) c).loose
  hwaits := Pipeline.hwaits_of_owed_zero _ _ _ _ L lv 2 fun _ _ => rfl
  pre c := iprop(StableHlo.held (c : Thread nD τ) (Pipeline.ucRefs τ sig) (Gen.V3 m outs c) ∗ R c)
  post c := iprop(StableHlo.held (c : Thread nD τ) (Pipeline.ucRefs τ sig) (Gen.V4 m outs c) ∗ R c)
  X c := iprop(∃ r, prngReg c r)
  Y c := iprop(∃ r, prngReg c r)
  Z c := Pipeline.unscopedRest (Ix := Unit) (Name := ℕ) (U := UR sig nD τ) (Lvl := ℕ) spec2 c (E2 m outs c)
  hentry c := by
    rw [Pipeline.ownSems0_none]
    have hsplit := fuse_entry (F := F) (fun c => Gen.V3 m outs c) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := fuse_exit (F := F) (fun c => Gen.V3 m outs c) c
    rw [← V4_eq m outs hl c] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as its four items, and the run -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's items: the first two calls, the host stretch, the third call. -/
abbrev segs (hl : Leaves m outs) (c : Dev nD) : List (Seg (pcfgs (F := F)) Gen.adm (pdats m outs) () defs₀ 𝒱₀ L lv) :=
  [.region (reg0 m outs hl), .region (reg1 m outs hl), .host (Gen.seg2 m outs 𝒱₀ L lv (fun _ => R)), .region (reg2 m outs hl)]

/-- The last thread state without the core's debt: every unscoped buffer at the last valuation, the generator register. -/
abbrev Tₙ (c : Dev nD) : sProp 𝕄 := iprop(StableHlo.held (c : Thread nD τ) (Pipeline.ucRefs τ sig) (Gen.V4 m outs c) ∗ ∃ r, prngReg c r)

set_option backward.isDefEq.respectTransparency.types false in
/-- THE RUN.  From any memory with zero counters every weakly fair execution of @main terminates, nothing faulting; at the
    end the result array holds what the third call's write-backs leave and every argument array what it held at launch. -/
theorem run_main (hl : Leaves m outs) :
    θ_run defs (onTc (τ := τ) (main (F := F))) ⟨m, fun _ => 0, ρ⟩ (fun r => ∀ c : Dev nD,
      r.2.mem ((c.tc : Thread nD τ).loc main_v10) = outs 4 main_v10 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_dev (pcfgs (F := F)) Gen.adm (pdats m outs) () cellOf_inj emb₁ defs₀ 𝒱₀ L lv m ρ main
    (segs m outs hl)
    (fun c Q => by
      rewrite [main_chain c, Seg.run_eq_chain,
        show (segs m outs hl c).map Seg.prog = [
          Prog.lift (.customCall (Pipeline.entry 0) ()),
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m outs)
    (hch := fun c => ⟨.rfl, .rfl, .rfl, .rfl, show (iprop(StableHlo.held (c : Thread nD τ) (Pipeline.ucRefs τ sig) (Gen.V4 m outs c) ∗ (∃ r, prngReg c r) ∗ ∃ W, owes (c : Thread nD τ) (0 : CellTallies nD τ sig Unit) W) : sProp 𝕄) ⊢ iprop(Tₙ m outs c ∗ ∃ W, owes (c : Thread nD τ) (0 : CellTallies nD τ sig Unit) W) from by
      iintro ⟨Hh, ⟨Hp, Ho⟩⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m outs c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m outs c) s')
      isplitl [Hh] <;> iassumption)
    (hQ := fun s h c =>
      ⟨(h c _ (mem_uc main_v10 (by decide))).trans (by simp only [Gen.V4, Function.update_self]),
       (h c _ (mem_uc main_arg0 (by decide))).trans (Gen.V4_main_arg0 m outs c),
       (h c _ (mem_uc main_arg1 (by decide))).trans (Gen.V4_main_arg1 m outs c),
       (h c _ (mem_uc main_arg2 (by decide))).trans (Gen.V4_main_arg2 m outs c),
       (h c _ (mem_uc main_arg3 (by decide))).trans (Gen.V4_main_arg3 m outs c),
       (h c _ (mem_uc main_arg4 (by decide))).trans (Gen.V4_main_arg4 m outs c),
       (h c _ (mem_uc main_arg5 (by decide))).trans (Gen.V4_main_arg5 m outs c),
       (h c _ (mem_uc main_arg6 (by decide))).trans (Gen.V4_main_arg6 m outs c),
       (h c _ (mem_uc main_arg7 (by decide))).trans (Gen.V4_main_arg7 m outs c)⟩)

end Cert.KernelIdeal.Hand

end
-- ==== Proof.Ideal.Results.lean ====
/-
  The contents the three pallas_calls leave, fixed one after the other: the first call's result array from the launch
  memory; the second's from the memory with the first result in place; the third's from the memory with both in place and
  the host stretch run.  With these the run of @main is unconditional: it ends with the third result in the result array
  and every argument array as launched.
-/
import proofs.«100355_j43800076484745_1_alg».proof.Proof.Gen.KernelIdeal.Launch
import proofs.«100355_j43800076484745_1_alg».proof.Proof.Gen.KernelIdeal.Skeleton
import proofs.«100355_j43800076484745_1_alg».proof.Proof.Gen.KernelIdeal.Points
import proofs.«100355_j43800076484745_1_alg».proof.Proof.Ideal.MainRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A family of contents with one array's fixed. -/
def place (r₀ : Ref sig .tc) (x : (c : Dev nD) → Buf (Elt F) ((c : Thread nD τ).loc r₀)) (o : Gen.Outs (F := F)) : Gen.Outs (F := F) :=
  fun J r c => if h : r = r₀ then h ▸ x c else o J r c

theorem place_same (r₀ : Ref sig .tc) (x : (c : Dev nD) → Buf (Elt F) ((c : Thread nD τ).loc r₀)) (o : Gen.Outs (F := F)) (J : ℕ) (c : Dev nD) :
    place r₀ x o J r₀ c = x c := by
  unfold place; rw [dif_pos rfl]

theorem place_ne (r₀ : Ref sig .tc) (x : (c : Dev nD) → Buf (Elt F) ((c : Thread nD τ).loc r₀)) (o : Gen.Outs (F := F)) (J : ℕ) {r : Ref sig .tc} (h : r ≠ r₀) (c : Dev nD) :
    place r₀ x o J r c = o J r c := by
  unfold place; rw [dif_neg h]

/-- Before any call: every array at its launch contents. -/
def o0 : Gen.Outs (F := F) := fun _ r c => m ((c : Thread nD τ).loc r)
/-- What the first call leaves: the neighbour sums. -/
def neighArr (c : Dev nD) : Buf (Elt F) ((c : Thread nD τ).loc main_v0) := (dat0 (E0 m) c).arrAt 3 cfg0.N
def o1 : Gen.Outs (F := F) := place main_v0 (neighArr m) (o0 m)
/-- What the second call leaves: the twice-normalised features. -/
def normArr (c : Dev nD) : Buf (Elt F) ((c : Thread nD τ).loc main_v1) := (dat1 (E1 m (o1 m)) c).arrAt 1 cfg1.N
def o2 : Gen.Outs (F := F) := place main_v1 (normArr m) (o1 m)
/-- What the third call leaves: the result. -/
def fuseArr (c : Dev nD) : Buf (Elt F) ((c : Thread nD τ).loc main_v10) := (dat2 (E2 m (o2 m)) c).arrAt 9 cfg2.N
def o3 : Gen.Outs (F := F) := place main_v10 (fuseArr m) (o2 m)

/-- The second call's entry contents depend only on what the first call left. -/
theorem E1_congr (o o' : Gen.Outs (F := F)) (h : ∀ c, o 1 main_v0 c = o' 1 main_v0 c) : E1 m o = E1 m o' := by
  funext c b
  show Gen.V1 m o c b = Gen.V1 m o' c b
  simp only [Gen.V1, h]

/-- The third call's entry contents depend only on what the first two calls left. -/
theorem E2_congr (o o' : Gen.Outs (F := F)) (h1 : ∀ c, o 1 main_v0 c = o' 1 main_v0 c) (h2 : ∀ c, o 2 main_v1 c = o' 2 main_v1 c) :
    E2 m o = E2 m o' := by
  funext c b
  show Gen.V3 m o c b = Gen.V3 m o' c b
  simp only [Gen.V3, Gen.V2, Gen.V1, h1, h2]

theorem o3_v0 (J : ℕ) (c : Dev nD) : o3 m J main_v0 c = neighArr m c := by
  rw [o3, place_ne _ _ _ _ (by decide), o2, place_ne _ _ _ _ (by decide), o1, place_same]
theorem o2_v0 (J : ℕ) (c : Dev nD) : o2 m J main_v0 c = neighArr m c := by
  rw [o2, place_ne _ _ _ _ (by decide), o1, place_same]
theorem o1_v0 (J : ℕ) (c : Dev nD) : o1 m J main_v0 c = neighArr m c := by
  rw [o1, place_same]
theorem o3_v1 (J : ℕ) (c : Dev nD) : o3 m J main_v1 c = normArr m c := by
  rw [o3, place_ne _ _ _ _ (by decide), o2, place_same]
theorem o2_v1 (J : ℕ) (c : Dev nD) : o2 m J main_v1 c = normArr m c := by
  rw [o2, place_same]
theorem o3_v10 (J : ℕ) (c : Dev nD) : o3 m J main_v10 c = fuseArr m c := by
  rw [o3, place_same]

theorem E1_o3 : E1 m (o3 m) = E1 m (o1 m) := E1_congr m _ _ fun c => (o3_v0 m 1 c).trans (o1_v0 m 1 c).symm
theorem E2_o3 : E2 m (o3 m) = E2 m (o2 m) :=
  E2_congr m _ _ (fun c => (o3_v0 m 1 c).trans (o2_v0 m 1 c).symm) (fun c => (o3_v1 m 2 c).trans (o2_v1 m 2 c).symm)

/-- The staged contents are what the calls leave. -/
theorem leaves : Leaves m (o3 m) where
  neigh c := o3_v0 m 1 c
  norm c := by rw [E1_o3]; exact o3_v1 m 2 c
  fuse c := by rw [E2_o3]; exact o3_v10 m 4 c

/-- Every weakly fair execution of @main from a memory with zero counters terminates without a fault, the result array
    at what the third call leaves and every argument array as launched. -/
theorem run_all :
    θ_run defs (onTc (τ := τ) (main (F := F))) ⟨m, fun _ => 0, ρ⟩ (fun r => ∀ c : Dev nD,
      r.2.mem ((c.tc : Thread nD τ).loc main_v10) = o3 m 4 main_v10 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_main m ρ (o3 m) (leaves m)

/-- The frame: the run, its statement about the result array dropped. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_all m ρ)

end Cert.KernelIdeal.Hand

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Ideal.NeighValue.lean ====
/-
  The neighbour sums (the first kernel call), read as values over the extended reals.

  The grid is 8 x 8, point n = 8 m + k.  Point n reads the tile (rows 512 m .., columns 512 k ..) of next_action and
  rows 512 k .. of feature and of next_feature, and adds to the running sum the tile's product with the difference of
  those rows.  The running sum starts from the zero block at k = 0, so after point 8 m + k it is, entry (r, j),

      0 + sum over the blocks s = 0 .. k of  sum_{kk < 512} A (512 m + r, 512 s + kk) * D (512 s + kk, j),   D = feature - next_feature.

  Block row m of the result is written at k = 7 only, from the running sum of all eight blocks; a sum over 4096 terms
  is the sum over 8 blocks of 512 of them (addition of extended reals is commutative and associative with 0 neutral:
  no finiteness is asked), so the result array is next_action times (feature - next_feature), entry by entry.
-/
import proofs.«100355_j43800076484745_1_alg».proof.Proof.Ideal.NeighData
import proofs.«100355_j43800076484745_1_alg».proof.Proof.Gen.ReferenceIdeal.Read
import proofs.«100355_j43800076484745_1_alg».proof.Proof.LibRowOps
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic
import Mathlib.Data.Fintype.BigOperators

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

namespace NeighValue

/-! ## A sum over m * n terms, block by block -/

/-- A sum over `m * n` terms is the sum over `m` blocks of `n` consecutive terms. -/
theorem sum_fin_mul {M : Type*} [AddCommMonoid M] (m n : ℕ) (f : Fin (m * n) → M) :
    ∑ q : Fin (m * n), f q = ∑ s : Fin m, ∑ kk : Fin n, f (finProdFinEquiv (s, kk)) := by
  rw [← Equiv.sum_comp finProdFinEquiv f, Fintype.sum_prod_type]

/-! ## The body's arithmetic at an entry -/

/-- The zero block the reset stores is 0 everywhere. -/
theorem pay1_apply (y : S512x1024.Idx) : (k0_pay1 (F := Ideal)) y = 0 := by
  show Ideal.ofBits .f32 0x00000000#32 = 0
  exact Ideal.ofBits_zero_f32

/-- The update at (r, j): what was there plus the tile's row r times the difference's column j (a change of float
    format is the identity, and the product is accumulated from zero). -/
theorem pay2_apply (v3 v4 : FVec Ideal S512x1024 .f32) (v7 : FVec Ideal S512x512 .f32) (v9 : FVec Ideal S512x1024 .f32)
    (r : Fin 512) (j : Fin 1024) :
    k0_pay2 (F := Ideal) v3 v4 v7 v9 (ix2 r j)
      = v9 (ix2 r j) + ∑ kk : Fin 512, v7 (ix2 r kk) * (v3 (ix2 kk j) - v4 (ix2 kk j)) := by
  unfold k0_pay2
  rw [shapeCast_self]
  refine congrArg (v9 (ix2 r j) + ·) ?_
  exact Cert.RowOps.matmul_apply dot_S512x512_S512x1024_S512x1024_1_0_0_1_n_n_wf none
    (truncf FTy.bf16 v7 bitsLt_bf16_f32) (truncf FTy.bf16 (subf v3 v4) bitsLt_bf16_f32) r j

/-- The narrowing to the result's format is the identity. -/
theorem pay3_apply (v : FVec Ideal S512x1024 .f32) (y : S512x1024.Idx) : k0_pay3 (F := Ideal) v y = v y := rfl

/-! ## The blocks a point reads, and where the block it writes sits -/

/-- The printed index maps over the grid: at point t the tile of next_action is block (t / 8, t % 8), the rows of
    feature and of next_feature are block t % 8, and the result's block is block row t / 8. -/
theorem idx_facts0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0 :=
  (by decide +kernel : ∀ t : Fin grid0.N, _)

-- the contents of the core's buffers when the region is entered
variable (V : (c : Dev nD) → (b : Ref sig .tc) → Buf (Elt Ideal) ((c : Thread nD τ).loc b)) (c : Dev nD)

/-- next_action, feature and next_feature as the region finds them. -/
abbrev act : S4096x4096.Idx → EReal := V c main_arg2
abbrev feat : S4096x1024.Idx → EReal := V c main_arg0
abbrev nfeat : S4096x1024.Idx → EReal := V c main_arg1

/-- The tile of next_action at point 8 m + s, entry (r, kk): next_action at (512 m + r, 512 s + kk). -/
theorem iblk0_0_apply (t : Fin cfg0.N) (m s : Fin 8) (ht : t.val = 8 * m.val + s.val) (r kk : Fin 512) :
    (iblk0 V c 0 t : FVec Ideal S512x512 .f32) (ix2 r kk)
      = act V c (ix2 (⟨512 * m.val + r.val, by omega⟩ : Fin 4096) (⟨512 * s.val + kk.val, by omega⟩ : Fin 4096)) := by
  obtain ⟨e0, e1, -⟩ := idx_facts0 t
  unfold iblk0
  rw [View.read_apply]
  show V c main_arg2 (((cfg0.win 0).blk t).view.emb (ix2 r kk)) = V c main_arg2 _
  refine congrArg (V c main_arg2) (funext fun a => Fin.ext ?_)
  match a with
  | ⟨0, _⟩ => show win0_0.index t (0 : Fin 2) * 512 + 1 * r.val = 512 * m.val + r.val; omega
  | ⟨1, _⟩ => show win0_0.index t (1 : Fin 2) * 512 + 1 * kk.val = 512 * s.val + kk.val; omega

/-- The rows of feature at point 8 m + s, entry (kk, j): feature at (512 s + kk, j). -/
theorem iblk0_1_apply (t : Fin cfg0.N) (m s : Fin 8) (ht : t.val = 8 * m.val + s.val) (kk : Fin 512) (j : Fin 1024) :
    (iblk0 V c 1 t : FVec Ideal S512x1024 .f32) (ix2 kk j)
      = feat V c (ix2 (⟨512 * s.val + kk.val, by omega⟩ : Fin 4096) j) := by
  obtain ⟨-, -, e2, e3, -⟩ := idx_facts0 t
  unfold iblk0
  rw [View.read_apply]
  show V c main_arg0 (((cfg0.win 1).blk t).view.emb (ix2 kk j)) = V c main_arg0 _
  refine congrArg (V c main_arg0) (funext fun a => Fin.ext ?_)
  match a with
  | ⟨0, _⟩ => show win0_1.index t (0 : Fin 2) * 512 + 1 * kk.val = 512 * s.val + kk.val; omega
  | ⟨1, _⟩ => show win0_1.index t (1 : Fin 2) * 1024 + 1 * j.val = j.val; omega

/-- The rows of next_feature at point 8 m + s, entry (kk, j): next_feature at (512 s + kk, j). -/
theorem iblk0_2_apply (t : Fin cfg0.N) (m s : Fin 8) (ht : t.val = 8 * m.val + s.val) (kk : Fin 512) (j : Fin 1024) :
    (iblk0 V c 2 t : FVec Ideal S512x1024 .f32) (ix2 kk j)
      = nfeat V c (ix2 (⟨512 * s.val + kk.val, by omega⟩ : Fin 4096) j) := by
  obtain ⟨-, -, -, -, e4, e5, -⟩ := idx_facts0 t
  unfold iblk0
  rw [View.read_apply]
  show V c main_arg1 (((cfg0.win 2).blk t).view.emb (ix2 kk j)) = V c main_arg1 _
  refine congrArg (V c main_arg1) (funext fun a => Fin.ext ?_)
  match a with
  | ⟨0, _⟩ => show win0_2.index t (0 : Fin 2) * 512 + 1 * kk.val = 512 * s.val + kk.val; omega
  | ⟨1, _⟩ => show win0_2.index t (1 : Fin 2) * 1024 + 1 * j.val = j.val; omega

/-! ## The running sum -/

/-- Block s of the product, for block row m: at (r, j) the sum over the block's 512 columns of next_action's entry
    times the difference's. -/
def part (m s : Fin 8) (r : Fin 512) (j : Fin 1024) : EReal :=
  ∑ kk : Fin 512, act V c (ix2 (⟨512 * m.val + r.val, by omega⟩ : Fin 4096) (⟨512 * s.val + kk.val, by omega⟩ : Fin 4096))
    * (feat V c (ix2 (⟨512 * s.val + kk.val, by omega⟩ : Fin 4096) j) - nfeat V c (ix2 (⟨512 * s.val + kk.val, by omega⟩ : Fin 4096) j))

/-- One point's update, at (r, j): point 8 m + s adds block s of the product to what it finds. -/
theorem step_apply (t : Fin cfg0.N) (m s : Fin 8) (ht : t.val = 8 * m.val + s.val) (acc : FVec Ideal S512x1024 .f32)
    (r : Fin 512) (j : Fin 1024) :
    k0_pay2 (F := Ideal) (iblk0 V c 1 t) (iblk0 V c 2 t) (iblk0 V c 0 t) acc (ix2 r j) = acc (ix2 r j) + part V c m s r j := by
  refine (pay2_apply (iblk0 V c 1 t) (iblk0 V c 2 t) (iblk0 V c 0 t) acc r j).trans ?_
  refine congrArg (acc (ix2 r j) + ·) ?_
  unfold part
  refine Finset.sum_congr rfl fun kk _ => ?_
  rw [iblk0_0_apply V c t m s ht r kk, iblk0_1_apply V c t m s ht kk j, iblk0_2_apply V c t m s ht kk j]

/-- The running sum's two cases, as equations: a point that starts a block row updates the zero block, -/
theorem accAt0_reset (n : ℕ) (h : n < cfg0.N) (h0 : n % 8 = 0) :
    accAt0 (F := Ideal) V c n h
      = k0_pay2 (iblk0 V c 1 ⟨n, h⟩) (iblk0 V c 2 ⟨n, h⟩) (iblk0 V c 0 ⟨n, h⟩) (k0_pay1 (F := Ideal)) := by
  cases n with
  | zero => rfl
  | succ n => rw [accAt0, if_pos h0]

/-- any other what the point before left. -/
theorem accAt0_step (n : ℕ) (h : n + 1 < cfg0.N) (h0 : ¬(n + 1) % 8 = 0) :
    accAt0 (F := Ideal) V c (n + 1) h
      = k0_pay2 (iblk0 V c 1 ⟨n + 1, h⟩) (iblk0 V c 2 ⟨n + 1, h⟩) (iblk0 V c 0 ⟨n + 1, h⟩) (accAt0 (F := Ideal) V c n (Nat.lt_of_succ_lt h)) := by
  rw [accAt0, if_neg h0]

/-- THE RUNNING SUM after point 8 m + k, at (r, j): zero plus blocks 0 .. k of the product — by induction on k. -/
theorem acc_apply (m : Fin 8) : ∀ (k : ℕ) (hk : k < 8) (h : 8 * m.val + k < cfg0.N) (r : Fin 512) (j : Fin 1024),
    (accAt0 (F := Ideal) V c (8 * m.val + k) h : FVec Ideal S512x1024 .f32) (ix2 r j)
      = 0 + ∑ s : Fin (k + 1), part V c m ⟨s.val, by omega⟩ r j
  | 0, hk, h, r, j => by
    rw [accAt0_reset V c (8 * m.val + 0) h (by omega)]
    refine (step_apply V c ⟨8 * m.val + 0, h⟩ m ⟨0, hk⟩ rfl (k0_pay1 (F := Ideal)) r j).trans ?_
    rw [pay1_apply, Fin.sum_univ_one]
    rfl
  | k + 1, hk, h, r, j => by
    have ih := acc_apply m k (by omega) (Nat.lt_of_succ_lt h) r j
    show (accAt0 (F := Ideal) V c ((8 * m.val + k) + 1) h : FVec Ideal S512x1024 .f32) (ix2 r j) = _
    rw [accAt0_step V c (8 * m.val + k) h (by omega)]
    refine (step_apply V c ⟨8 * m.val + k + 1, h⟩ m ⟨k + 1, hk⟩ rfl _ r j).trans ?_
    rw [ih, add_assoc]
    refine congrArg (0 + ·) ?_
    exact (Fin.sum_univ_castSucc (fun s : Fin (k + 1 + 1) => part V c m ⟨s.val, by omega⟩ r j)).symm

/-! ## The result array -/

/-- The whole product at (i, j): the sum over all 4096 columns of next_action's entry times the difference's. -/
def neigh (i : Fin 4096) (j : Fin 1024) : EReal :=
  ∑ q : Fin 4096, act V c (ix2 i q) * (feat V c (ix2 q j) - nfeat V c (ix2 q j))

/-- Row 512 m + r of the whole product is the sum of its eight blocks. -/
theorem neigh_eq_blocks (m : Fin 8) (r : Fin 512) (j : Fin 1024) :
    neigh V c (⟨512 * m.val + r.val, by omega⟩ : Fin 4096) j = ∑ s : Fin 8, part V c m s r j := by
  unfold neigh part
  refine (sum_fin_mul 8 512 (fun q : Fin 4096 => act V c (ix2 (⟨512 * m.val + r.val, by omega⟩ : Fin 4096) q)
    * (feat V c (ix2 q j) - nfeat V c (ix2 q j)))).trans ?_
  refine Finset.sum_congr rfl fun s _ => Finset.sum_congr rfl fun kk _ => ?_
  have e : (finProdFinEquiv (s, kk) : Fin 4096) = (⟨512 * s.val + kk.val, by omega⟩ : Fin 4096) :=
    Fin.ext (by show kk.val + 512 * s.val = 512 * s.val + kk.val; omega)
  show act V c (ix2 _ (finProdFinEquiv (s, kk) : Fin 4096)) * (feat V c (ix2 (finProdFinEquiv (s, kk) : Fin 4096) j) - nfeat V c (ix2 (finProdFinEquiv (s, kk) : Fin 4096) j)) = _
  rw [e]

/-- The product as contents of the result array. -/
abbrev neighArr : Buf (Elt Ideal) ((cfg0.win 3).arr.view.loc (c.tc : Thread nD τ)) :=
  fun (p : S4096x1024.Idx) => neigh V c (p 0) (p 1)

/-- WHAT A POINT WRITES BACK (only the last of a block row does) is its block of the product: the running sum of all
    eight blocks, narrowed to the result's format. -/
theorem flushed_eq (t : Fin cfg0.N) (hf : (cfg0.win 3).flush t = true) :
    (dat0 (F := Ideal) V c).flushed 3 t = ((cfg0.win 3).blk t).view.read (Elt Ideal) (neighArr V c) := by
  have h7 : t.val % 8 = 7 := (flush0_3 t).mp hf
  have hN : cfg0.N = 64 := N_0
  have htN : t.val < 64 := hN ▸ t.isLt
  obtain ⟨-, -, -, -, -, -, e6, e7⟩ := idx_facts0 t
  obtain ⟨m, hm⟩ : ∃ m : Fin 8, m.val = t.val / 8 := ⟨⟨t.val / 8, by omega⟩, rfl⟩
  have key : ∀ (u : ℕ) (hu : u < cfg0.N), u = t.val → accAt0 (F := Ideal) V c u hu = accAt0 (F := Ideal) V c t.val t.isLt :=
    fun u hu e => by subst e; rfl
  show (cfg0.win 3).cut (grid0.coords t) ((dat0 (F := Ideal) V c).after 3 t) = _
  rw [after0_3]
  refine funext fun (y : S512x1024.Idx) => ?_
  obtain ⟨r, j, rfl⟩ : ∃ (r : Fin 512) (j : Fin 1024), y = ix2 r j := ⟨y 0, y 1, eq_ix2 y⟩
  rw [View.read_apply]
  show (accAt0 (F := Ideal) V c t.val t.isLt : FVec Ideal S512x1024 .f32) (ix2 r j)
    = neighArr V c (((cfg0.win 3).blk t).view.emb (ix2 r j))
  have ei : (((cfg0.win 3).blk t).view.emb (ix2 r j) : S4096x1024.Idx) = ix2 (⟨512 * m.val + r.val, by omega⟩ : Fin 4096) j := by
    funext a; apply Fin.ext
    match a with
    | ⟨0, _⟩ => show win0_3.index t (0 : Fin 2) * 512 + 1 * r.val = 512 * m.val + r.val; omega
    | ⟨1, _⟩ => show win0_3.index t (1 : Fin 2) * 1024 + 1 * j.val = j.val; omega
  refine Eq.trans ?_ (congrArg (neighArr V c) ei.symm)
  show _ = neigh V c (⟨512 * m.val + r.val, by omega⟩ : Fin 4096) j
  rw [neigh_eq_blocks, ← key (8 * m.val + 7) (by omega) (by omega), acc_apply V c m 7 (by omega) (by omega) r j, zero_add]

/-- Row i of the array is covered by the last point of its block row, point 8 (i / 512) + 7. -/
theorem cover0_3 (i : S4096x1024.Idx) :
    ∃ t : Fin cfg0.N, (cfg0.win 3).flush t = true ∧ i ∈ ((cfg0.win 3).blk t).view.set := by
  have hN : cfg0.N = 64 := N_0
  have hi0 : (i 0).val < 4096 := (i 0).isLt
  have hi1 : (i 1).val < 1024 := (i 1).isLt
  obtain ⟨t, tv⟩ : ∃ t : Fin cfg0.N, t.val = 8 * ((i 0).val / 512) + 7 := ⟨⟨8 * ((i 0).val / 512) + 7, by omega⟩, rfl⟩
  obtain ⟨-, -, -, -, -, -, e6, e7⟩ := idx_facts0 t
  refine ⟨t, (flush0_3 t).mpr (by omega), ?_⟩
  show i ∈ ((View.whole main_v0).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- THE RESULT ARRAY after the run is the product. -/
theorem arrAt0_3 : (dat0 (F := Ideal) V c).arrAt 3 cfg0.N = neighArr V c :=
  (dat0 (F := Ideal) V c).arrAt_eq_of_cover 3 (neighArr V c) (flushed_eq V c) (cover0_3)

/-! ## Against the reference -/

/-- The reference's matrix product of next_action with the difference, at (i, j): the same sum. -/
theorem ref_apply (x0 x1 : S4096x1024.Idx → EReal) (x2 : S4096x4096.Idx → EReal) (i : Fin 4096) (j : Fin 1024) :
    Cert.ReferenceIdeal.Read.val_main_v1 (F := Ideal) x0 x1 x2 (ix2 i j)
      = ∑ q : Fin 4096, x2 (ix2 i q) * (x0 (ix2 q j) - x1 (ix2 q j)) := by
  rw [Cert.ReferenceIdeal.Read.val_main_v1_apply]
  refine Finset.sum_congr rfl fun q _ => ?_
  rw [Cert.ReferenceIdeal.Read.val_main_v0_apply]
  have el : Cert.ReferenceIdeal.Read.lidx_main_v1 (ix2 i j) q = ix2 i q :=
    funext fun a => match a with | ⟨0, _⟩ => rfl | ⟨1, _⟩ => rfl
  have er : Cert.ReferenceIdeal.Read.ridx_main_v1 (ix2 i j) q = ix2 q j :=
    funext fun a => match a with | ⟨0, _⟩ => rfl | ⟨1, _⟩ => rfl
  rw [el, er]
  rfl

end NeighValue

open NeighValue in
/-- THE NEIGHBOUR SUMS: after the run the result array of the first kernel call is, entry by entry, the reference's
    next_action times (feature − next_feature). -/
theorem neigh_value (V : (c : Dev nD) → (b : Ref sig .tc) → Buf (Elt Ideal) ((c : Thread nD τ).loc b)) (c : Dev nD)
    (p : S4096x1024.Idx) :
    (dat0 (F := Ideal) V c).arrAt 3 cfg0.N p
      = Cert.ReferenceIdeal.Read.val_main_v1 (F := Ideal) (V c main_arg0) (V c main_arg1) (V c main_arg2) p := by
  obtain ⟨i, j, rfl⟩ : ∃ (i : Fin 4096) (j : Fin 1024), p = ix2 i j := ⟨p 0, p 1, eq_ix2 p⟩
  refine (congrFun (arrAt0_3 V c) (ix2 i j)).trans ?_
  exact (ref_apply (V c main_arg0) (V c main_arg1) (V c main_arg2) i j).symm

end Cert.KernelIdeal.Hand

end
-- ==== Proof.Ideal.NormValue.lean ====
/-
  Row normalisation, applied twice: what the result array of the normalisation region holds, entry by entry.

  The body divides each row of its 512 x 1024 block by the row's Euclidean norm (by 1 where the norm is not
  positive) and does the same again to the quotient.  On the extended reals the host program's
  sqrt / divide / sum / compare / select are the same functions as the body's, a change of float format is the
  identity, and the initial value 0 of the host's sum adds nothing; so both sides are the same function of one row
  of next_feature.  Block t of the result is rows 512 t .. 512 t + 511, and row r lies in block r / 512.
-/
import proofs.«100355_j43800076484745_1_alg».proof.Proof.Ideal.NormData
import proofs.«100355_j43800076484745_1_alg».proof.Proof.Gen.ReferenceIdeal.Read
import proofs.«100355_j43800076484745_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One row -/

/-- The divisor of a row: its Euclidean norm where that is positive, else one. -/
def normRowDen (f : Fin 1024 → EReal) : EReal :=
  Scalar.select (Ideal.cmp .ogt (Ideal.sqrt (∑ k : Fin 1024, f k * f k)) (Ideal.ofBits .f32 0x00000000#32))
    (Ideal.sqrt (∑ k : Fin 1024, f k * f k)) (Ideal.ofBits .f32 0x3F800000#32)

/-- A row divided by its divisor. -/
def normRow (f : Fin 1024 → EReal) : Fin 1024 → EReal := fun k => Ideal.div (f k) (normRowDen f)

/-! ## The body's payload at an index -/

/-- The column of divisors from the column of sums of squares, as the body spells it. -/
def normDenCol (s : FVec Ideal S512x1 .f32) : FVec Ideal S512x1 .f32 :=
  select (cmpf .ogt (sqrt s) (broadcast S512x1 (Scalar.ofBits (F := Ideal) .f32 0x00000000#32))) (sqrt s)
    (broadcast S512x1 (Scalar.ofBits (F := Ideal) .f32 0x3F800000#32))

theorem normDenCol_apply (s : FVec Ideal S512x1 .f32) (i : S512x1.Idx) :
    normDenCol s i = Scalar.select (Ideal.cmp .ogt (Ideal.sqrt (s i)) (Ideal.ofBits .f32 0x00000000#32)) (Ideal.sqrt (s i))
      (Ideal.ofBits .f32 0x3F800000#32) := rfl

/-- One normalisation of a 512 x 1024 block, as the body spells it. -/
def normVec (v : FVec Ideal S512x1024 .f32) : FVec Ideal S512x1024 .f32 :=
  divf v (broadcastTo S512x1024
    (normDenCol (shapeCast S512x1 (multiReduction .add [1] S512 (mulf v v) 0x00000000#32 reduces_S512x1024_S512 (.inl rfl) rfl) shapeCasts_S512_S512x1))
    broadcasts_S512x1_S512x1024)

/-- The payload is two normalisations and a change of format. -/
theorem normPay_eq (x0 : Vec Ideal S512x1024 .f32) :
    k1_pay1 (F := Ideal) x0 = truncf .bf16 (normVec (normVec x0)) bitsLt_bf16_f32 := rfl

theorem normVec_apply (v : FVec Ideal S512x1024 .f32) (r : Fin 512) (k : Fin 1024) :
    normVec v (ix2 r k) = normRow (fun k' => v (ix2 r k')) k := by
  have hs : shapeCast S512x1 (multiReduction .add [1] S512 (mulf v v) 0x00000000#32 reduces_S512x1024_S512 (.inl rfl) rfl) shapeCasts_S512_S512x1 (ix2 r (0 : Fin 1))
      = ∑ k' : Fin 1024, v (ix2 r k') * v (ix2 r k') :=
    (Cert.RowOps.shapeCast_a_a1_apply _ shapeCasts_S512_S512x1 r 0).trans
      (Cert.RowOps.laneSum_apply (mulf v v) 0x00000000#32 reduces_S512x1024_S512 (.inl rfl) rfl r)
  unfold normVec normRow normRowDen
  refine (divf_apply _ _ _).trans (congrArg (Ideal.div (v (ix2 r k))) ?_)
  refine (Cert.RowOps.broadcastTo_a1_ab_apply _ broadcasts_S512x1_S512x1024 r k).trans ?_
  rw [normDenCol_apply, hs]

theorem normPay_apply (x0 : Vec Ideal S512x1024 .f32) (r : Fin 512) (k : Fin 1024) :
    k1_pay1 (F := Ideal) x0 (ix2 r k) = normRow (normRow (fun k' => x0 (ix2 r k'))) k := by
  rw [normPay_eq]
  show normVec (normVec x0) (ix2 r k) = _
  rw [normVec_apply]
  exact congrArg (fun f => normRow f k) (funext fun k' => normVec_apply x0 r k')

/-! ## The reference at an index -/

open Cert.ReferenceIdeal.Read

/-- A 4096 x 1024 array of the reference. -/
abbrev NormArr : Type := (⟨Cert.ReferenceIdeal.S4096x1024, .f32⟩ : BufTy).Contents (Elt Ideal)

theorem normRef_den1 (x1 : NormArr) (R : Fin 4096) :
    val_main_v16 (F := Ideal) x1 (ix2 R (0 : Fin 1)) = normRowDen (fun k' => x1 (ix2 R k')) := by
  have e12 : idx_main_v12 (ix2 R (0 : Fin 1)) = ix1 R := funext fun a => Fin.ext (by match a with | ⟨0, _⟩ => rfl)
  have e11 : ∀ k : Fin 1024, idx_main_v11 (ix1 R) k = ix2 R k := fun k =>
    funext fun a => Fin.ext (by match a with | ⟨0, _⟩ => rfl | ⟨1, _⟩ => rfl)
  have hs : val_main_v12 (F := Ideal) x1 (ix2 R (0 : Fin 1)) = ∑ k' : Fin 1024, x1 (ix2 R k') * x1 (ix2 R k') := by
    rw [val_main_v12_apply, e12, val_main_v11_apply, val_main_cst_0_apply]
    simp only [val_main_v10_apply, e11]
    rw [Ideal.ofBits_def, Ideal.ofBits_zero_f32, zero_add]
    rfl
  rw [val_main_v16_apply, val_main_v15_apply, val_main_v13_apply, hs, val_main_v14_apply, val_main_cst_1_apply,
    val_main_call0_v1_apply, val_main_call0_v0_apply, val_main_cst_2_apply]
  rfl

theorem normRef_n1 (x1 : NormArr) (R : Fin 4096) (k : Fin 1024) :
    val_main_v18 (F := Ideal) x1 (ix2 R k) = normRow (fun k' => x1 (ix2 R k')) k := by
  have e17 : idx_main_v17 (ix2 R k) = ix2 R (0 : Fin 1) :=
    funext fun a => Fin.ext (by match a with | ⟨0, _⟩ => rfl | ⟨1, _⟩ => rfl)
  rw [val_main_v18_apply, val_main_v17_apply, e17, normRef_den1]
  rfl

theorem normRef_den2 (x1 : NormArr) (R : Fin 4096) :
    val_main_v25 (F := Ideal) x1 (ix2 R (0 : Fin 1)) = normRowDen (fun k' => val_main_v18 (F := Ideal) x1 (ix2 R k')) := by
  have e21 : idx_main_v21 (ix2 R (0 : Fin 1)) = ix1 R := funext fun a => Fin.ext (by match a with | ⟨0, _⟩ => rfl)
  have e20 : ∀ k : Fin 1024, idx_main_v20 (ix1 R) k = ix2 R k := fun k =>
    funext fun a => Fin.ext (by match a with | ⟨0, _⟩ => rfl | ⟨1, _⟩ => rfl)
  have hs : val_main_v21 (F := Ideal) x1 (ix2 R (0 : Fin 1))
      = ∑ k' : Fin 1024, val_main_v18 (F := Ideal) x1 (ix2 R k') * val_main_v18 (F := Ideal) x1 (ix2 R k') := by
    rw [val_main_v21_apply, e21, val_main_v20_apply, val_main_cst_3_apply]
    simp only [val_main_v19_apply, e20]
    rw [Ideal.ofBits_def, Ideal.ofBits_zero_f32, zero_add]
    rfl
  rw [val_main_v25_apply, val_main_v24_apply, val_main_v22_apply, hs, val_main_v23_apply, val_main_cst_4_apply,
    val_main_call1_v1_apply, val_main_call1_v0_apply, val_main_cst_5_apply]
  rfl

theorem normRef_apply (x1 : NormArr) (R : Fin 4096) (k : Fin 1024) :
    val_main_v27 (F := Ideal) x1 (ix2 R k) = normRow (normRow (fun k' => x1 (ix2 R k'))) k := by
  have e26 : idx_main_v26 (ix2 R k) = ix2 R (0 : Fin 1) :=
    funext fun a => Fin.ext (by match a with | ⟨0, _⟩ => rfl | ⟨1, _⟩ => rfl)
  rw [val_main_v27_apply, val_main_v26_apply, e26, normRef_den2, normRef_n1]
  have e : (fun k' => val_main_v18 (F := Ideal) x1 (ix2 R k')) = normRow (fun k' => x1 (ix2 R k')) :=
    funext fun k' => normRef_n1 x1 R k'
  rw [e]
  rfl

/-! ## From blocks to the array -/

-- the contents of the core's buffers when the region is entered
variable (V : (c : Dev nD) → (b : Ref sig .tc) → Buf (Elt Ideal) ((c : Thread nD τ).loc b))

theorem normHz : (![0, 0] : Fin 2 → Nat) = fun _ => 0 := funext fun a => by fin_cases a <;> rfl

/-- At point t both windows sit on block (t, 0) of their arrays. -/
theorem normIdx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- One entry: if the block x0 is rows 512 T .. 512 T + 511 of the array A, the payload at (r, k) is the
    reference at (512 T + r, k): both are the twice-normalised row at k. -/
theorem normPoint_eq (x0 : Vec Ideal S512x1024 .f32) (A : NormArr) (T : Nat)
    (hx : ∀ (r : Fin 512) (k : Fin 1024) (R : Fin 4096), R.val = 512 * T + r.val → x0 (ix2 r k) = A (ix2 R k))
    (j : S512x1024.Idx) (i : S4096x1024.Idx) (h0 : (i 0).val = 512 * T + (j 0).val) (h1 : (i 1).val = (j 1).val) :
    k1_pay1 (F := Ideal) x0 j = val_main_v27 (F := Ideal) A i := by
  obtain ⟨r, k, rfl⟩ : ∃ (r : Fin 512) (k : Fin 1024), j = ix2 r k := ⟨j 0, j 1, eq_ix2 j⟩
  obtain ⟨R, k', rfl⟩ : ∃ (R : Fin 4096) (k' : Fin 1024), i = ix2 R k' := ⟨i 0, i 1, eq_ix2 i⟩
  have hk : k' = k := Fin.ext h1
  subst hk
  rw [normPay_apply, normRef_apply]
  exact congrArg (fun f => normRow (normRow f) k') (funext fun k'' => hx r k'' R h0)

/-- What point t writes back is block t of the reference's twice-normalised array. -/
theorem normFlushed_eq (c : Dev nD) (t : Fin cfg1.N) :
    (dat1 (F := Ideal) V c).flushed 1 t
      = ((cfg1.win 1).blk t).view.read (Elt Ideal) (val_main_v27 (F := Ideal) (V c main_arg1)) := by
  show (cfg1.win 1).cut (grid1.coords t) ((dat1 (F := Ideal) V c).after 1 t) = _
  rw [after1_1]
  unfold normOut
  rw [View.canon_unit_zero normHz]
  simp only [View.ld_unit_zero (S := S512x1024) normHz]
  obtain ⟨e0, e1, e2, e3⟩ := normIdx_facts t
  funext j
  show k1_pay1 (F := Ideal) (iblk1 V c 0 t) j
    = val_main_v27 (F := Ideal) (V c main_arg1) (((cfg1.win 1).blk t).view.emb j)
  refine normPoint_eq (iblk1 V c 0 t) (V c main_arg1) t.val ?_ j _ ?_ ?_
  · intro r k R hR
    show V c main_arg1 (((cfg1.win 0).blk t).view.emb (ix2 r k)) = V c main_arg1 (ix2 R k)
    refine congrArg (V c main_arg1) (funext fun a => Fin.ext ?_)
    match a with
    | ⟨0, _⟩ => show win1_0.index t (0 : Fin 2) * 512 + 1 * r.val = R.val; omega
    | ⟨1, _⟩ => show win1_0.index t (1 : Fin 2) * 1024 + 1 * k.val = k.val; omega
  · show win1_1.index t (0 : Fin 2) * 512 + 1 * (j 0).val = 512 * t.val + (j 0).val; omega
  · show win1_1.index t (1 : Fin 2) * 1024 + 1 * (j 1).val = (j 1).val; omega

/-- An index of the array is in point t's block iff each coordinate is in the block's range on its axis. -/
theorem normMem_blk (t : Fin cfg1.N) (i : S4096x1024.Idx) :
    i ∈ ((cfg1.win 1).blk t).view.set ↔ ∀ a : Fin 2, win1_1.index t a * S512x1024.size a ≤ (i a).val
      ∧ (i a).val < win1_1.index t a * S512x1024.size a + S512x1024.size a := by
  show i ∈ ((View.whole main_v1).slice (win1_1.rect t)).set ↔ _
  rw [View.set_slice_whole, Rect.mem_set_unit]
  exact Iff.rfl

/-- Row r of the result lies in the block of point r / 512. -/
theorem normCover (i : S4096x1024.Idx) :
    ∃ t : Fin cfg1.N, (cfg1.win 1).flush t = true ∧ i ∈ ((cfg1.win 1).blk t).view.set := by
  have hi0 : (i 0).val < 4096 := (i 0).isLt
  have hi1 : (i 1).val < 1024 := (i 1).isLt
  have hN : grid1.N = 8 := N_1
  have ht : (i 0).val / 512 < grid1.N := by rw [hN]; omega
  obtain ⟨e0, e1, e2, e3⟩ := normIdx_facts ⟨(i 0).val / 512, ht⟩
  have e2' : win1_1.index ⟨(i 0).val / 512, ht⟩ (0 : Fin 2) = (i 0).val / 512 := e2
  refine ⟨⟨(i 0).val / 512, ht⟩, flush1_1 _, ?_⟩
  rw [normMem_blk]
  intro a
  match a with
  | ⟨0, _⟩ =>
    show win1_1.index ⟨(i 0).val / 512, ht⟩ (0 : Fin 2) * 512 ≤ (i 0).val
      ∧ (i 0).val < win1_1.index ⟨(i 0).val / 512, ht⟩ (0 : Fin 2) * 512 + 512
    omega
  | ⟨1, _⟩ =>
    show win1_1.index ⟨(i 0).val / 512, ht⟩ (1 : Fin 2) * 1024 ≤ (i 1).val
      ∧ (i 1).val < win1_1.index ⟨(i 0).val / 512, ht⟩ (1 : Fin 2) * 1024 + 1024
    omega

/-- After the 8 write-backs the result array of the region is, entry by entry, the reference's twice-normalised
    next_feature. -/
theorem norm_value (c : Dev nD) (p : S4096x1024.Idx) :
    (dat1 (F := Ideal) V c).arrAt 1 cfg1.N p
      = Cert.ReferenceIdeal.Read.val_main_v27 (F := Ideal) (V c main_arg1) p :=
  congrFun ((dat1 (F := Ideal) V c).arrAt_eq_of_cover 1 (val_main_v27 (F := Ideal) (V c main_arg1))
    (fun t _ => normFlushed_eq V c t) normCover) p

end Cert.KernelIdeal.Hand

end
-- ==== Proof.Ideal.FuseSpec.lean ====
/-
  The fused tile as one function of the arrays the third pallas_call is entered with, entry by entry, on the extended
  reals: at (i, j)
      next_action(i,j) · <normed row i, normed row j> · alpha_i  −  edges(i,j) · beta_i
        +  (<neigh row i, neigh row j> · 2⁻¹⁰) · gamma_i ,
  the inner products over the 1024 features, alpha, beta, gamma the three persona columns.  The multiplier 2⁻¹⁰ is kept
  as its float word: it is the exact dyadic 1/1024.
-/
import Idealize.ShloMosaic.PureOps.Ideal
import Idealize.ShloMosaic.Lib.ValueIdx

noncomputable section

namespace Cert.KernelIdeal.Hand

open Idealize.ShloMosaic Idealize.ShloMosaic.ValueIdx

/-- The fused output from the tile operands (next_action, edges), the two row operands (normalised features, neighbour
    sums) and the three persona columns. -/
def fuseSpec (na ed : (⟨⟨2, ![4096, 4096]⟩, .f32⟩ : BufTy).Contents (Elt Ideal))
    (nm ng : (⟨⟨2, ![4096, 1024]⟩, .f32⟩ : BufTy).Contents (Elt Ideal))
    (pa pb pg : (⟨⟨2, ![4096, 1]⟩, .f32⟩ : BufTy).Contents (Elt Ideal)) :
    (⟨⟨2, ![4096, 4096]⟩, .f32⟩ : BufTy).Contents (Elt Ideal) :=
  fun p =>
    let i : Fin 4096 := p 0
    let j : Fin 4096 := p 1
    let sim : Ideal .f32 := ∑ k : Fin 1024, (nm (ix2 i k) : Ideal .f32) * nm (ix2 j k)
    let imp : Ideal .f32 := ∑ k : Fin 1024, (ng (ix2 i k) : Ideal .f32) * ng (ix2 j k)
    (FloatOps.addf (F := Ideal) (φ := .f32)
      (FloatOps.subf (F := Ideal) (φ := .f32)
        (FloatOps.mulf (F := Ideal) (φ := .f32) (FloatOps.mulf (F := Ideal) (φ := .f32) (na p) sim) (pa (ix2 i (0 : Fin 1))))
        (FloatOps.mulf (F := Ideal) (φ := .f32) (ed p) (pb (ix2 i (0 : Fin 1)))))
      (FloatOps.mulf (F := Ideal) (φ := .f32)
        (FloatOps.mulf (F := Ideal) (φ := .f32) imp (FloatOps.ofBits (F := Ideal) .f32 0x3A800000#32))
        (pg (ix2 i (0 : Fin 1)))) : Ideal .f32)

end Cert.KernelIdeal.Hand

end
-- ==== Proof.Ideal.FuseValue.lean ====
/-
  The fused output (the program's third kernel region), read.  After the 64 write-backs the result array of the region is, entry
  by entry, the fused tile function of the arrays the region was entered with:
      next_action(a,b) · <normed row a, normed row b> · alpha_a  −  edges(a,b) · beta_a
        +  (<neigh row a, neigh row b> · 2⁻¹⁰) · gamma_a .
  Three steps.  (1) The body's payload at an entry (r, s) of the tile: each of the two products contracts both
  operands' lane axis, so into the zero accumulator it is the inner product of row r of the left block with row s of
  the right block; the three columns are spread along the lanes; the rest is pointwise.  (2) Each input block, read at
  a symbolic grid point n = 8 i + j, is the rows or the tile of its array that the output tile (i, j) names, so what
  point n writes back is block n of the fused function.  (3) The 64 tiles cover the 4096 x 4096 array: entry (a, b)
  lies in the tile of the point 8 (a / 512) + b / 512.
-/
import proofs.«100355_j43800076484745_1_alg».proof.Proof.Ideal.FuseData
import proofs.«100355_j43800076484745_1_alg».proof.Proof.Ideal.FuseSpec
import proofs.«100355_j43800076484745_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The payload at an entry of the tile -/

/-- The zero offsets of a whole-block rectangle, however spelt. -/
theorem fuse_hz : (![0, 0] : Fin 2 → Nat) = fun _ => 0 := funext fun a => by fin_cases a <;> rfl

/-- The product's dimension numbers contract axis 1 of BOTH operands: the left operand is read at (output row,
    contraction position) … -/
theorem gram_lhs_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem gram_lhs_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
/-- … and the right operand at (output COLUMN, contraction position): its rows are the output's columns. -/
theorem gram_rhs_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem gram_rhs_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- A · Bᵀ into the zero accumulator, at (r, s): the inner product of row r of A with row s of B. -/
theorem gram_apply {φ₁ φ₂ : FTy} (A : FVec Ideal S512x1024 φ₁) (B : FVec Ideal S512x1024 φ₂) (r s : Fin 512) :
    FloatOps.matmul dot_S512x1024_S512x1024_S512x512_1_1_0_0_n_n none A B (constant (F := Ideal) S512x512 .f32 0x00000000#32) (ix2 r s)
      = ∑ k : Fin 1024, A (ix2 r k) * B (ix2 s k) := by
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r s) ((contrEquiv1 dot_S512x1024_S512x1024_S512x512_1_1_0_0_n_n 1024 rfl rfl).symm k) = ix2 r k := funext fun a => Fin.ext (by
    match a with
    | ⟨0, _⟩ => exact gram_lhs_0 _ _
    | ⟨1, _⟩ => exact (gram_lhs_1 _ _).trans hk)
  have er : dot_S512x1024_S512x1024_S512x512_1_1_0_0_n_n.rhsIdx (ix2 r s) ((contrEquiv1 dot_S512x1024_S512x1024_S512x512_1_1_0_0_n_n 1024 rfl rfl).symm k) = ix2 s k := funext fun a => Fin.ext (by
    match a with
    | ⟨0, _⟩ => exact gram_rhs_0 _ _
    | ⟨1, _⟩ => exact (gram_rhs_1 _ _).trans hk)
  rw [el, er]

/-- The payload at (r, s) of the tile, from the nine loaded blocks: the two products are inner products of rows, the
    three columns read their entry of row r, the rest is pointwise in the body's own order. -/
theorem fuse_pay_apply (x2 x3 x4 x5 : FVec Ideal S512x1024 .bf16) (x0 x1 : FVec Ideal S512x512 .f32)
    (x6 x7 x8 : FVec Ideal S512x1 .f32) (r s : Fin 512) :
    k2_pay1 (F := Ideal) x2 x3 x4 x5 x0 x1 x6 x7 x8 (ix2 r s)
      = ((x0 (ix2 r s) * ∑ k : Fin 1024, x2 (ix2 r k) * x3 (ix2 s k)) * x6 (ix2 r (0 : Fin 1))
          - x1 (ix2 r s) * x7 (ix2 r (0 : Fin 1))
          + ((∑ k : Fin 1024, x4 (ix2 r k) * x5 (ix2 s k)) * Ideal.ofBits .f32 0x3A800000#32) * x8 (ix2 r (0 : Fin 1)) : EReal) := by
  unfold k2_pay1
  simp only [shapeCast_self, addf_apply, subf_apply, mulf_apply, broadcast_apply, matmul]
  rw [Cert.RowOps.broadcastTo_a1_ab_apply, Cert.RowOps.broadcastTo_a1_ab_apply, Cert.RowOps.broadcastTo_a1_ab_apply,
    gram_apply, gram_apply]
  rfl

/-! ## The blocks at a symbolic grid point

The grid point n = 8 i + j has block row i = n / 8 and block column j = n % 8.  The relations between the printed index
maps and n are decided once over the 64 points. -/

theorem fuse_idx_0 : ∀ t : Fin cfg2.N, win2_0.index t (0 : Fin 2) = t.val / 8 ∧ win2_0.index t (1 : Fin 2) = t.val % 8 :=
  (by decide +kernel : ∀ t : Fin grid2.N, _)
theorem fuse_idx_1 : ∀ t : Fin cfg2.N, win2_1.index t (0 : Fin 2) = t.val / 8 ∧ win2_1.index t (1 : Fin 2) = t.val % 8 :=
  (by decide +kernel : ∀ t : Fin grid2.N, _)
theorem fuse_idx_2 : ∀ t : Fin cfg2.N, win2_2.index t (0 : Fin 2) = t.val / 8 ∧ win2_2.index t (1 : Fin 2) = 0 :=
  (by decide +kernel : ∀ t : Fin grid2.N, _)
theorem fuse_idx_3 : ∀ t : Fin cfg2.N, win2_3.index t (0 : Fin 2) = t.val % 8 ∧ win2_3.index t (1 : Fin 2) = 0 :=
  (by decide +kernel : ∀ t : Fin grid2.N, _)
theorem fuse_idx_4 : ∀ t : Fin cfg2.N, win2_4.index t (0 : Fin 2) = t.val / 8 ∧ win2_4.index t (1 : Fin 2) = 0 :=
  (by decide +kernel : ∀ t : Fin grid2.N, _)
theorem fuse_idx_5 : ∀ t : Fin cfg2.N, win2_5.index t (0 : Fin 2) = t.val % 8 ∧ win2_5.index t (1 : Fin 2) = 0 :=
  (by decide +kernel : ∀ t : Fin grid2.N, _)
theorem fuse_idx_6 : ∀ t : Fin cfg2.N, win2_6.index t (0 : Fin 2) = t.val / 8 ∧ win2_6.index t (1 : Fin 2) = 0 :=
  (by decide +kernel : ∀ t : Fin grid2.N, _)
theorem fuse_idx_7 : ∀ t : Fin cfg2.N, win2_7.index t (0 : Fin 2) = t.val / 8 ∧ win2_7.index t (1 : Fin 2) = 0 :=
  (by decide +kernel : ∀ t : Fin grid2.N, _)
theorem fuse_idx_8 : ∀ t : Fin cfg2.N, win2_8.index t (0 : Fin 2) = t.val / 8 ∧ win2_8.index t (1 : Fin 2) = 0 :=
  (by decide +kernel : ∀ t : Fin grid2.N, _)
theorem fuse_idx_9 : ∀ t : Fin cfg2.N, win2_9.index t (0 : Fin 2) = t.val / 8 ∧ win2_9.index t (1 : Fin 2) = t.val % 8 :=
  (by decide +kernel : ∀ t : Fin grid2.N, _)

variable (V : (c : Dev nD) → (b : Ref sig .tc) → Buf (Elt Ideal) ((c : Thread nD τ).loc b))

/-- The next_action tile at point n: entry (y0, y1) is the array's entry (512 (n / 8) + y0, 512 (n % 8) + y1). -/
theorem fuse_blk0 (c : Dev nD) (t : Fin cfg2.N) (y0 : Fin 512) (y1 : Fin 512) (q : S4096x4096.Idx)
    (h0 : (q 0).val = 512 * (t.val / 8) + y0.val) (h1 : (q 1).val = 512 * (t.val % 8) + y1.val) :
    (iblk2 (F := Ideal) V c 0 t : S512x512.Idx → EReal) (ix2 y0 y1) = (V c main_arg2 : S4096x4096.Idx → EReal) q := by
  obtain ⟨e0, e1⟩ := fuse_idx_0 t
  show (V c main_arg2 : S4096x4096.Idx → EReal) (((cfg2.win 0).blk t).view.emb (ix2 y0 y1)) = _
  refine congrArg (V c main_arg2 : S4096x4096.Idx → EReal) (funext fun a => Fin.ext ?_)
  match a with
  | ⟨0, _⟩ => show win2_0.index t (0 : Fin 2) * 512 + 1 * y0.val = (q 0).val; rw [e0, h0]; omega
  | ⟨1, _⟩ => show win2_0.index t (1 : Fin 2) * 512 + 1 * y1.val = (q 1).val; rw [e1, h1]; omega

/-- The edges tile at point n, likewise. -/
theorem fuse_blk1 (c : Dev nD) (t : Fin cfg2.N) (y0 : Fin 512) (y1 : Fin 512) (q : S4096x4096.Idx)
    (h0 : (q 0).val = 512 * (t.val / 8) + y0.val) (h1 : (q 1).val = 512 * (t.val % 8) + y1.val) :
    (iblk2 (F := Ideal) V c 1 t : S512x512.Idx → EReal) (ix2 y0 y1) = (V c main_arg3 : S4096x4096.Idx → EReal) q := by
  obtain ⟨e0, e1⟩ := fuse_idx_1 t
  show (V c main_arg3 : S4096x4096.Idx → EReal) (((cfg2.win 1).blk t).view.emb (ix2 y0 y1)) = _
  refine congrArg (V c main_arg3 : S4096x4096.Idx → EReal) (funext fun a => Fin.ext ?_)
  match a with
  | ⟨0, _⟩ => show win2_1.index t (0 : Fin 2) * 512 + 1 * y0.val = (q 0).val; rw [e0, h0]; omega
  | ⟨1, _⟩ => show win2_1.index t (1 : Fin 2) * 512 + 1 * y1.val = (q 1).val; rw [e1, h1]; omega

/-- The normalised rows at block row n / 8: row y0 of the block is row 512 (n / 8) + y0 of the array. -/
theorem fuse_blk2 (c : Dev nD) (t : Fin cfg2.N) (y0 : Fin 512) (y1 : Fin 1024) (q : S4096x1024.Idx)
    (h0 : (q 0).val = 512 * (t.val / 8) + y0.val) (h1 : (q 1).val = y1.val) :
    (iblk2 (F := Ideal) V c 2 t : S512x1024.Idx → EReal) (ix2 y0 y1) = (V c main_v1 : S4096x1024.Idx → EReal) q := by
  obtain ⟨e0, e1⟩ := fuse_idx_2 t
  show (V c main_v1 : S4096x1024.Idx → EReal) (((cfg2.win 2).blk t).view.emb (ix2 y0 y1)) = _
  refine congrArg (V c main_v1 : S4096x1024.Idx → EReal) (funext fun a => Fin.ext ?_)
  match a with
  | ⟨0, _⟩ => show win2_2.index t (0 : Fin 2) * 512 + 1 * y0.val = (q 0).val; rw [e0, h0]; omega
  | ⟨1, _⟩ => show win2_2.index t (1 : Fin 2) * 1024 + 1 * y1.val = (q 1).val; rw [e1, h1]; omega

/-- The normalised rows at block row n % 8: row y0 of the block is row 512 (n % 8) + y0 of the array. -/
theorem fuse_blk3 (c : Dev nD) (t : Fin cfg2.N) (y0 : Fin 512) (y1 : Fin 1024) (q : S4096x1024.Idx)
    (h0 : (q 0).val = 512 * (t.val % 8) + y0.val) (h1 : (q 1).val = y1.val) :
    (iblk2 (F := Ideal) V c 3 t : S512x1024.Idx → EReal) (ix2 y0 y1) = (V c main_v1 : S4096x1024.Idx → EReal) q := by
  obtain ⟨e0, e1⟩ := fuse_idx_3 t
  show (V c main_v1 : S4096x1024.Idx → EReal) (((cfg2.win 3).blk t).view.emb (ix2 y0 y1)) = _
  refine congrArg (V c main_v1 : S4096x1024.Idx → EReal) (funext fun a => Fin.ext ?_)
  match a with
  | ⟨0, _⟩ => show win2_3.index t (0 : Fin 2) * 512 + 1 * y0.val = (q 0).val; rw [e0, h0]; omega
  | ⟨1, _⟩ => show win2_3.index t (1 : Fin 2) * 1024 + 1 * y1.val = (q 1).val; rw [e1, h1]; omega

/-- The neighbour sums at block row n / 8. -/
theorem fuse_blk4 (c : Dev nD) (t : Fin cfg2.N) (y0 : Fin 512) (y1 : Fin 1024) (q : S4096x1024.Idx)
    (h0 : (q 0).val = 512 * (t.val / 8) + y0.val) (h1 : (q 1).val = y1.val) :
    (iblk2 (F := Ideal) V c 4 t : S512x1024.Idx → EReal) (ix2 y0 y1) = (V c main_v0 : S4096x1024.Idx → EReal) q := by
  obtain ⟨e0, e1⟩ := fuse_idx_4 t
  show (V c main_v0 : S4096x1024.Idx → EReal) (((cfg2.win 4).blk t).view.emb (ix2 y0 y1)) = _
  refine congrArg (V c main_v0 : S4096x1024.Idx → EReal) (funext fun a => Fin.ext ?_)
  match a with
  | ⟨0, _⟩ => show win2_4.index t (0 : Fin 2) * 512 + 1 * y0.val = (q 0).val; rw [e0, h0]; omega
  | ⟨1, _⟩ => show win2_4.index t (1 : Fin 2) * 1024 + 1 * y1.val = (q 1).val; rw [e1, h1]; omega

/-- The neighbour sums at block row n % 8. -/
theorem fuse_blk5 (c : Dev nD) (t : Fin cfg2.N) (y0 : Fin 512) (y1 : Fin 1024) (q : S4096x1024.Idx)
    (h0 : (q 0).val = 512 * (t.val % 8) + y0.val) (h1 : (q 1).val = y1.val) :
    (iblk2 (F := Ideal) V c 5 t : S512x1024.Idx → EReal) (ix2 y0 y1) = (V c main_v0 : S4096x1024.Idx → EReal) q := by
  obtain ⟨e0, e1⟩ := fuse_idx_5 t
  show (V c main_v0 : S4096x1024.Idx → EReal) (((cfg2.win 5).blk t).view.emb (ix2 y0 y1)) = _
  refine congrArg (V c main_v0 : S4096x1024.Idx → EReal) (funext fun a => Fin.ext ?_)
  match a with
  | ⟨0, _⟩ => show win2_5.index t (0 : Fin 2) * 512 + 1 * y0.val = (q 0).val; rw [e0, h0]; omega
  | ⟨1, _⟩ => show win2_5.index t (1 : Fin 2) * 1024 + 1 * y1.val = (q 1).val; rw [e1, h1]; omega

/-- The first persona column at block row n / 8. -/
theorem fuse_blk6 (c : Dev nD) (t : Fin cfg2.N) (y0 : Fin 512) (y1 : Fin 1) (q : S4096x1.Idx)
    (h0 : (q 0).val = 512 * (t.val / 8) + y0.val) (h1 : (q 1).val = y1.val) :
    (iblk2 (F := Ideal) V c 6 t : S512x1.Idx → EReal) (ix2 y0 y1) = (V c main_v7 : S4096x1.Idx → EReal) q := by
  obtain ⟨e0, e1⟩ := fuse_idx_6 t
  show (V c main_v7 : S4096x1.Idx → EReal) (((cfg2.win 6).blk t).view.emb (ix2 y0 y1)) = _
  refine congrArg (V c main_v7 : S4096x1.Idx → EReal) (funext fun a => Fin.ext ?_)
  match a with
  | ⟨0, _⟩ => show win2_6.index t (0 : Fin 2) * 512 + 1 * y0.val = (q 0).val; rw [e0, h0]; omega
  | ⟨1, _⟩ => show win2_6.index t (1 : Fin 2) * 1 + 1 * y1.val = (q 1).val; rw [e1, h1]; omega

/-- The second persona column at block row n / 8. -/
theorem fuse_blk7 (c : Dev nD) (t : Fin cfg2.N) (y0 : Fin 512) (y1 : Fin 1) (q : S4096x1.Idx)
    (h0 : (q 0).val = 512 * (t.val / 8) + y0.val) (h1 : (q 1).val = y1.val) :
    (iblk2 (F := Ideal) V c 7 t : S512x1.Idx → EReal) (ix2 y0 y1) = (V c main_v8 : S4096x1.Idx → EReal) q := by
  obtain ⟨e0, e1⟩ := fuse_idx_7 t
  show (V c main_v8 : S4096x1.Idx → EReal) (((cfg2.win 7).blk t).view.emb (ix2 y0 y1)) = _
  refine congrArg (V c main_v8 : S4096x1.Idx → EReal) (funext fun a => Fin.ext ?_)
  match a with
  | ⟨0, _⟩ => show win2_7.index t (0 : Fin 2) * 512 + 1 * y0.val = (q 0).val; rw [e0, h0]; omega
  | ⟨1, _⟩ => show win2_7.index t (1 : Fin 2) * 1 + 1 * y1.val = (q 1).val; rw [e1, h1]; omega

/-- The third persona column at block row n / 8. -/
theorem fuse_blk8 (c : Dev nD) (t : Fin cfg2.N) (y0 : Fin 512) (y1 : Fin 1) (q : S4096x1.Idx)
    (h0 : (q 0).val = 512 * (t.val / 8) + y0.val) (h1 : (q 1).val = y1.val) :
    (iblk2 (F := Ideal) V c 8 t : S512x1.Idx → EReal) (ix2 y0 y1) = (V c main_v9 : S4096x1.Idx → EReal) q := by
  obtain ⟨e0, e1⟩ := fuse_idx_8 t
  show (V c main_v9 : S4096x1.Idx → EReal) (((cfg2.win 8).blk t).view.emb (ix2 y0 y1)) = _
  refine congrArg (V c main_v9 : S4096x1.Idx → EReal) (funext fun a => Fin.ext ?_)
  match a with
  | ⟨0, _⟩ => show win2_8.index t (0 : Fin 2) * 512 + 1 * y0.val = (q 0).val; rw [e0, h0]; omega
  | ⟨1, _⟩ => show win2_8.index t (1 : Fin 2) * 1 + 1 * y1.val = (q 1).val; rw [e1, h1]; omega

/-- The fused function at an entry, with the operations written on the extended reals. -/
theorem fuseSpec_apply (na ed : S4096x4096.Idx → EReal) (nm ng : S4096x1024.Idx → EReal) (pa pb pg : S4096x1.Idx → EReal) (a b : Fin 4096) :
    fuseSpec na ed nm ng pa pb pg (ix2 a b)
      = ((na (ix2 a b) * ∑ k : Fin 1024, nm (ix2 a k) * nm (ix2 b k)) * pa (ix2 a (0 : Fin 1))
          - ed (ix2 a b) * pb (ix2 a (0 : Fin 1))
          + ((∑ k : Fin 1024, ng (ix2 a k) * ng (ix2 b k)) * Ideal.ofBits .f32 0x3A800000#32) * pg (ix2 a (0 : Fin 1)) : EReal) := rfl

/-- Two row blocks whose rows r and s are rows A and B of one array have the inner product of those two rows. -/
theorem rowdot_congr (x y : S512x1024.Idx → EReal) (u : S4096x1024.Idx → EReal) (r s : Fin 512) (A B : Fin 4096)
    (hx : ∀ k : Fin 1024, x (ix2 r k) = u (ix2 A k)) (hy : ∀ k : Fin 1024, y (ix2 s k) = u (ix2 B k)) :
    (∑ k : Fin 1024, x (ix2 r k) * y (ix2 s k)) = ∑ k : Fin 1024, u (ix2 A k) * u (ix2 B k) :=
  Finset.sum_congr rfl fun k _ => by rw [hx k, hy k]

/-! ## What a point writes back, the cover, the array -/

/-- WHAT POINT n WRITES BACK is block n of the fused function of the arrays the region was entered with. -/
theorem fuse_flushed_eq (c : Dev nD) (t : Fin cfg2.N) :
    (dat2 (F := Ideal) V c).flushed 9 t
      = ((cfg2.win 9).blk t).view.read (Elt Ideal)
          (fuseSpec (V c main_arg2) (V c main_arg3) (V c main_v1) (V c main_v0) (V c main_v7) (V c main_v8) (V c main_v9)) := by
  show (cfg2.win 9).cut (grid2.coords t) ((dat2 (F := Ideal) V c).after 9 t) = _
  rw [after2_9]
  unfold fuseOut
  rw [View.canon_unit_zero fuse_hz]
  simp only [View.ld_unit_zero (S := S512x1024) fuse_hz, View.ld_unit_zero (S := S512x512) fuse_hz, View.ld_unit_zero (S := S512x1) fuse_hz]
  have hN : t.val < 64 := lt_of_lt_of_eq t.isLt N_2
  obtain ⟨e0, e1⟩ := fuse_idx_9 t
  funext j
  obtain ⟨r, s, rfl⟩ : ∃ (r s : Fin 512), j = ix2 r s := ⟨j 0, j 1, eq_ix2 j⟩
  -- the array entry (A, B) the block's entry (r, s) sits at
  obtain ⟨A, hA⟩ : ∃ A : Fin 4096, A.val = 512 * (t.val / 8) + r.val := ⟨⟨512 * (t.val / 8) + r.val, by have := r.isLt; omega⟩, rfl⟩
  obtain ⟨B, hB⟩ : ∃ B : Fin 4096, B.val = 512 * (t.val % 8) + s.val := ⟨⟨512 * (t.val % 8) + s.val, by have := s.isLt; omega⟩, rfl⟩
  have hemb : ((cfg2.win 9).blk t).view.emb (ix2 r s) = ix2 A B :=
    funext fun a => Fin.ext (by
      match a with
      | ⟨0, _⟩ => show win2_9.index t (0 : Fin 2) * 512 + 1 * r.val = A.val; rw [e0, hA]; omega
      | ⟨1, _⟩ => show win2_9.index t (1 : Fin 2) * 512 + 1 * s.val = B.val; rw [e1, hB]; omega)
  show k2_pay1 (F := Ideal) (iblk2 V c 2 t) (iblk2 V c 3 t) (iblk2 V c 4 t) (iblk2 V c 5 t) (iblk2 V c 0 t) (iblk2 V c 1 t)
      (iblk2 V c 6 t) (iblk2 V c 7 t) (iblk2 V c 8 t) (ix2 r s)
    = fuseSpec (V c main_arg2) (V c main_arg3) (V c main_v1) (V c main_v0) (V c main_v7) (V c main_v8) (V c main_v9)
        (((cfg2.win 9).blk t).view.emb (ix2 r s))
  rw [hemb, fuseSpec_apply]
  refine (fuse_pay_apply (iblk2 V c 2 t) (iblk2 V c 3 t) (iblk2 V c 4 t) (iblk2 V c 5 t) (iblk2 V c 0 t) (iblk2 V c 1 t)
      (iblk2 V c 6 t) (iblk2 V c 7 t) (iblk2 V c 8 t) r s).trans ?_
  rw [fuse_blk0 V c t r s (ix2 A B) hA hB, fuse_blk1 V c t r s (ix2 A B) hA hB,
    fuse_blk6 V c t r 0 (ix2 A (0 : Fin 1)) hA rfl, fuse_blk7 V c t r 0 (ix2 A (0 : Fin 1)) hA rfl,
    fuse_blk8 V c t r 0 (ix2 A (0 : Fin 1)) hA rfl]
  rw [rowdot_congr (iblk2 V c 2 t) (iblk2 V c 3 t) (V c main_v1) r s A B
      (fun k => fuse_blk2 V c t r k (ix2 A k) hA rfl) (fun k => fuse_blk3 V c t s k (ix2 B k) hB rfl),
    rowdot_congr (iblk2 V c 4 t) (iblk2 V c 5 t) (V c main_v0) r s A B
      (fun k => fuse_blk4 V c t r k (ix2 A k) hA rfl) (fun k => fuse_blk5 V c t s k (ix2 B k) hB rfl)]

/-- An entry of the array is in point n's tile iff each coordinate is in the tile's range on its axis. -/
theorem fuse_mem_blk (t : Fin cfg2.N) (i : S4096x4096.Idx) :
    i ∈ ((cfg2.win 9).blk t).view.set ↔ ∀ a : Fin 2, win2_9.index t a * S512x512.size a ≤ (i a).val ∧ (i a).val < win2_9.index t a * S512x512.size a + S512x512.size a := by
  show i ∈ ((View.whole main_v10).slice (win2_9.rect t)).set ↔ _
  rw [View.set_slice_whole, Rect.mem_set_unit]
  exact Iff.rfl

/-- THE COVER: entry (a, b) lies in the tile of the point 8 (a / 512) + b / 512, and every point writes back. -/
theorem fuse_cover (i : S4096x4096.Idx) :
    ∃ t : Fin cfg2.N, (cfg2.win 9).flush t = true ∧ i ∈ ((cfg2.win 9).blk t).view.set := by
  have hi0 : (i 0).val < 4096 := (i 0).isLt
  have hi1 : (i 1).val < 4096 := (i 1).isLt
  have ht : 8 * ((i 0).val / 512) + (i 1).val / 512 < cfg2.N := lt_of_lt_of_eq (by omega) N_2.symm
  refine ⟨⟨8 * ((i 0).val / 512) + (i 1).val / 512, ht⟩, flush2_9 _, ?_⟩
  rw [fuse_mem_blk]
  obtain ⟨e0, e1⟩ := fuse_idx_9 ⟨8 * ((i 0).val / 512) + (i 1).val / 512, ht⟩
  intro a
  match a with
  | ⟨0, _⟩ =>
    show win2_9.index ⟨8 * ((i 0).val / 512) + (i 1).val / 512, ht⟩ (0 : Fin 2) * 512 ≤ (i 0).val
      ∧ (i 0).val < win2_9.index ⟨8 * ((i 0).val / 512) + (i 1).val / 512, ht⟩ (0 : Fin 2) * 512 + 512
    rw [e0]
    show (8 * ((i 0).val / 512) + (i 1).val / 512) / 8 * 512 ≤ (i 0).val ∧ (i 0).val < (8 * ((i 0).val / 512) + (i 1).val / 512) / 8 * 512 + 512
    omega
  | ⟨1, _⟩ =>
    show win2_9.index ⟨8 * ((i 0).val / 512) + (i 1).val / 512, ht⟩ (1 : Fin 2) * 512 ≤ (i 1).val
      ∧ (i 1).val < win2_9.index ⟨8 * ((i 0).val / 512) + (i 1).val / 512, ht⟩ (1 : Fin 2) * 512 + 512
    rw [e1]
    show (8 * ((i 0).val / 512) + (i 1).val / 512) % 8 * 512 ≤ (i 1).val ∧ (i 1).val < (8 * ((i 0).val / 512) + (i 1).val / 512) % 8 * 512 + 512
    omega

/-- THE ARRAY after the 64 write-backs: the fused function of the arrays the region was entered with, entry by entry. -/
theorem fuse_value (V : (c : Dev nD) → (b : Ref sig .tc) → Buf (Elt Ideal) ((c : Thread nD τ).loc b)) (c : Dev nD) (p : S4096x4096.Idx) :
    (dat2 (F := Ideal) V c).arrAt 9 cfg2.N p
      = fuseSpec (V c main_arg2) (V c main_arg3) (V c main_v1) (V c main_v0) (V c main_v7) (V c main_v8) (V c main_v9) p :=
  congrFun ((dat2 (F := Ideal) V c).arrAt_eq_of_cover 9
    (fuseSpec (V c main_arg2) (V c main_arg3) (V c main_v1) (V c main_v0) (V c main_v7) (V c main_v8) (V c main_v9))
    (fun t _ => fuse_flushed_eq V c t) fuse_cover) p

end Cert.KernelIdeal.Hand

end
-- ==== Proof.Ideal.PersonaValue.lean ====
/-
  The persona coefficients (the host operations between the second and the third kernel call), at the extended reals.
  alpha, beta and gamma (three vectors of 8) are written as columns and laid side by side as an 8 x 3 matrix;
  persona_t (4096 x 8) is multiplied with it, and the product's three columns are cut out as three 4096 x 1 arrays.
  Column j of a product A · [a | b | g] is A times the j-th of the three vectors:
      (A · [a | b | g]) (r, j) = Σ k, A (r, k) · [a | b | g] (k, j) = Σ k, A (r, k) · v_j k,
  which is what the reference computes, one matrix-vector product persona_t · v[:, None] per vector.
-/
import proofs.«100355_j43800076484745_1_alg».proof.Proof.Gen.KernelIdeal.Regions
import proofs.«100355_j43800076484745_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

open Idealize.ShloMosaic.ValueIdx

/-! ## The three vectors side by side: an 8 x 3 matrix read at an entry -/

section Columns
variable {α : Type}

/-- alpha, beta and gamma written as columns ([8] to [8, 1]) and laid side by side along axis 1: an 8 x 3 matrix. -/
def cols3 (a b g : S8.Idx → α) : S8x3.Idx → α :=
  concatenate S8x3 1 [⟨S8x1, broadcastInDim S8x1 ![0] bcast_S8_S8x1_0 a⟩, ⟨S8x1, broadcastInDim S8x1 ![0] bcast_S8_S8x1_0 b⟩, ⟨S8x1, broadcastInDim S8x1 ![0] bcast_S8_S8x1_0 g⟩] concatenates_S8x1_S8x1_S8x1_S8x3_d1

/-- A vector written as a column, read at row k: its k-th entry (the axis of extent 8 is no unit axis). -/
theorem col_apply (v : S8.Idx → α) (k : Fin 8) (z : Fin 1) :
    broadcastInDim S8x1 ![0] bcast_S8_S8x1_0 v (ix2 k z) = v (ix1 k) :=
  broadcastInDim_apply _ bcast_S8_S8x1_0 v (ix2 k z) (ix1 k) (fun a => match a with
    | ⟨0, _⟩ => by show k.val = if (8 : Nat) = 1 then 0 else k.val; rw [if_neg (by decide)])

/-- Column 0 of the matrix is the first vector: no position of axis 1 lies before the first piece. -/
theorem cols3_apply_0 (a b g : S8.Idx → α) (k : Fin 8) : cols3 a b g (ix2 k (0 : Fin 3)) = a (ix1 k) := by
  unfold cols3
  refine (concatenate_apply_piece (1 : Fin S8x3.rank)
    [⟨S8x1, broadcastInDim S8x1 ![0] bcast_S8_S8x1_0 a⟩, ⟨S8x1, broadcastInDim S8x1 ![0] bcast_S8_S8x1_0 b⟩, ⟨S8x1, broadcastInDim S8x1 ![0] bcast_S8_S8x1_0 g⟩]
    concatenates_S8x1_S8x1_S8x1_S8x3_d1 (ix2 k (0 : Fin 3)) 0 (by show (0 : Nat) < 3; omega) S8x1 _ rfl rfl 0 rfl
    (ix2 k (0 : Fin 1)) (fun b hb => ?_) rfl).trans (col_apply a k 0)
  match b with
  | ⟨0, _⟩ => rfl
  | ⟨1, _⟩ => exact absurd rfl hb

/-- Column 1 is the second vector: one position of axis 1 lies before the second piece. -/
theorem cols3_apply_1 (a b g : S8.Idx → α) (k : Fin 8) : cols3 a b g (ix2 k (1 : Fin 3)) = b (ix1 k) := by
  unfold cols3
  refine (concatenate_apply_piece (1 : Fin S8x3.rank)
    [⟨S8x1, broadcastInDim S8x1 ![0] bcast_S8_S8x1_0 a⟩, ⟨S8x1, broadcastInDim S8x1 ![0] bcast_S8_S8x1_0 b⟩, ⟨S8x1, broadcastInDim S8x1 ![0] bcast_S8_S8x1_0 g⟩]
    concatenates_S8x1_S8x1_S8x1_S8x3_d1 (ix2 k (1 : Fin 3)) 1 (by show (1 : Nat) < 3; omega) S8x1 _ rfl rfl 1 rfl
    (ix2 k (0 : Fin 1)) (fun b hb => ?_) rfl).trans (col_apply b k 0)
  match b with
  | ⟨0, _⟩ => rfl
  | ⟨1, _⟩ => exact absurd rfl hb

/-- Column 2 is the third vector: two positions of axis 1 lie before the third piece. -/
theorem cols3_apply_2 (a b g : S8.Idx → α) (k : Fin 8) : cols3 a b g (ix2 k (2 : Fin 3)) = g (ix1 k) := by
  unfold cols3
  refine (concatenate_apply_piece (1 : Fin S8x3.rank)
    [⟨S8x1, broadcastInDim S8x1 ![0] bcast_S8_S8x1_0 a⟩, ⟨S8x1, broadcastInDim S8x1 ![0] bcast_S8_S8x1_0 b⟩, ⟨S8x1, broadcastInDim S8x1 ![0] bcast_S8_S8x1_0 g⟩]
    concatenates_S8x1_S8x1_S8x1_S8x3_d1 (ix2 k (2 : Fin 3)) 2 (by show (2 : Nat) < 3; omega) S8x1 _ rfl rfl 2 rfl
    (ix2 k (0 : Fin 1)) (fun b hb => ?_) rfl).trans (col_apply g k 0)
  match b with
  | ⟨0, _⟩ => rfl
  | ⟨1, _⟩ => exact absurd rfl hb

end Columns

/-! ## The product persona_t times the 8 x 3 matrix, read at an entry -/

-- where the product's entry (row, column) and the contracted position sit in the two operands: rows of the left operand
-- and columns of the right one are kept, the left operand's axis 1 is contracted with the right operand's axis 0
theorem lhs_persona_0 (i : S4096x3.Idx) (q : dot_S4096x8_S8x3_S4096x3_1_0_0_1_n_n.contr.Idx) :
    (dot_S4096x8_S8x3_S4096x3_1_0_0_1_n_n.lhsIdx i q 0).val = (i 0).val := by
  unfold DotDims.lhsIdx
  rw [dif_neg (show ¬(0 : Fin S4096x8.rank) ∈ dot_S4096x8_S8x3_S4096x3_1_0_0_1_n_n.lhsBatch by decide), dif_pos (show (0 : Fin S4096x8.rank) ∈ dot_S4096x8_S8x3_S4096x3_1_0_0_1_n_n.lhsNonContracting by decide)]
  rfl
theorem lhs_persona_1 (i : S4096x3.Idx) (q : dot_S4096x8_S8x3_S4096x3_1_0_0_1_n_n.contr.Idx) :
    (dot_S4096x8_S8x3_S4096x3_1_0_0_1_n_n.lhsIdx i q 1).val = (q ⟨0, by decide⟩).val :=
  dot_S4096x8_S8x3_S4096x3_1_0_0_1_n_n.lhsIdx_val_of_single rfl i q
theorem rhs_persona_0 (i : S4096x3.Idx) (q : dot_S4096x8_S8x3_S4096x3_1_0_0_1_n_n.contr.Idx) :
    (dot_S4096x8_S8x3_S4096x3_1_0_0_1_n_n.rhsIdx i q 0).val = (q ⟨0, by decide⟩).val :=
  dot_S4096x8_S8x3_S4096x3_1_0_0_1_n_n.rhsIdx_val_of_single rfl i q
theorem rhs_persona_1 (i : S4096x3.Idx) (q : dot_S4096x8_S8x3_S4096x3_1_0_0_1_n_n.contr.Idx) :
    (dot_S4096x8_S8x3_S4096x3_1_0_0_1_n_n.rhsIdx i q 1).val = (i 1).val := by
  unfold DotDims.rhsIdx
  rw [dif_neg (show ¬(1 : Fin S8x3.rank) ∈ dot_S4096x8_S8x3_S4096x3_1_0_0_1_n_n.rhsBatch by decide), dif_pos (show (1 : Fin S8x3.rank) ∈ dot_S4096x8_S8x3_S4096x3_1_0_0_1_n_n.rhsNonContracting by decide)]
  rfl

/-- On the extended reals the product's entry (r, j) is the sum over the 8 contracted positions of
    persona_t (r, k) times the matrix's entry (k, j). -/
theorem personaDot_apply (x4 : FVec Ideal S4096x8 .f32) (y : FVec Ideal S8x3 .f32) (r : Fin 4096) (j : Fin 3) :
    Host.dotGeneral (F := Ideal) dot_S4096x8_S8x3_S4096x3_1_0_0_1_n_n none x4 y (ix2 r j) = ∑ k : Fin 8, x4 (ix2 r k) * y (ix2 k j) := by
  simp only [Host.dotGeneral]
  rw [Ideal.dotGeneral_apply, ← Equiv.sum_comp (ValueIdx.contrEquiv1 dot_S4096x8_S8x3_S4096x3_1_0_0_1_n_n 8 rfl rfl).symm]
  refine Finset.sum_congr rfl fun k _ => ?_
  have hk := ValueIdx.contrEquiv1_symm_val dot_S4096x8_S8x3_S4096x3_1_0_0_1_n_n 8 rfl rfl k
  have el : dot_S4096x8_S8x3_S4096x3_1_0_0_1_n_n.lhsIdx (ix2 r j) ((ValueIdx.contrEquiv1 dot_S4096x8_S8x3_S4096x3_1_0_0_1_n_n 8 rfl rfl).symm k) = ix2 r k := funext fun a => Fin.ext (by
    match a with
    | ⟨0, _⟩ => exact lhs_persona_0 _ _
    | ⟨1, _⟩ => exact (lhs_persona_1 _ _).trans hk)
  have er : dot_S4096x8_S8x3_S4096x3_1_0_0_1_n_n.rhsIdx (ix2 r j) ((ValueIdx.contrEquiv1 dot_S4096x8_S8x3_S4096x3_1_0_0_1_n_n 8 rfl rfl).symm k) = ix2 k j := funext fun a => Fin.ext (by
    match a with
    | ⟨0, _⟩ => exact (rhs_persona_0 _ _).trans hk
    | ⟨1, _⟩ => exact rhs_persona_1 _ _)
  rw [el, er]

/-! ## A column of the product cut out as a 4096 x 1 array -/

section Slices
variable {α : Type}

-- the slice [0:4096, j:j+1] at (r, 0) is the operand at (r, j)
theorem slice0_apply (x : S4096x3.Idx → α) (r : Fin 4096) (z : Fin 1) :
    extractStridedSlice S4096x1 ![0, 0] x slices_S4096x3_S4096x1_0_0 (ix2 r z) = x (ix2 r (0 : Fin 3)) :=
  extractStridedSlice_apply _ x slices_S4096x3_S4096x1_0_0 (ix2 r z) (ix2 r (0 : Fin 3)) (fun a => match a with
    | ⟨0, _⟩ => by show r.val = 0 + r.val; omega
    | ⟨1, _⟩ => by show (0 : Nat) = 0 + z.val; omega)
theorem slice1_apply (x : S4096x3.Idx → α) (r : Fin 4096) (z : Fin 1) :
    extractStridedSlice S4096x1 ![0, 1] x slices_S4096x3_S4096x1_0_1 (ix2 r z) = x (ix2 r (1 : Fin 3)) :=
  extractStridedSlice_apply _ x slices_S4096x3_S4096x1_0_1 (ix2 r z) (ix2 r (1 : Fin 3)) (fun a => match a with
    | ⟨0, _⟩ => by show r.val = 0 + r.val; omega
    | ⟨1, _⟩ => by show (1 : Nat) = 1 + z.val; omega)
theorem slice2_apply (x : S4096x3.Idx → α) (r : Fin 4096) (z : Fin 1) :
    extractStridedSlice S4096x1 ![0, 2] x slices_S4096x3_S4096x1_0_2 (ix2 r z) = x (ix2 r (2 : Fin 3)) :=
  extractStridedSlice_apply _ x slices_S4096x3_S4096x1_0_2 (ix2 r z) (ix2 r (2 : Fin 3)) (fun a => match a with
    | ⟨0, _⟩ => by show r.val = 0 + r.val; omega
    | ⟨1, _⟩ => by show (2 : Nat) = 2 + z.val; omega)

end Slices

/-! ## What the host operations leave in the three arrays -/

/-- persona_t times the 8 x 3 matrix whose columns are alpha, beta and gamma. -/
def personaCols (x4 : FVec Ideal S4096x8 .f32) (a b g : FVec Ideal S8 .f32) : FVec Ideal S4096x3 .f32 :=
  Host.dotGeneral (F := Ideal) dot_S4096x8_S8x3_S4096x3_1_0_0_1_n_n none x4 (cols3 a b g)

section Stretch

variable (m : (ℓ : Loc nD τ sig) → Buf (Elt Ideal) ℓ) (outs : Gen.Outs (F := Ideal)) (c : Dev nD)

-- No region before the stretch may change an argument, so the stretch reads persona_t, alpha, beta and gamma as launched;
-- each of its eight results is its operation's function of the results before it.
theorem V3_main_v7 :
    (Gen.V3 m outs c main_v7 : S4096x1.Idx → EReal)
      = extractStridedSlice S4096x1 ![0, 0]
          (personaCols (m ((c : Thread nD τ).loc main_arg4)) (m ((c : Thread nD τ).loc main_arg5))
            (m ((c : Thread nD τ).loc main_arg6)) (m ((c : Thread nD τ).loc main_arg7))) slices_S4096x3_S4096x1_0_0 := by
  dsimp only [Gen.V3, Gen.hostOps2]
  after_results
  dsimp only [Matrix.cons_val]
  repeat (first
    | rw [unary_result]
    | (rw [unary_result_ne]; rotate_left; decide))
  rw [Gen.V2_of m outs c main_arg4 (by decide), Gen.V1_of m outs c main_arg4 (by decide),
    Gen.V2_of m outs c main_arg5 (by decide), Gen.V1_of m outs c main_arg5 (by decide),
    Gen.V2_of m outs c main_arg6 (by decide), Gen.V1_of m outs c main_arg6 (by decide),
    Gen.V2_of m outs c main_arg7 (by decide), Gen.V1_of m outs c main_arg7 (by decide)]
  rfl
theorem V3_main_v8 :
    (Gen.V3 m outs c main_v8 : S4096x1.Idx → EReal)
      = extractStridedSlice S4096x1 ![0, 1]
          (personaCols (m ((c : Thread nD τ).loc main_arg4)) (m ((c : Thread nD τ).loc main_arg5))
            (m ((c : Thread nD τ).loc main_arg6)) (m ((c : Thread nD τ).loc main_arg7))) slices_S4096x3_S4096x1_0_1 := by
  dsimp only [Gen.V3, Gen.hostOps2]
  after_results
  dsimp only [Matrix.cons_val]
  repeat (first
    | rw [unary_result]
    | (rw [unary_result_ne]; rotate_left; decide))
  rw [Gen.V2_of m outs c main_arg4 (by decide), Gen.V1_of m outs c main_arg4 (by decide),
    Gen.V2_of m outs c main_arg5 (by decide), Gen.V1_of m outs c main_arg5 (by decide),
    Gen.V2_of m outs c main_arg6 (by decide), Gen.V1_of m outs c main_arg6 (by decide),
    Gen.V2_of m outs c main_arg7 (by decide), Gen.V1_of m outs c main_arg7 (by decide)]
  rfl
theorem V3_main_v9 :
    (Gen.V3 m outs c main_v9 : S4096x1.Idx → EReal)
      = extractStridedSlice S4096x1 ![0, 2]
          (personaCols (m ((c : Thread nD τ).loc main_arg4)) (m ((c : Thread nD τ).loc main_arg5))
            (m ((c : Thread nD τ).loc main_arg6)) (m ((c : Thread nD τ).loc main_arg7))) slices_S4096x3_S4096x1_0_2 := by
  dsimp only [Gen.V3, Gen.hostOps2]
  after_results
  dsimp only [Matrix.cons_val]
  repeat (first
    | rw [unary_result]
    | (rw [unary_result_ne]; rotate_left; decide))
  rw [Gen.V2_of m outs c main_arg4 (by decide), Gen.V1_of m outs c main_arg4 (by decide),
    Gen.V2_of m outs c main_arg5 (by decide), Gen.V1_of m outs c main_arg5 (by decide),
    Gen.V2_of m outs c main_arg6 (by decide), Gen.V1_of m outs c main_arg6 (by decide),
    Gen.V2_of m outs c main_arg7 (by decide), Gen.V1_of m outs c main_arg7 (by decide)]
  rfl

/-! ## The three columns are the reference's three matrix-vector products -/

-- the reference's operand indices at output index (r, 0) and contracted position k, by coordinates
theorem ref_lidx (r : Fin 4096) (z : Fin 1) (k : Fin 8) :
    Cert.ReferenceIdeal.Read.lidx_main_v32 (ix2 r z) k = ix2 r k ∧ Cert.ReferenceIdeal.Read.lidx_main_v36 (ix2 r z) k = ix2 r k
      ∧ Cert.ReferenceIdeal.Read.lidx_main_v7 (ix2 r z) k = ix2 r k :=
  ⟨funext fun a => Fin.ext (by match a with | ⟨0, _⟩ => rfl | ⟨1, _⟩ => rfl),
   funext fun a => Fin.ext (by match a with | ⟨0, _⟩ => rfl | ⟨1, _⟩ => rfl),
   funext fun a => Fin.ext (by match a with | ⟨0, _⟩ => rfl | ⟨1, _⟩ => rfl)⟩
theorem ref_ridx (r : Fin 4096) (z : Fin 1) (k : Fin 8) :
    Cert.ReferenceIdeal.Read.idx_main_v31 (Cert.ReferenceIdeal.Read.ridx_main_v32 (ix2 r z) k) = ix1 k
      ∧ Cert.ReferenceIdeal.Read.idx_main_v35 (Cert.ReferenceIdeal.Read.ridx_main_v36 (ix2 r z) k) = ix1 k
      ∧ Cert.ReferenceIdeal.Read.idx_main_v6 (Cert.ReferenceIdeal.Read.ridx_main_v7 (ix2 r z) k) = ix1 k :=
  ⟨funext fun a => Fin.ext (by match a with | ⟨0, _⟩ => rfl),
   funext fun a => Fin.ext (by match a with | ⟨0, _⟩ => rfl),
   funext fun a => Fin.ext (by match a with | ⟨0, _⟩ => rfl)⟩

/-- The alpha coefficient: column 0 of the product is persona_t times alpha. -/
theorem persona_alpha (q : S4096x1.Idx) :
    Gen.V3 m outs c main_v7 q
      = Cert.ReferenceIdeal.Read.val_main_v32 (F := Ideal) (m ((c : Thread nD τ).loc main_arg4)) (m ((c : Thread nD τ).loc main_arg5)) q := by
  obtain ⟨r, z, rfl⟩ : ∃ (r : Fin 4096) (z : Fin 1), q = ix2 r z := ⟨q 0, q 1, eq_ix2 q⟩
  refine (congrFun (V3_main_v7 m outs c) (ix2 r z)).trans ?_
  refine (slice0_apply _ r z).trans ?_
  unfold personaCols
  rw [personaDot_apply, Cert.ReferenceIdeal.Read.val_main_v32_apply]
  show @Eq EReal _ _
  refine Finset.sum_congr rfl fun k _ => ?_
  rw [cols3_apply_0, Cert.ReferenceIdeal.Read.val_main_v31_apply, (ref_lidx r z k).1, (ref_ridx r z k).1]

/-- The beta coefficient: column 1 of the product is persona_t times beta. -/
theorem persona_beta (q : S4096x1.Idx) :
    Gen.V3 m outs c main_v8 q
      = Cert.ReferenceIdeal.Read.val_main_v36 (F := Ideal) (m ((c : Thread nD τ).loc main_arg4)) (m ((c : Thread nD τ).loc main_arg6)) q := by
  obtain ⟨r, z, rfl⟩ : ∃ (r : Fin 4096) (z : Fin 1), q = ix2 r z := ⟨q 0, q 1, eq_ix2 q⟩
  refine (congrFun (V3_main_v8 m outs c) (ix2 r z)).trans ?_
  refine (slice1_apply _ r z).trans ?_
  unfold personaCols
  rw [personaDot_apply, Cert.ReferenceIdeal.Read.val_main_v36_apply]
  show @Eq EReal _ _
  refine Finset.sum_congr rfl fun k _ => ?_
  rw [cols3_apply_1, Cert.ReferenceIdeal.Read.val_main_v35_apply, (ref_lidx r z k).2.1, (ref_ridx r z k).2.1]

/-- The gamma coefficient: column 2 of the product is persona_t times gamma. -/
theorem persona_gamma (q : S4096x1.Idx) :
    Gen.V3 m outs c main_v9 q
      = Cert.ReferenceIdeal.Read.val_main_v7 (F := Ideal) (m ((c : Thread nD τ).loc main_arg4)) (m ((c : Thread nD τ).loc main_arg7)) q := by
  obtain ⟨r, z, rfl⟩ : ∃ (r : Fin 4096) (z : Fin 1), q = ix2 r z := ⟨q 0, q 1, eq_ix2 q⟩
  refine (congrFun (V3_main_v9 m outs c) (ix2 r z)).trans ?_
  refine (slice2_apply _ r z).trans ?_
  unfold personaCols
  rw [personaDot_apply, Cert.ReferenceIdeal.Read.val_main_v7_apply]
  show @Eq EReal _ _
  refine Finset.sum_congr rfl fun k _ => ?_
  rw [cols3_apply_2, Cert.ReferenceIdeal.Read.val_main_v6_apply, (ref_lidx r z k).2.2, (ref_ridx r z k).2.2]

end Stretch

end Cert.KernelIdeal.Hand

end
-- ==== Proof.Ideal.Bridge.lean ====
/-
  The reference's result, entry by entry, is the fused tile function of the reference's own intermediate arrays: the
  twice-normalised next_feature n, the neighbour sums g = next_action · (feature − next_feature), and the three persona
  columns persona_t · alpha, persona_t · beta, persona_t · gamma.  At entry (i, j) the reference computes
      (next_action(i,j) · Σ_k n(i,k) · nᵀ(k,j)) · alpha_i  −  edges(i,j) · beta_i  +  ((Σ_k g(i,k) · gᵀ(k,j)) / 1024) · gamma_i .
  A transpose read at (k, j) is the array at (j, k); a column broadcast along the rows, read at (i, j), is the column
  at (i, 0); the broadcast scalar is the scalar.  One law separates the two forms: the quotient of an extended real by
  1024 is its product with 2⁻¹⁰, because 1024 is a nonzero real, and the two float words denote exactly 1024 and 2⁻¹⁰.
  No entry is assumed finite.
-/
import proofs.«100355_j43800076484745_1_alg».proof.Proof.Ideal.FuseSpec
import proofs.«100355_j43800076484745_1_alg».proof.Proof.Gen.ReferenceIdeal.Read

noncomputable section

namespace Cert.KernelIdeal.Hand

open Idealize.ShloMosaic Idealize.ShloMosaic.ValueIdx
open Cert.ReferenceIdeal Cert.ReferenceIdeal.Read

namespace Bridge

/-! ## The two float words, and the one law -/

/-- The word 0x44800000 (exponent field 137, significand 1.0) denotes 2²³ · 2⁻¹³ = 1024. -/
theorem word_1024 : Ideal.ofBits .f32 0x44800000#32 = ((1024 : ℝ) : EReal) := by
  simp [Ideal.ofBits, Ideal.ieee]
  rw [← EReal.coe_mul, EReal.coe_eq_coe_iff]
  norm_num

/-- The word 0x3A800000 (exponent field 117, significand 1.0) denotes 2²³ · 2⁻³³ = 2⁻¹⁰ = 1/1024. -/
theorem word_inv_1024 : Ideal.ofBits .f32 0x3A800000#32 = ((1 / 1024 : ℝ) : EReal) := by
  simp [Ideal.ofBits, Ideal.ieee]
  rw [← EReal.coe_mul, EReal.coe_eq_coe_iff]
  norm_num

/-- Multiplying by 2⁻¹⁰ is dividing by 1024, on every extended real (the infinities and the junk value included):
    the divisor is a nonzero real, so the quotient is the product with its reciprocal. -/
theorem mul_word_eq_div (s : EReal) :
    s * Ideal.ofBits .f32 0x3A800000#32 = Ideal.div s (Ideal.ofBits .f32 0x44800000#32) := by
  rw [word_1024, word_inv_1024, Ideal.div_coe (by norm_num : (1024 : ℝ) ≠ 0)]

/-! ## The reference's two Gram products at an entry -/

/-- The similarity product n · nᵀ at (i, j) is the inner product of rows i and j of n. -/
theorem sim_apply (x1 : (⟨S4096x1024, .f32⟩ : BufTy).Contents (Elt Ideal)) (p : S4096x4096.Idx) :
    val_main_v29 (F := Ideal) x1 p
      = ∑ k : Fin 1024, (val_main_v27 (F := Ideal) x1 (ix2 (p 0 : Fin 4096) k) : Ideal .f32)
          * val_main_v27 (F := Ideal) x1 (ix2 (p 1 : Fin 4096) k) := by
  rw [val_main_v29_apply]
  refine Finset.sum_congr rfl fun k _ => ?_
  rw [val_main_v28_apply]
  have el : lidx_main_v29 p k = ix2 (p 0 : Fin 4096) k :=
    funext fun a => Fin.ext (by match a with | ⟨0, _⟩ => rfl | ⟨1, _⟩ => rfl)
  have er : idx_main_v28 (ridx_main_v29 p k) = ix2 (p 1 : Fin 4096) k :=
    funext fun a => Fin.ext (by match a with | ⟨0, _⟩ => rfl | ⟨1, _⟩ => rfl)
  rw [el, er]
  rfl

/-- The impact product g · gᵀ at (i, j) is the inner product of rows i and j of g. -/
theorem imp_apply (x0 x1 : (⟨S4096x1024, .f32⟩ : BufTy).Contents (Elt Ideal))
    (x2 : (⟨S4096x4096, .f32⟩ : BufTy).Contents (Elt Ideal)) (p : S4096x4096.Idx) :
    val_main_v3 (F := Ideal) x0 x1 x2 p
      = ∑ k : Fin 1024, (val_main_v1 (F := Ideal) x0 x1 x2 (ix2 (p 0 : Fin 4096) k) : Ideal .f32)
          * val_main_v1 (F := Ideal) x0 x1 x2 (ix2 (p 1 : Fin 4096) k) := by
  rw [val_main_v3_apply]
  refine Finset.sum_congr rfl fun k _ => ?_
  rw [val_main_v2_apply]
  have el : lidx_main_v3 p k = ix2 (p 0 : Fin 4096) k :=
    funext fun a => Fin.ext (by match a with | ⟨0, _⟩ => rfl | ⟨1, _⟩ => rfl)
  have er : idx_main_v2 (ridx_main_v3 p k) = ix2 (p 1 : Fin 4096) k :=
    funext fun a => Fin.ext (by match a with | ⟨0, _⟩ => rfl | ⟨1, _⟩ => rfl)
  rw [el, er]
  rfl

/-! ## A persona column broadcast along the rows -/

/-- Where each of the three broadcasts reads its column: row i, the column's only entry. -/
theorem col_alpha (p : S4096x4096.Idx) : idx_main_v33 p = ix2 (p 0 : Fin 4096) (0 : Fin 1) :=
  funext fun a => Fin.ext (by match a with | ⟨0, _⟩ => rfl | ⟨1, _⟩ => rfl)
theorem col_beta (p : S4096x4096.Idx) : idx_main_v37 p = ix2 (p 0 : Fin 4096) (0 : Fin 1) :=
  funext fun a => Fin.ext (by match a with | ⟨0, _⟩ => rfl | ⟨1, _⟩ => rfl)
theorem col_gamma (p : S4096x4096.Idx) : idx_main_v8 p = ix2 (p 0 : Fin 4096) (0 : Fin 1) :=
  funext fun a => Fin.ext (by match a with | ⟨0, _⟩ => rfl | ⟨1, _⟩ => rfl)

end Bridge

/-! ## The reference is the fused tile function of its own intermediates -/

theorem fuse_bridge (x0 x1 : (⟨S4096x1024, .f32⟩ : BufTy).Contents (Elt Ideal)) (x2 x3 : (⟨S4096x4096, .f32⟩ : BufTy).Contents (Elt Ideal))
    (x4 : (⟨S4096x8, .f32⟩ : BufTy).Contents (Elt Ideal)) (x5 x6 x7 : (⟨S8, .f32⟩ : BufTy).Contents (Elt Ideal)) (p : S4096x4096.Idx) :
    Cert.KernelIdeal.Hand.fuseSpec x2 x3 (val_main_v27 (F := Ideal) x1) (val_main_v1 (F := Ideal) x0 x1 x2)
        (val_main_v32 (F := Ideal) x4 x5) (val_main_v36 (F := Ideal) x4 x6) (val_main_v7 (F := Ideal) x4 x7) p
      = val_main_v40 (F := Ideal) x0 x1 x2 x3 x4 x5 x6 x7 p := by
  rw [val_main_v40_apply, val_main_v39_apply, val_main_v34_apply, val_main_v30_apply, val_main_v33_apply,
    val_main_v38_apply, val_main_v37_apply, val_main_v9_apply, val_main_v5_apply, val_main_v8_apply,
    val_main_v4_apply, val_main_cst_apply, Bridge.sim_apply, Bridge.imp_apply, Bridge.col_alpha, Bridge.col_beta,
    Bridge.col_gamma]
  unfold fuseSpec
  simp only [Ideal.hostDivf_def, Ideal.mulf_def, Ideal.ofBits_def, Bridge.mul_word_eq_div]
  rfl

end Cert.KernelIdeal.Hand

end
-- ==== Proof.Ideal.ResultValue.lean ====
/-
  What the result array holds at the end, on the extended reals: entry by entry the reference's result.
  The third call leaves the fused formula of the arrays it is entered with; of those, the two tile operands are argument
  arrays no item has written, the normalised features and the neighbour sums are what the second and the first call
  left, which are the reference's intermediate arrays, and the three persona columns are what the host stretch computes,
  which are the reference's three columns; and the fused formula of the reference's intermediates is the reference's
  result, the division by 1024 being the product with the exact dyadic 2⁻¹⁰.
-/
import proofs.«100355_j43800076484745_1_alg».proof.Proof.Gen.KernelIdeal.Launch
import proofs.«100355_j43800076484745_1_alg».proof.Proof.Gen.KernelIdeal.Skeleton
import proofs.«100355_j43800076484745_1_alg».proof.Proof.Gen.KernelIdeal.Points
import proofs.«100355_j43800076484745_1_alg».proof.Proof.Ideal.Results
import proofs.«100355_j43800076484745_1_alg».proof.Proof.Ideal.NeighValue
import proofs.«100355_j43800076484745_1_alg».proof.Proof.Ideal.NormValue
import proofs.«100355_j43800076484745_1_alg».proof.Proof.Ideal.FuseValue
import proofs.«100355_j43800076484745_1_alg».proof.Proof.Ideal.PersonaValue
import proofs.«100355_j43800076484745_1_alg».proof.Proof.Ideal.Bridge
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal.Read (val_main_v1 val_main_v27 val_main_v32 val_main_v36 val_main_v7 val_main_v40)

variable (m : (ℓ : Loc nD τ sig) → Buf (Elt Ideal) ℓ)

/-! ## What the third call is entered with -/

theorem fuseIn_arg2 (c : Dev nD) : E2 m (o2 m) c main_arg2 = m ((c : Thread nD τ).loc main_arg2) :=
  (Gen.V3_of m (o2 m) c main_arg2 (by decide)).trans <| (Gen.V2_of m (o2 m) c main_arg2 (by decide)).trans <| (Gen.V1_of m (o2 m) c main_arg2 (by decide)).trans rfl
theorem fuseIn_arg3 (c : Dev nD) : E2 m (o2 m) c main_arg3 = m ((c : Thread nD τ).loc main_arg3) :=
  (Gen.V3_of m (o2 m) c main_arg3 (by decide)).trans <| (Gen.V2_of m (o2 m) c main_arg3 (by decide)).trans <| (Gen.V1_of m (o2 m) c main_arg3 (by decide)).trans rfl
theorem fuseIn_v1 (c : Dev nD) : E2 m (o2 m) c main_v1 = normArr m c :=
  (Gen.V3_of m (o2 m) c main_v1 (by decide)).trans (by simp only [Gen.V2, Function.update_self]; exact o2_v1 m 2 c)
theorem fuseIn_v0 (c : Dev nD) : E2 m (o2 m) c main_v0 = neighArr m c :=
  (Gen.V3_of m (o2 m) c main_v0 (by decide)).trans <| (Gen.V2_of m (o2 m) c main_v0 (by decide)).trans
    (by simp only [Gen.V1, Function.update_self]; exact o2_v0 m 1 c)
theorem normIn_arg1 (c : Dev nD) : E1 m (o1 m) c main_arg1 = m ((c : Thread nD τ).loc main_arg1) :=
  (Gen.V1_of m (o1 m) c main_arg1 (by decide)).trans rfl

/-! ## The intermediates are the reference's -/

theorem neighArr_eq (c : Dev nD) (p : S4096x1024.Idx) :
    neighArr m c p = val_main_v1 (F := Ideal) (m ((c : Thread nD τ).loc main_arg0)) (m ((c : Thread nD τ).loc main_arg1)) (m ((c : Thread nD τ).loc main_arg2)) p :=
  neigh_value (E0 m) c p

theorem normArr_eq (c : Dev nD) (p : S4096x1024.Idx) :
    normArr m c p = val_main_v27 (F := Ideal) (m ((c : Thread nD τ).loc main_arg1)) p := by
  refine (norm_value (E1 m (o1 m)) c p).trans ?_
  rw [normIn_arg1]

/-! ## The result -/

/-- The result array after the run is the reference's result, entry by entry. -/
theorem result_value (c : Dev nD) (p : S4096x4096.Idx) :
    o3 m 4 main_v10 c p
      = val_main_v40 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) p := by
  rw [o3_v10]
  refine (fuse_value (E2 m (o2 m)) c p).trans ?_
  rw [fuseIn_arg2, fuseIn_arg3, fuseIn_v1, fuseIn_v0,
    show E2 m (o2 m) c main_v7 = (fun q => val_main_v32 (F := Ideal) (m ((c : Thread nD τ).loc main_arg4)) (m ((c : Thread nD τ).loc main_arg5)) q) from funext fun q => persona_alpha m (o2 m) c q,
    show E2 m (o2 m) c main_v8 = (fun q => val_main_v36 (F := Ideal) (m ((c : Thread nD τ).loc main_arg4)) (m ((c : Thread nD τ).loc main_arg6)) q) from funext fun q => persona_beta m (o2 m) c q,
    show E2 m (o2 m) c main_v9 = (fun q => val_main_v7 (F := Ideal) (m ((c : Thread nD τ).loc main_arg4)) (m ((c : Thread nD τ).loc main_arg7)) q) from funext fun q => persona_gamma m (o2 m) c q,
    show normArr m c = (fun q => val_main_v27 (F := Ideal) (m ((c : Thread nD τ).loc main_arg1)) q) from funext fun q => normArr_eq m c q,
    show neighArr m c = (fun q => val_main_v1 (F := Ideal) (m ((c : Thread nD τ).loc main_arg0)) (m ((c : Thread nD τ).loc main_arg1)) (m ((c : Thread nD τ).loc main_arg2)) q) from funext fun q => neighArr_eq m c q]
  exact fuse_bridge _ _ _ _ _ _ _ _ p

end Cert.KernelIdeal.Hand

end
-- ==== Proof.lean ====
/-
  The kernel computes, for 4096 nodes with 1024 features, 8 persona weights and two 4096 x 4096 adjacency-like arrays,
      out = next_action ∘ (N Nᵀ) ∘ α  −  edges ∘ β  +  ((S Sᵀ) / 1024) ∘ γ
  where S = next_action · (feature − next_feature) are the neighbour sums, N is next_feature with every row divided by
  its Euclidean norm (by 1 where the norm is not positive) twice over, α, β, γ are the columns persona_t · alpha,
  persona_t · beta, persona_t · gamma spread along the rows, and ∘ is the entrywise product.  It does so in three
  pallas_calls — S accumulated over 8 column blocks of next_action in a scratch buffer, N one row block at a time, the
  output one 512 x 512 tile at a time — with the three persona columns computed by host operations as slices of one
  [4096, 8] x [8, 3] product; the reference is the same formula in whole-array operations.

  On the extended reals the two agree entry by entry with no condition on the inputs: a sum over 4096 terms is the sum of
  its 8 blocks of 512 (addition is commutative and associative, 0 neutral); a column slice of the three-column product
  is the product with that column; and the kernel's multiplier 2⁻¹⁰ is exactly 1/1024, dividing by a nonzero real being
  multiplying by its inverse at every extended real.  Changes of float format are the identity there.

  The frames (each program runs to the end without a fault and leaves its arguments as launched) are the run of @main
  item by item: each pallas_call entered from every unscoped buffer at a named valuation and left at the valuation with
  its result array replaced, the arrays read through two windows held half and half.  The word-level program's frame is
  the same argument, which nowhere looks inside a float.
-/
import proofs.«100355_j43800076484745_1_alg».proof.Defs
import proofs.«100355_j43800076484745_1_alg».proof.Proof.Gen.Kernel
import proofs.«100355_j43800076484745_1_alg».proof.Proof.Gen.KernelIdeal
import proofs.«100355_j43800076484745_1_alg».proof.Proof.Gen.ReferenceIdeal
import proofs.«100355_j43800076484745_1_alg».proof.Proof.Gen.Pre_finite_inputs
import proofs.«100355_j43800076484745_1_alg».proof.Proof.Gen.ReferenceIdeal.Run
import proofs.«100355_j43800076484745_1_alg».proof.Proof.Gen.ReferenceIdeal.Read
import proofs.«100355_j43800076484745_1_alg».proof.Proof.Bits.Results
import proofs.«100355_j43800076484745_1_alg».proof.Proof.Ideal.ResultValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference is host operations only: its run, the statement about its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs end with the same result array: the kernel's is
    what its third call leaves, which is the reference's result entry by entry. -/
theorem algebraic : Cert.algebraic_KernelIdeal_ReferenceIdeal := by
  intro m ρ m' ρ' _ hagree
  refine ⟨fun c => Cert.KernelIdeal.Hand.o3 m 4 Cert.KernelIdeal.main_v10 c, Cert.KernelIdeal.Hand.run_all (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq]
  obtain ⟨h0, h1, h2, h3, h4, h5, h6, h7⟩ := hagree c
  rw [h0, h1, h2, h3, h4, h5, h6, h7]
  exact (funext fun p => Cert.KernelIdeal.Hand.result_value m c p).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
